-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S1000000 : Shape := ⟨1, ![1000000]⟩
abbrev S1000000x64 : Shape := ⟨2, ![1000000, 64]⟩
abbrev S192x64 : Shape := ⟨2, ![192, 64]⟩
abbrev S64 : Shape := ⟨1, ![64]⟩
abbrev S64x64 : Shape := ⟨2, ![64, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S1000000x64 : S_.BroadcastsInDim S1000000x64 (![] : Fin 0 → Fin S1000000x64.rank)
  reducesTo_S1000000x64_S_d0_1 : S1000000x64.ReducesTo [0, 1] S_
  bcast_S_S192x64 : S_.BroadcastsInDim S192x64 (![] : Fin 0 → Fin S192x64.rank)
  reducesTo_S192x64_S_d0_1 : S192x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S1000000 : S_.BroadcastsInDim S1000000 (![] : Fin 0 → Fin S1000000.rank)
  reducesTo_S1000000_S_d0 : S1000000.ReducesTo [0] S_

variable [Facts]

def fn_part4 {F : FTy → Type} [FloatOps F] (main_arg2 : IVec S1000000 32) (main_v66 : IVec S_ 1) (main_c_26 : IVec S_ 32) : IVec S_ 1 :=
  let main_v67 : IVec S1000000 32 := broadcastInDim S1000000 ![] bcast_S_S1000000 main_c_26
  let main_v68 : IVec S1000000 1 := cmpi .sge main_arg2 main_v67
  let main_c_27 : IVec S_ 1 := constantI S_ 1 1#1
  let main_v69 : IVec S_ 1 := (fun x v => Host.reduce IntOp.andi x v reducesTo_S1000000_S_d0 h_S_) main_v68 main_c_27
  let main_v70 : IVec S_ 1 := andi main_v66 main_v69
  let main_c_28 : IVec S_ 32 := constantI S_ 32 50000#32
  let main_v71 : IVec S1000000 32 := broadcastInDim S1000000 ![] bcast_S_S1000000 main_c_28
  let main_v72 : IVec S1000000 1 := cmpi .slt main_arg2 main_v71
  let main_c_29 : IVec S_ 1 := constantI S_ 1 1#1
  let main_v73 : IVec S_ 1 := (fun x v => Host.reduce IntOp.andi x v reducesTo_S1000000_S_d0 h_S_) main_v72 main_c_29
  let main_v74 : IVec S_ 1 := andi main_v70 main_v73
  main_v74

def fn_part3 {F : FTy → Type} [FloatOps F] (main_arg1 : IVec S1000000 32) (main_arg2 : IVec S1000000 32) (main_arg13 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_c_22 : IVec S_ 32 := constantI S_ 32 0#32
  let main_v59 : IVec S1000000 32 := broadcastInDim S1000000 ![] bcast_S_S1000000 main_c_22
  let main_v60 : IVec S1000000 1 := cmpi .sge main_arg1 main_v59
  let main_c_23 : IVec S_ 1 := constantI S_ 1 1#1
  let main_v61 : IVec S_ 1 := (fun x v => Host.reduce IntOp.andi x v reducesTo_S1000000_S_d0 h_S_) main_v60 main_c_23
  let main_v62 : IVec S_ 1 := andi main_v58 main_v61
  let main_c_24 : IVec S_ 32 := constantI S_ 32 50000#32
  let main_v63 : IVec S1000000 32 := broadcastInDim S1000000 ![] bcast_S_S1000000 main_c_24
  let main_v64 : IVec S1000000 1 := cmpi .slt main_arg1 main_v63
  let main_c_25 : IVec S_ 1 := constantI S_ 1 1#1
  let main_v65 : IVec S_ 1 := (fun x v => Host.reduce IntOp.andi x v reducesTo_S1000000_S_d0 h_S_) main_v64 main_c_25
  let main_v66 : IVec S_ 1 := andi main_v62 main_v65
  let main_c_26 : IVec S_ 32 := constantI S_ 32 0#32
  fn_part4 (F := F) main_arg2 main_v66 main_c_26

def fn_part2 {F : FTy → Type} [FloatOps F] (main_arg1 : IVec S1000000 32) (main_arg2 : IVec S1000000 32) (main_arg9 : FVec F S64 .f32) (main_arg10 : FVec F S64x64 .f32) (main_arg11 : FVec F S64 .f32) (main_arg12 : FVec F S64 .f32) (main_arg13 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg1 main_arg2 main_arg13 main_v48 main_v49 main_v50

def fn_part1 {F : FTy → Type} [FloatOps F] (main_arg1 : IVec S1000000 32) (main_arg2 : IVec S1000000 32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64 .f32) (main_arg13 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg1 main_arg2 main_arg9 main_arg10 main_arg11 main_arg12 main_arg13 main_v33

def fn {F : FTy → Type} [FloatOps F] (main_arg0 : FVec F S50000x64 .f32) (main_arg1 : IVec S1000000 32) (main_arg2 : IVec S1000000 32) (main_arg3 : FVec F S1000000x64 .f32) (main_arg4 : FVec F S192x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64 .f32) (main_arg13 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S1000000x64 .f32 := Host.absf main_arg3
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_v9 : FVec F S192x64 .f32 := Host.absf main_arg4
  let main_cst_2 : FVec F S_ .f32 := constant S_ .f32 0x7F800000#32
  let main_v10 : FVec F S192x64 .f32 := broadcastInDim S192x64 ![] bcast_S_S192x64 main_cst_2
  let main_v11 : IVec S192x64 1 := cmpf .olt main_v9 main_v10
  let main_c_3 : IVec S_ 1 := constantI S_ 1 1#1
  let main_v12 : IVec S_ 1 := (fun x v => Host.reduce IntOp.andi x v reducesTo_S192x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg2 main_arg6 main_arg7 main_arg8 main_arg9 main_arg10 main_arg11 main_arg12 main_arg13 main_v13 main_v16
-- ==== Kernel.lean ====
abbrev S50000x64 : Shape := ⟨2, ![50000, 64]⟩
abbrev S1000000 : Shape := ⟨1, ![1000000]⟩
abbrev S1000000x64 : Shape := ⟨2, ![1000000, 64]⟩
abbrev S192x64 : Shape := ⟨2, ![192, 64]⟩
abbrev S64 : Shape := ⟨1, ![64]⟩
abbrev S64x64 : Shape := ⟨2, ![64, 64]⟩
abbrev S_ : Shape := ⟨0, ![]⟩
abbrev S1000000x1 : Shape := ⟨2, ![1000000, 1]⟩
abbrev S1 : Shape := ⟨1, ![1]⟩
abbrev S1x1 : Shape := ⟨2, ![1, 1]⟩
abbrev S5000x64 : Shape := ⟨2, ![5000, 64]⟩
abbrev S1x64 : Shape := ⟨2, ![1, 64]⟩
abbrev S2000x64 : Shape := ⟨2, ![2000, 64]⟩
abbrev S2000 : Shape := ⟨1, ![2000]⟩
abbrev S2000x1 : Shape := ⟨2, ![2000, 1]⟩

abbrev nBuf : Space → Nat
  | .hbm => 69
  | .vmem => 26
  | .smem => 0
  | _ => 0

abbrev bufTy : (tb : Table) → Fin (tcTables nBuf tb) → BufTy
  | .hbm, ⟨0, _⟩ => ⟨S50000x64, .f32⟩
  | .hbm, ⟨1, _⟩ => ⟨S1000000, .i32⟩
  | .hbm, ⟨2, _⟩ => ⟨S1000000, .i32⟩
  | .hbm, ⟨3, _⟩ => ⟨S1000000x64, .f32⟩
  | .hbm, ⟨4, _⟩ => ⟨S192x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S_, .i32⟩
  | .hbm, ⟨15, _⟩ => ⟨S1000000, .i32⟩
  | .hbm, ⟨16, _⟩ => ⟨S1000000, .i1⟩
  | .hbm, ⟨17, _⟩ => ⟨S_, .i32⟩
  | .hbm, ⟨18, _⟩ => ⟨S1000000, .i32⟩
  | .hbm, ⟨19, _⟩ => ⟨S1000000, .i32⟩
  | .hbm, ⟨20, _⟩ => ⟨S1000000, .i32⟩
  | .hbm, ⟨21, _⟩ => ⟨S1000000x1, .i32⟩
  | .hbm, ⟨22, _⟩ => ⟨S1, .i32⟩
  | .hbm, ⟨23, _⟩ => ⟨S_, .i32⟩
  | .hbm, ⟨24, _⟩ => ⟨S1000000x1, .i32⟩
  | .hbm, ⟨25, _⟩ => ⟨S1000000x1, .i1⟩
  | .hbm, ⟨26, _⟩ => ⟨S1x1, .i32⟩
  | .hbm, ⟨27, _⟩ => ⟨S1000000x1, .i32⟩
  | .hbm, ⟨28, _⟩ => ⟨S1000000x1, .i1⟩
  | .hbm, ⟨29, _⟩ => ⟨S1000000x1, .i1⟩
  | .hbm, ⟨30, _⟩ => ⟨S_, .i1⟩
  | .hbm, ⟨31, _⟩ => ⟨S1000000, .i1⟩
  | .hbm, ⟨32, _⟩ => ⟨S1000000x64, .f32⟩
  | .hbm, ⟨33, _⟩ => ⟨S1000000x64, .i1⟩
  | .hbm, ⟨34, _⟩ => ⟨S_, .f32⟩
  | .hbm, ⟨35, _⟩ => ⟨S1000000x64, .f32⟩
  | .hbm, ⟨36, _⟩ => ⟨S1000000x64, .f32⟩
  | .hbm, ⟨37, _⟩ => ⟨S_, .i32⟩
  | .hbm, ⟨38, _⟩ => ⟨S1000000, .i32⟩
  | .hbm, ⟨39, _⟩ => ⟨S1000000, .i1⟩
  | .hbm, ⟨40, _⟩ => ⟨S_, .i32⟩
  | .hbm, ⟨41, _⟩ => ⟨S1000000, .i32⟩
  | .hbm, ⟨42, _⟩ => ⟨S1000000, .i32⟩
  | .hbm, ⟨43, _⟩ => ⟨S1000000, .i32⟩
  | .hbm, ⟨44, _⟩ => ⟨S1000000x1, .i32⟩
  | .hbm, ⟨45, _⟩ => ⟨S1, .i32⟩
  | .hbm, ⟨46, _⟩ => ⟨S_, .i32⟩
  | .hbm, ⟨47, _⟩ => ⟨S1000000x1, .i32⟩
  | .hbm, ⟨48, _⟩ => ⟨S1000000x1, .i1⟩
  | .hbm, ⟨49, _⟩ => ⟨S1x1, .i32⟩
  | .hbm, ⟨50, _⟩ => ⟨S1000000x1, .i32⟩
  | .hbm, ⟨51, _⟩ => ⟨S1000000x1, .i1⟩
  | .hbm, ⟨52, _⟩ => ⟨S1000000x1, .i1⟩
  | .hbm, ⟨53, _⟩ => ⟨S_, .i1⟩
  | .hbm, ⟨54, _⟩ => ⟨S1000000, .i1⟩
  | .hbm, ⟨55, _⟩ => ⟨S1000000x64, .f32⟩
  | .hbm, ⟨56, _⟩ => ⟨S1000000x64, .i1⟩
  | .hbm, ⟨57, _⟩ => ⟨S_, .f32⟩
  | .hbm, ⟨58, _⟩ => ⟨S1000000x64, .f32⟩
  | .hbm, ⟨59, _⟩ => ⟨S1000000x64, .f32⟩
  | .hbm, ⟨60, _⟩ => ⟨S64x64, .f32⟩
  | .hbm, ⟨61, _⟩ => ⟨S64x64, .f32⟩
  | .hbm, ⟨62, _⟩ => ⟨S64x64, .f32⟩
  | .hbm, ⟨63, _⟩ => ⟨S1000000x64, .f32⟩
  | .hbm, ⟨64, _⟩ => ⟨S_, .f32⟩
  | .hbm, ⟨65, _⟩ => ⟨S50000x64, .f32⟩
  | .hbm, ⟨66, _⟩ => ⟨S1000000x1, .i32⟩
  | .hbm, ⟨67, _⟩ => ⟨S50000x64, .f32⟩
  | .hbm, ⟨68, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S64x64, .f32⟩
  | .local _ .vmem, ⟨7, _⟩ => ⟨S64x64, .f32⟩
  | .local _ .vmem, ⟨8, _⟩ => ⟨S64x64, .f32⟩
  | .local _ .vmem, ⟨9, _⟩ => ⟨S64, .f32⟩
  | .local _ .vmem, ⟨10, _⟩ => ⟨S64x64, .f32⟩
  | .local _ .vmem, ⟨11, _⟩ => ⟨S64, .f32⟩
  | .local _ .vmem, ⟨12, _⟩ => ⟨S5000x64, .f32⟩
  | .local _ .vmem, ⟨13, _⟩ => ⟨S5000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S64x64, .f32⟩
  | .local _ .vmem, ⟨19, _⟩ => ⟨S64, .f32⟩
  | .local _ .vmem, ⟨20, _⟩ => ⟨S64x64, .f32⟩
  | .local _ .vmem, ⟨21, _⟩ => ⟨S64, .f32⟩
  | .local _ .vmem, ⟨22, _⟩ => ⟨S64, .f32⟩
  | .local _ .vmem, ⟨23, _⟩ => ⟨S64, .f32⟩
  | .local _ .vmem, ⟨24, _⟩ => ⟨S2000x64, .f32⟩
  | .local _ .vmem, ⟨25, _⟩ => ⟨S2000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v0 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_cst : Ref sig .tc := ⟨.hbm, 57, rfl⟩
abbrev main_call1_v15 : Ref sig .tc := ⟨.hbm, 58, rfl⟩
abbrev main_v1 : Ref sig .tc := ⟨.hbm, 59, rfl⟩
abbrev main_v2 : Ref sig .tc := ⟨.hbm, 60, rfl⟩
abbrev main_v3 : Ref sig .tc := ⟨.hbm, 61, rfl⟩
abbrev main_v4 : Ref sig .tc := ⟨.hbm, 62, rfl⟩
abbrev main_v5 : Ref sig .tc := ⟨.hbm, 63, rfl⟩
abbrev main_cst : Ref sig .tc := ⟨.hbm, 64, rfl⟩
abbrev main_v6 : Ref sig .tc := ⟨.hbm, 65, rfl⟩
abbrev main_v7 : Ref sig .tc := ⟨.hbm, 66, rfl⟩
abbrev main_v8 : Ref sig .tc := ⟨.hbm, 67, rfl⟩
abbrev main_v9 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg8_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem8_1 : DmaSem sig := 25

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x64_0 : S1000000.BroadcastsInDim S1000000x64 (![0] : Fin 1 → Fin S1000000x64.rank)
  bcast_S_S1000000x64 : S_.BroadcastsInDim S1000000x64 (![] : Fin 0 → Fin S1000000x64.rank)
  slices_S192x64_S64x64_0_0 : S192x64.Slices ![0, 0] S64x64
  slices_S192x64_S64x64_64_0 : S192x64.Slices ![64, 0] S64x64
  slices_S192x64_S64x64_128_0 : S192x64.Slices ![128, 0] S64x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  bcast_S_S50000x64 : S_.BroadcastsInDim S50000x64 (![] : Fin 0 → Fin S50000x64.rank)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  broadcasts_S1x64_S2000x64 : S1x64.Broadcasts S2000x64
  reduces_S2000x64_S2000 : S2000x64.Reduces [1] S2000
  shapeCasts_S2000_S2000x1 : S2000.ShapeCasts S2000x1
  broadcasts_S2000x1_S2000x64 : S2000x1.Broadcasts S2000x64
  gather_S50000x64_S1000000x1_S1000000x64_1_0_n_n_0_1_164_wf : GatherDims.WF S50000x64 S1000000x1 S1000000x64 [1] [0] [] [0] [] 1 ![1, 64]
  dot_S5000x64_S64x64_S5000x64_1_0_0_1_n_n_wf : DotDims.WF S5000x64 S64x64 S5000x64 [1] [0] [0] [1] [] []
  scatter_S50000x64_S1000000x1_S1000000x64_1_0_0_1_wf : ScatterDims.WF S50000x64 S1000000x1 S1000000x64 [1] [0] [0] 1
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S1000000x64.size a
  hwx0_0 : ∀ i : grid0.Coords, EltTy.bits .f32 = 32 ∨ (Rect.block (s := S1000000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S1000000x64.size a
  hwx0_1 : ∀ i : grid0.Coords, EltTy.bits .f32 = 32 ∨ (Rect.block (s := S1000000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S1000000x64.size a
  hwx0_2 : ∀ i : grid0.Coords, EltTy.bits .f32 = 32 ∨ (Rect.block (s := S1000000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x64.size a ≤ S1000000x64.size a
  hwx0_9 : ∀ i : grid0.Coords, EltTy.bits .f32 = 32 ∨ (Rect.block (s := S1000000x64) S5000x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S50000x64.size a
  hwx1_1 : ∀ i : grid1.Coords, EltTy.bits .f32 = 32 ∨ (Rect.block (s := S50000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64.size a ≤ S64.size a
  hwx1_7 : ∀ i : grid1.Coords, EltTy.bits .f32 = 32 ∨ (Rect.block (s := S64) S64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x64.size a ≤ S50000x64.size a
  hwx1_8 : ∀ i : grid1.Coords, EltTy.bits .f32 = 32 ∨ (Rect.block (s := S50000x64) S2000x64.size (cc1_transform_8 i) (hinb1_8 i)).WholeWords (EltTy.packing .f32)

variable [Facts₀]

def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_v0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S5000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg12) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg13) S64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v9) S2000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x64 : Shape := ⟨2, ![50000, 64]⟩
abbrev S1000000 : Shape := ⟨1, ![1000000]⟩
abbrev S1000000x64 : Shape := ⟨2, ![1000000, 64]⟩
abbrev S192x64 : Shape := ⟨2, ![192, 64]⟩
abbrev S64 : Shape := ⟨1, ![64]⟩
abbrev S64x64 : Shape := ⟨2, ![64, 64]⟩
abbrev S_ : Shape := ⟨0, ![]⟩
abbrev S1000000x1 : Shape := ⟨2, ![1000000, 1]⟩
abbrev S1000000x192 : Shape := ⟨2, ![1000000, 192]⟩
abbrev S1x64 : Shape := ⟨2, ![1, 64]⟩
abbrev S50000 : Shape := ⟨1, ![50000]⟩
abbrev S50000x1 : Shape := ⟨2, ![50000, 1]⟩

abbrev nBuf : Space → Nat
  | .hbm => 116
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S1000000, .i32⟩
  | .hbm, ⟨2, _⟩ => ⟨S1000000, .i32⟩
  | .hbm, ⟨3, _⟩ => ⟨S1000000x64, .f32⟩
  | .hbm, ⟨4, _⟩ => ⟨S192x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S_, .i32⟩
  | .hbm, ⟨15, _⟩ => ⟨S1000000, .i32⟩
  | .hbm, ⟨16, _⟩ => ⟨S1000000, .i1⟩
  | .hbm, ⟨17, _⟩ => ⟨S_, .i32⟩
  | .hbm, ⟨18, _⟩ => ⟨S1000000, .i32⟩
  | .hbm, ⟨19, _⟩ => ⟨S1000000, .i32⟩
  | .hbm, ⟨20, _⟩ => ⟨S1000000, .i32⟩
  | .hbm, ⟨21, _⟩ => ⟨S1000000x1, .i32⟩
  | .hbm, ⟨22, _⟩ => ⟨S1000000x64, .f32⟩
  | .hbm, ⟨23, _⟩ => ⟨S_, .i32⟩
  | .hbm, ⟨24, _⟩ => ⟨S1000000, .i32⟩
  | .hbm, ⟨25, _⟩ => ⟨S1000000, .i1⟩
  | .hbm, ⟨26, _⟩ => ⟨S_, .i32⟩
  | .hbm, ⟨27, _⟩ => ⟨S1000000, .i32⟩
  | .hbm, ⟨28, _⟩ => ⟨S1000000, .i32⟩
  | .hbm, ⟨29, _⟩ => ⟨S1000000, .i32⟩
  | .hbm, ⟨30, _⟩ => ⟨S1000000x1, .i32⟩
  | .hbm, ⟨31, _⟩ => ⟨S1000000x64, .f32⟩
  | .hbm, ⟨32, _⟩ => ⟨S1000000x192, .f32⟩
  | .hbm, ⟨33, _⟩ => ⟨S1000000x64, .f32⟩
  | .hbm, ⟨34, _⟩ => ⟨S1x64, .f32⟩
  | .hbm, ⟨35, _⟩ => ⟨S1000000x64, .f32⟩
  | .hbm, ⟨36, _⟩ => ⟨S1000000x64, .f32⟩
  | .hbm, ⟨37, _⟩ => ⟨S1000000x64, .f32⟩
  | .hbm, ⟨38, _⟩ => ⟨S1000000x64, .f32⟩
  | .hbm, ⟨39, _⟩ => ⟨S_, .f32⟩
  | .hbm, ⟨40, _⟩ => ⟨S1000000x64, .f32⟩
  | .hbm, ⟨41, _⟩ => ⟨S1000000x64, .f32⟩
  | .hbm, ⟨42, _⟩ => ⟨S_, .f32⟩
  | .hbm, ⟨43, _⟩ => ⟨S1000000x64, .f32⟩
  | .hbm, ⟨44, _⟩ => ⟨S1000000x64, .f32⟩
  | .hbm, ⟨45, _⟩ => ⟨S1000000x64, .f32⟩
  | .hbm, ⟨46, _⟩ => ⟨S1000000x64, .f32⟩
  | .hbm, ⟨47, _⟩ => ⟨S1x64, .f32⟩
  | .hbm, ⟨48, _⟩ => ⟨S1000000x64, .f32⟩
  | .hbm, ⟨49, _⟩ => ⟨S1000000x64, .f32⟩
  | .hbm, ⟨50, _⟩ => ⟨S_, .f32⟩
  | .hbm, ⟨51, _⟩ => ⟨S50000x64, .f32⟩
  | .hbm, ⟨52, _⟩ => ⟨S1000000x1, .i32⟩
  | .hbm, ⟨53, _⟩ => ⟨S50000x64, .f32⟩
  | .hbm, ⟨54, _⟩ => ⟨S50000x64, .f32⟩
  | .hbm, ⟨55, _⟩ => ⟨S1x64, .f32⟩
  | .hbm, ⟨56, _⟩ => ⟨S50000x64, .f32⟩
  | .hbm, ⟨57, _⟩ => ⟨S50000x64, .f32⟩
  | .hbm, ⟨58, _⟩ => ⟨S50000x64, .f32⟩
  | .hbm, ⟨59, _⟩ => ⟨S50000x64, .f32⟩
  | .hbm, ⟨60, _⟩ => ⟨S_, .f32⟩
  | .hbm, ⟨61, _⟩ => ⟨S50000x64, .f32⟩
  | .hbm, ⟨62, _⟩ => ⟨S50000x64, .f32⟩
  | .hbm, ⟨63, _⟩ => ⟨S_, .f32⟩
  | .hbm, ⟨64, _⟩ => ⟨S50000x64, .f32⟩
  | .hbm, ⟨65, _⟩ => ⟨S50000x64, .f32⟩
  | .hbm, ⟨66, _⟩ => ⟨S50000x64, .f32⟩
  | .hbm, ⟨67, _⟩ => ⟨S50000x64, .f32⟩
  | .hbm, ⟨68, _⟩ => ⟨S1x64, .f32⟩
  | .hbm, ⟨69, _⟩ => ⟨S50000x64, .f32⟩
  | .hbm, ⟨70, _⟩ => ⟨S50000x64, .f32⟩
  | .hbm, ⟨71, _⟩ => ⟨S50000x64, .f32⟩
  | .hbm, ⟨72, _⟩ => ⟨S_, .f32⟩
  | .hbm, ⟨73, _⟩ => ⟨S50000, .f32⟩
  | .hbm, ⟨74, _⟩ => ⟨S50000x1, .f32⟩
  | .hbm, ⟨75, _⟩ => ⟨S_, .f32⟩
  | .hbm, ⟨76, _⟩ => ⟨S50000x1, .f32⟩
  | .hbm, ⟨77, _⟩ => ⟨S50000x1, .f32⟩
  | .hbm, ⟨78, _⟩ => ⟨S_, .i32⟩
  | .hbm, ⟨79, _⟩ => ⟨S_, .f32⟩
  | .hbm, ⟨80, _⟩ => ⟨S50000, .f32⟩
  | .hbm, ⟨81, _⟩ => ⟨S50000x1, .f32⟩
  | .hbm, ⟨82, _⟩ => ⟨S_, .f32⟩
  | .hbm, ⟨83, _⟩ => ⟨S50000x1, .f32⟩
  | .hbm, ⟨84, _⟩ => ⟨S50000x1, .f32⟩
  | .hbm, ⟨85, _⟩ => ⟨S50000x64, .f32⟩
  | .hbm, ⟨86, _⟩ => ⟨S50000x64, .f32⟩
  | .hbm, ⟨87, _⟩ => ⟨S50000x64, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S50000, .f32⟩
  | .hbm, ⟨93, _⟩ => ⟨S50000x1, .f32⟩
  | .hbm, ⟨94, _⟩ => ⟨S50000x1, .f32⟩
  | .hbm, ⟨95, _⟩ => ⟨S50000x1, .f32⟩
  | .hbm, ⟨96, _⟩ => ⟨S_, .f32⟩
  | .hbm, ⟨97, _⟩ => ⟨S_, .i1⟩
  | .hbm, ⟨98, _⟩ => ⟨S_, .f32⟩
  | .hbm, ⟨99, _⟩ => ⟨S_, .f32⟩
  | .hbm, ⟨100, _⟩ => ⟨S50000x1, .f32⟩
  | .hbm, ⟨101, _⟩ => ⟨S50000x1, .f32⟩
  | .hbm, ⟨102, _⟩ => ⟨S50000x64, .f32⟩
  | .hbm, ⟨103, _⟩ => ⟨S50000x64, .f32⟩
  | .hbm, ⟨104, _⟩ => ⟨S_, .f32⟩
  | .hbm, ⟨105, _⟩ => ⟨S50000x1, .f32⟩
  | .hbm, ⟨106, _⟩ => ⟨S50000x1, .f32⟩
  | .hbm, ⟨107, _⟩ => ⟨S50000x1, .f32⟩
  | .hbm, ⟨108, _⟩ => ⟨S50000x64, .f32⟩
  | .hbm, ⟨109, _⟩ => ⟨S50000x64, .f32⟩
  | .hbm, ⟨110, _⟩ => ⟨S1x64, .f32⟩
  | .hbm, ⟨111, _⟩ => ⟨S50000x64, .f32⟩
  | .hbm, ⟨112, _⟩ => ⟨S50000x64, .f32⟩
  | .hbm, ⟨113, _⟩ => ⟨S1x64, .f32⟩
  | .hbm, ⟨114, _⟩ => ⟨S50000x64, .f32⟩
  | .hbm, ⟨115, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_call1_v0 : Ref sig .tc := ⟨.hbm, 58, rfl⟩
abbrev main_call1_v1 : Ref sig .tc := ⟨.hbm, 59, rfl⟩
abbrev main_call1_cst : Ref sig .tc := ⟨.hbm, 60, rfl⟩
abbrev main_call1_v2 : Ref sig .tc := ⟨.hbm, 61, rfl⟩
abbrev main_call1_v3 : Ref sig .tc := ⟨.hbm, 62, rfl⟩
abbrev main_call1_cst_0 : Ref sig .tc := ⟨.hbm, 63, rfl⟩
abbrev main_call1_v4 : Ref sig .tc := ⟨.hbm, 64, rfl⟩
abbrev main_call1_v5 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_cst_3 : Ref sig .tc := ⟨.hbm, 72, rfl⟩
abbrev main_v37 : Ref sig .tc := ⟨.hbm, 73, rfl⟩
abbrev main_v38 : Ref sig .tc := ⟨.hbm, 74, rfl⟩
abbrev main_cst_4 : Ref sig .tc := ⟨.hbm, 75, rfl⟩
abbrev main_v39 : Ref sig .tc := ⟨.hbm, 76, rfl⟩
abbrev main_v40 : Ref sig .tc := ⟨.hbm, 77, rfl⟩
abbrev main_c_5 : Ref sig .tc := ⟨.hbm, 78, rfl⟩
abbrev main_call2_cst : Ref sig .tc := ⟨.hbm, 79, rfl⟩
abbrev main_call2_v0 : Ref sig .tc := ⟨.hbm, 80, rfl⟩
abbrev main_call2_v1 : Ref sig .tc := ⟨.hbm, 81, rfl⟩
abbrev main_call2_cst_0 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_v5 : Ref sig .tc := ⟨.hbm, 86, rfl⟩
abbrev main_call2_v6 : Ref sig .tc := ⟨.hbm, 87, rfl⟩
abbrev main_call2_v7 : Ref sig .tc := ⟨.hbm, 88, rfl⟩
abbrev main_call2_cst_1 : Ref sig .tc := ⟨.hbm, 89, rfl⟩
abbrev main_call2_v8 : Ref sig .tc := ⟨.hbm, 90, rfl⟩
abbrev main_call2_cst_2 : Ref sig .tc := ⟨.hbm, 91, rfl⟩
abbrev main_call2_v9 : Ref sig .tc := ⟨.hbm, 92, rfl⟩
abbrev main_call2_v10 : Ref sig .tc := ⟨.hbm, 93, rfl⟩
abbrev main_call2_v11 : Ref sig .tc := ⟨.hbm, 94, rfl⟩
abbrev main_call2_v12 : Ref sig .tc := ⟨.hbm, 95, rfl⟩
abbrev main_call2_cst_3 : Ref sig .tc := ⟨.hbm, 96, rfl⟩
abbrev main_call2_v13 : Ref sig .tc := ⟨.hbm, 97, rfl⟩
abbrev main_call2_cst_4 : Ref sig .tc := ⟨.hbm, 98, rfl⟩
abbrev main_call2_call0_v0 : Ref sig .tc := ⟨.hbm, 99, rfl⟩
abbrev main_call2_call0_v1 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_cst_6 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x64_S1000000x64_S1000000x64_S1000000x192_d1 : Shape.Concatenates [S1000000x64, S1000000x64, S1000000x64] S1000000x192 1
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  bcast_S_S50000x64 : S_.BroadcastsInDim S50000x64 (![] : Fin 0 → Fin S50000x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  gather_S50000x64_S1000000x1_S1000000x64_1_0_n_n_0_1_164_wf : GatherDims.WF S50000x64 S1000000x1 S1000000x64 [1] [0] [] [0] [] 1 ![1, 64]
  dot_S1000000x192_S192x64_S1000000x64_1_0_0_1_n_n_wf : DotDims.WF S1000000x192 S192x64 S1000000x64 [1] [0] [0] [1] [] []
  dot_S1000000x64_S64x64_S1000000x64_1_0_0_1_n_n_wf : DotDims.WF S1000000x64 S64x64 S1000000x64 [1] [0] [0] [1] [] []
  scatter_S50000x64_S1000000x1_S1000000x64_1_0_0_1_wf : ScatterDims.WF S50000x64 S1000000x1 S1000000x64 [1] [0] [0] 1
  dot_S50000x64_S64x64_S50000x64_1_0_0_1_n_n_wf : DotDims.WF S50000x64 S64x64 S50000x64 [1] [0] [0] [1] [] []

variable [Facts₀]

def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def dot_S1000000x192_S192x64_S1000000x64_1_0_0_1_n_n : DotDims S1000000x192 S192x64 S1000000x64 where
  lhsContracting := [1]
  rhsContracting := [0]
  lhsNonContracting := [0]
  rhsNonContracting := [1]
  lhsBatch := []
  rhsBatch := []
  wf := dot_S1000000x192_S192x64_S1000000x64_1_0_0_1_n_n_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.Spec.lean ====
/-
  The message-passing layer as plain functions of rows, over the extended reals.

  One edge row of the message network: with s, d, e the 64 features of the source node, the target node and the
  edge, the hidden vector is h k = ((Σ_i s_i·A_ik + Σ_i d_i·B_ik) + Σ_i e_i·C_ik) + b1_k, the activation is
  silu x = x · σ(x) with σ the logistic function, and the message is m_j = Σ_k silu(h k)·W2_kj + b2_j.
  One node row of the update network followed by the layer normalisation: from the node's features x0 and its
  aggregated messages a, u_j = Σ_k silu((Σ_i a_i·U1_ik) + c1_k)·U2_kj + c2_j, x = x0 + u, the mean μ = (Σ_j x_j)/64,
  the centred row δ = x − μ, the variance v = (Σ_j δ_j²)/64, and the result (δ_j · (v + ε)^(−1/2)) · γ_j + β_j.
  The arrays are these row functions applied row by row.  Also here: a sum over 192 = 64 + 64 + 64 indices is the sum
  of its three consecutive parts, which is how one contraction against the stacked weight matrix equals the three
  contractions against its row blocks; it uses only that addition of extended reals is commutative and associative.
-/
import Idealize.ShloMosaic.PureOps.Ideal
import Idealize.ShloMosaic.Lib.ValueIdx

noncomputable section

namespace Cert.Spec

open Idealize.ShloMosaic Idealize.ShloMosaic.ValueIdx

/-- A matrix of 64 × 64 weights and a vector of 64 biases, as index functions. -/
abbrev Mat64 : Type := (⟨2, ![64, 64]⟩ : Shape).Idx → EReal
abbrev Vec64 : Type := (⟨1, ![64]⟩ : Shape).Idx → EReal
/-- An array of `n` rows of 64 features. -/
abbrev Rows (n : Nat) : Type := (⟨2, ![n, 64]⟩ : Shape).Idx → EReal

/-- `silu x = x · σ(x)`. -/
def silu (x : EReal) : EReal := x * Ideal.logistic x

/-- The hidden pre-activation of the message network at hidden unit `k`. -/
def msgHidden (s d e : Fin 64 → EReal) (A B C : Mat64) (b1 : Vec64) (k : Fin 64) : EReal :=
  (((∑ i : Fin 64, s i * A (ix2 i k)) + ∑ i : Fin 64, d i * B (ix2 i k)) + ∑ i : Fin 64, e i * C (ix2 i k)) + b1 (ix1 k)

/-- One row of messages. -/
def msgRow (s d e : Fin 64 → EReal) (A B C : Mat64) (b1 : Vec64) (W2 : Mat64) (b2 : Vec64) (j : Fin 64) : EReal :=
  (∑ k : Fin 64, silu (msgHidden s d e A B C b1 k) * W2 (ix2 k j)) + b2 (ix1 j)

/-- Row `r` of an array of rows. -/
def rowOf {n : Nat} (x : Rows n) (r : Fin n) : Fin 64 → EReal := fun k => x (ix2 r k)

/-- The messages of `n` edges, row by row. -/
def msgArr {n : Nat} (src dst edge : Rows n) (A B C : Mat64) (b1 : Vec64) (W2 : Mat64) (b2 : Vec64) : Rows n :=
  fun i => msgRow (rowOf src (i 0)) (rowOf dst (i 0)) (rowOf edge (i 0)) A B C b1 W2 b2 (i 1)

/-- The update network's output added to the node's features. -/
def updPre (x0 a : Fin 64 → EReal) (U1 : Mat64) (c1 : Vec64) (U2 : Mat64) (c2 : Vec64) (j : Fin 64) : EReal :=
  x0 j + ((∑ k : Fin 64, silu ((∑ i : Fin 64, a i * U1 (ix2 i k)) + c1 (ix1 k)) * U2 (ix2 k j)) + c2 (ix1 j))

/-- The layer normalisation of a row `x` with scale `γ`, shift `β`, the divisor `n64` and the `ε` under the root. -/
def layerNorm (n64 eps : EReal) (x : Fin 64 → EReal) (γ β : Vec64) (j : Fin 64) : EReal :=
  let μ := Ideal.div (∑ l : Fin 64, x l) n64
  let v := Ideal.div (∑ l : Fin 64, (x l - μ) * (x l - μ)) n64
  ((x j - μ) * Ideal.rsqrt (v + eps)) * γ (ix1 j) + β (ix1 j)

/-- The literal 64 and the literal under the root, as the words both programs carry. -/
abbrev c64 : EReal := Ideal.ofBits .f32 0x42800000#32
abbrev cEps : EReal := Ideal.ofBits .f32 0x3727C5AC#32

/-- One row of the layer's result. -/
def updRow (x0 a : Fin 64 → EReal) (U1 : Mat64) (c1 : Vec64) (U2 : Mat64) (c2 γ β : Vec64) (j : Fin 64) : EReal :=
  layerNorm c64 cEps (updPre x0 a U1 c1 U2 c2) γ β j

/-- The layer's result for `n` nodes, row by row. -/
def updArr {n : Nat} (node agg : Rows n) (U1 : Mat64) (c1 : Vec64) (U2 : Mat64) (c2 γ β : Vec64) : Rows n :=
  fun i => updRow (rowOf node (i 0)) (rowOf agg (i 0)) U1 c1 U2 c2 γ β (i 1)

/-- Rows `o … o + 63` of a 192 × 64 matrix. -/
def wRows (o : Nat) (ho : o + 64 ≤ 192) (w : (⟨2, ![192, 64]⟩ : Shape).Idx → EReal) : Mat64 :=
  fun i => w (ix2 (n0 := 192) (n1 := 64) ⟨o + (i 0).val, by have h : (i 0).val < 64 := (i 0).isLt; omega⟩ (i 1))

/-- A sum over 192 consecutive indices is the sum of its three parts of 64. -/
theorem sum192_split (f : Fin 192 → EReal) :
    ∑ i : Fin 192, f i
      = ((∑ i : Fin 64, f ⟨i.val, by omega⟩) + ∑ i : Fin 64, f ⟨64 + i.val, by omega⟩) + ∑ i : Fin 64, f ⟨128 + i.val, by omega⟩ := by
  have h1 := Fin.sum_univ_add (a := 128) (b := 64) (fun i : Fin (128 + 64) => f ⟨i.val, by omega⟩)
  have h2 := Fin.sum_univ_add (a := 64) (b := 64) (fun i : Fin (64 + 64) => f ⟨i.val, by omega⟩)
  simp only [Fin.val_castAdd, Fin.val_natAdd] at h1 h2
  exact h1.trans (by rw [h2])

end Cert.Spec

end
-- ==== Proof.KTerms.lean ====
/-
  The kernel program's host operations around its two pallas regions, grouped into named stages, and the program's result
  as one function of its fourteen arguments: `take` of the node features at the source and target indices (the gather at
  the wrapped index, masked to the not-a-number pattern where the wrapped index falls outside `[0, 49999]`), the three
  row blocks of the first weight matrix, the message rows, their scatter-add onto the target nodes, and the update rows.
-/
import proofs.«422307_j31559419691865_1_alg».proof.KernelIdeal
import proofs.«422307_j31559419691865_1_alg».proof.Proof.Gen.KernelIdeal
import proofs.«422307_j31559419691865_1_alg».proof.Proof.Spec

noncomputable section

namespace Cert.KernelIdeal.Terms

open Cert.KernelIdeal Cert.KernelIdeal.Facts₀ Cert.KernelIdeal.Facts Idealize.ShloMosaic

/-- A row index with Python's wrap of negatives (`i < 0 ↦ i + 50000`), as a column of start indices. -/
def wrapIdx (i : IVec S1000000 32) : IVec S1000000x1 32 :=
  broadcastInDim S1000000x1 ![0] bcast_S1000000_S1000000x1_0
    (select (cmpi .slt i (broadcastInDim S1000000 ![] bcast_S_S1000000 (constantI S_ 32 0#32)))
      (addi i (broadcastInDim S1000000 ![] bcast_S_S1000000 (constantI S_ 32 50000#32))) i)

/-- Per edge: is the wrapped index inside `[0, 49999]`? -/
def inRange (I : IVec S1000000x1 32) : IVec S1000000 1 :=
  Host.reduce IntOp.andi
    (andi (cmpi .sge I (broadcastInDim S1000000x1 ![] bcast_S_S1000000x1 (constantI S_ 32 0#32)))
      (cmpi .sle I (broadcastInDim S1000000x1 ![0, 1] bcast_S1x1_S1000000x1_0_1
        (broadcastInDim S1x1 ![1] bcast_S1_S1x1_1 (constantI S1 32 49999#32)))))
    (constantI S_ 1 1#1) reducesTo_S1000000x1_S1000000_d1 h_S_

/-- `jnp.take(node_feat, i, axis=0)`: the gathered rows where the wrapped index is in range, the not-a-number pattern elsewhere. -/
def takeRows (a0 : FVec Ideal S50000x64 .f32) (i : IVec S1000000 32) : FVec Ideal S1000000x64 .f32 :=
  select (broadcastInDim S1000000x64 ![0] bcast_S1000000_S1000000x64_0 (inRange (wrapIdx i)))
    (Host.gather gather_S50000x64_S1000000x1_S1000000x64_1_0_n_n_0_1_164 a0 (wrapIdx i))
    (broadcastInDim S1000000x64 ![] bcast_S_S1000000x64 (constant S_ .f32 0x7FC00000#32))

/-- Rows 0–63, 64–127 and 128–191 of the first weight matrix. -/
def wSrc (a4 : FVec Ideal S192x64 .f32) : FVec Ideal S64x64 .f32 := extractStridedSlice S64x64 ![0, 0] a4 slices_S192x64_S64x64_0_0
def wDst (a4 : FVec Ideal S192x64 .f32) : FVec Ideal S64x64 .f32 := extractStridedSlice S64x64 ![64, 0] a4 slices_S192x64_S64x64_64_0
def wEdge (a4 : FVec Ideal S192x64 .f32) : FVec Ideal S64x64 .f32 := extractStridedSlice S64x64 ![128, 0] a4 slices_S192x64_S64x64_128_0

/-- The messages summed onto their target nodes. -/
def aggK (msgs : FVec Ideal S1000000x64 .f32) (a2 : IVec S1000000 32) : FVec Ideal S50000x64 .f32 :=
  Host.scatterAdd scatter_S50000x64_S1000000x1_S1000000x64_1_0_0_1
    (broadcastInDim S50000x64 ![] bcast_S_S50000x64 (constant S_ .f32 0x00000000#32))
    (broadcastInDim S1000000x1 ![0] bcast_S1000000_S1000000x1_0 a2) msgs

/-- The message rows the first region leaves, from the program's arguments. -/
def kMsg (a0 : FVec Ideal S50000x64 .f32) (a1 a2 : IVec S1000000 32) (a3 : FVec Ideal S1000000x64 .f32) (a4 : FVec Ideal S192x64 .f32)
    (a5 : FVec Ideal S64 .f32) (a6 : FVec Ideal S64x64 .f32) (a7 : FVec Ideal S64 .f32) : FVec Ideal S1000000x64 .f32 :=
  Cert.Spec.msgArr (n := 1000000) (takeRows a0 a1) (takeRows a0 a2) a3 (wSrc a4) (wDst a4) (wEdge a4) a5 a6 a7

/-- The kernel program's result as a function of its fourteen arguments. -/
def kOut (a0 : FVec Ideal S50000x64 .f32) (a1 a2 : IVec S1000000 32) (a3 : FVec Ideal S1000000x64 .f32) (a4 : FVec Ideal S192x64 .f32)
    (a5 : FVec Ideal S64 .f32) (a6 : FVec Ideal S64x64 .f32) (a7 : FVec Ideal S64 .f32) (a8 : FVec Ideal S64x64 .f32) (a9 : FVec Ideal S64 .f32)
    (a10 : FVec Ideal S64x64 .f32) (a11 a12 a13 : FVec Ideal S64 .f32) : FVec Ideal S50000x64 .f32 :=
  Cert.Spec.updArr (n := 50000) a0 (aggK (kMsg a0 a1 a2 a3 a4 a5 a6 a7) a2) a8 a9 a10 a11 a12 a13

end Cert.KernelIdeal.Terms

end
-- ==== Proof.MsgBody.lean ====
/-
  The first region's body, as arithmetic: the value it stores for a block of 5000 edges is the message rows of that block.
-/
import proofs.«422307_j31559419691865_1_alg».proof.Proof.Gen.KernelIdeal.Skeleton
import proofs.«422307_j31559419691865_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.MsgBody

open Cert.KernelIdeal Cert.KernelIdeal.Gen Idealize.ShloMosaic Idealize.ShloMosaic.ValueIdx

/-! ### The contraction's index maps

At the result index `(r, j)` and the contraction position `k` the left operand is read at `(r, k)` and the right one at
`(k, j)`: one lemma per operand and axis. -/

theorem lhs_dot_0 (j : S5000x64.Idx) (k : dot_S5000x64_S64x64_S5000x64_1_0_0_1_n_n.contr.Idx) :
    (dot_S5000x64_S64x64_S5000x64_1_0_0_1_n_n.lhsIdx j k 0 : ℕ) = j 0 := by
  simp [DotDims.lhsIdx, dot_S5000x64_S64x64_S5000x64_1_0_0_1_n_n]; rfl
theorem lhs_dot_1 (j : S5000x64.Idx) (k : dot_S5000x64_S64x64_S5000x64_1_0_0_1_n_n.contr.Idx) :
    (dot_S5000x64_S64x64_S5000x64_1_0_0_1_n_n.lhsIdx j k 1 : ℕ) = k ⟨0, by decide⟩ :=
  DotDims.lhsIdx_val_of_single _ rfl j k
theorem rhs_dot_0 (j : S5000x64.Idx) (k : dot_S5000x64_S64x64_S5000x64_1_0_0_1_n_n.contr.Idx) :
    (dot_S5000x64_S64x64_S5000x64_1_0_0_1_n_n.rhsIdx j k 0 : ℕ) = k ⟨0, by decide⟩ :=
  DotDims.rhsIdx_val_of_single _ rfl j k
theorem rhs_dot_1 (j : S5000x64.Idx) (k : dot_S5000x64_S64x64_S5000x64_1_0_0_1_n_n.contr.Idx) :
    (dot_S5000x64_S64x64_S5000x64_1_0_0_1_n_n.rhsIdx j k 1 : ℕ) = j 1 := by
  simp [DotDims.rhsIdx, dot_S5000x64_S64x64_S5000x64_1_0_0_1_n_n]; rfl

/-! ### A product of a block of rows by a 64 × 64 matrix, read at an element -/

/-- Accumulated into zero, the product of `lhs` (5000 × 64) by `rhs` (64 × 64) at `(r, j)` is `∑ k, lhs (r, k) · rhs (k, j)`. -/
theorem matmul_at {φ₁ φ₂ : FTy} (lhs : FVec Ideal S5000x64 φ₁) (rhs : FVec Ideal S64x64 φ₂) (r : Fin 5000) (j : Fin 64) :
    matmul dot_S5000x64_S64x64_S5000x64_1_0_0_1_n_n none lhs rhs (constant (F := Ideal) S5000x64 .f32 0x00000000#32) (ix2 r j)
      = ∑ k : Fin 64, lhs (ix2 r k) * rhs (ix2 k j) := by
  refine (Ideal.matmul_constant_zero_apply dot_S5000x64_S64x64_S5000x64_1_0_0_1_n_n none lhs rhs (ix2 r j)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have hl : dot_S5000x64_S64x64_S5000x64_1_0_0_1_n_n.lhsIdx (ix2 r j)
      ((contrEquiv1 dot_S5000x64_S64x64_S5000x64_1_0_0_1_n_n 64 rfl rfl).symm k) = ix2 r k :=
    funext fun a => Fin.ext (by
      match a with
      | ⟨0, _⟩ => exact lhs_dot_0 _ _
      | ⟨1, _⟩ => exact (lhs_dot_1 _ _).trans hk)
  have hr : dot_S5000x64_S64x64_S5000x64_1_0_0_1_n_n.rhsIdx (ix2 r j)
      ((contrEquiv1 dot_S5000x64_S64x64_S5000x64_1_0_0_1_n_n 64 rfl rfl).symm k) = ix2 k j :=
    funext fun a => Fin.ext (by
      match a with
      | ⟨0, _⟩ => exact (rhs_dot_0 _ _).trans hk
      | ⟨1, _⟩ => exact rhs_dot_1 _ _)
  rw [hl, hr]

/-! ### A bias row broadcast over the block, read at an element -/

/-- A vector of 64 biases viewed as one row and repeated over 5000 rows reads, at `(r, j)`, the bias `j`. -/
theorem bias_at {α : Type} (v : S64.Idx → α) (r : Fin 5000) (j : Fin 64) :
    broadcastTo S5000x64 (shapeCast S1x64 v shapeCasts_S64_S1x64) broadcasts_S1x64_S5000x64 (ix2 r j) = v (ix1 j) :=
  (broadcastTo_1b_ab_apply _ _ r j).trans (shapeCast_a_1a_apply v _ 0 j)

/-! ### The hidden layer of the block, read at an element -/

/-- The three products added left to right plus the first bias, at row `r` and hidden unit `k`, is the hidden
    pre-activation of edge `r` at `k`. -/
theorem hidden_at (x0 x1 x2 : FVec Ideal S5000x64 .f32) (x3 x4 x5 : FVec Ideal S64x64 .f32) (x6 : FVec Ideal S64 .f32)
    (r : Fin 5000) (k : Fin 64) :
    addf (addf (addf (matmul dot_S5000x64_S64x64_S5000x64_1_0_0_1_n_n none (truncf .bf16 (shapeCast S5000x64 x0 shapeCasts_S5000x64_S5000x64) bitsLt_bf16_f32) (truncf .bf16 (shapeCast S64x64 x3 shapeCasts_S64x64_S64x64) bitsLt_bf16_f32) (constant (F := Ideal) S5000x64 .f32 0x00000000#32))
          (matmul dot_S5000x64_S64x64_S5000x64_1_0_0_1_n_n none (truncf .bf16 (shapeCast S5000x64 x1 shapeCasts_S5000x64_S5000x64) bitsLt_bf16_f32) (truncf .bf16 (shapeCast S64x64 x4 shapeCasts_S64x64_S64x64) bitsLt_bf16_f32) (constant (F := Ideal) S5000x64 .f32 0x00000000#32)))
        (matmul dot_S5000x64_S64x64_S5000x64_1_0_0_1_n_n none (truncf .bf16 x2 bitsLt_bf16_f32) (truncf .bf16 (shapeCast S64x64 x5 shapeCasts_S64x64_S64x64) bitsLt_bf16_f32) (constant (F := Ideal) S5000x64 .f32 0x00000000#32)))
      (broadcastTo S5000x64 (shapeCast S1x64 x6 shapeCasts_S64_S1x64) broadcasts_S1x64_S5000x64) (ix2 r k)
      = Cert.Spec.msgHidden (fun i => x0 (ix2 r i)) (fun i => x1 (ix2 r i)) (fun i => x2 (ix2 r i)) x3 x4 x5 x6 k := by
  rw [addf_apply, addf_apply, addf_apply, matmul_at, matmul_at, matmul_at, bias_at]
  simp only [truncf_apply, shapeCast_self]
  rfl

/-- The logistic function applied to an array reads, at an index, the logistic function of the element. -/
theorem logistic_at {s : Shape} {φ : FTy} (v : FVec Ideal s φ) (i : s.Idx) : logistic v i = Ideal.logistic (v i) := rfl

/-- The stored value of the message kernel's body on blocks `x0 x1 x2` (source, target and edge features of 5000 edges)
    and the weights is the message rows of those blocks. -/
theorem msg_payload (x0 x1 x2 : FVec Ideal S5000x64 .f32) (x3 x4 x5 : FVec Ideal S64x64 .f32) (x6 : FVec Ideal S64 .f32)
    (x7 : FVec Ideal S64x64 .f32) (x8 : FVec Ideal S64 .f32) :
    k0_pay1 (F := Ideal) x0 x1 x2 x3 x4 x5 x6 x7 x8 = Cert.Spec.msgArr (n := 5000) x0 x1 x2 x3 x4 x5 x6 x7 x8 := by
  funext i
  obtain ⟨r, j, rfl⟩ : ∃ (r : Fin 5000) (j : Fin 64), i = ix2 r j := ⟨i 0, i 1, eq_ix2 i⟩
  unfold k0_pay1
  rw [addf_apply, matmul_at, bias_at]
  unfold Cert.Spec.msgArr Cert.Spec.msgRow
  refine congrArg₂ (· + ·) (Finset.sum_congr rfl fun k _ => ?_) rfl
  rw [truncf_apply, truncf_apply, mulf_apply]
  rw [logistic_at, hidden_at]
  rfl

end Cert.KernelIdeal.MsgBody

end
-- ==== Proof.MsgRegion.lean ====
/-
  The first region's output array after its 200 grid points: the message rows of the arrays it finds at entry.
-/
import proofs.«422307_j31559419691865_1_alg».proof.Proof.Gen.KernelIdeal.Frame
import proofs.«422307_j31559419691865_1_alg».proof.Proof.MsgBody
import Idealize.ShloMosaic.Lib.Pipeline.Value

noncomputable section

namespace Cert.KernelIdeal.MsgRegion

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- The index maps, decided over the grid: a row-blocked window's block index at point `t` is `(t, 0)`; a weight or
    bias window's is zero on every axis. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ win0_6.index t (0 : Fin 1) = 0
    ∧ (win0_7.index t (0 : Fin 2) = 0 ∧ win0_7.index t (1 : Fin 2) = 0)
    ∧ win0_8.index t (0 : Fin 1) = 0
    ∧ (win0_9.index t (0 : Fin 2) = t.val ∧ win0_9.index t (1 : Fin 2) = 0) ∧ True :=
  (by decide +kernel : ∀ t : Fin grid0.N, _)

/-- Window 0's block at point `t` is rows `5000 t … 5000 t + 4999` of its array. -/
theorem blk0_apply (c : Dev nD) (t : Fin cfg0.N) (x : S5000x64.Idx) (k : S1000000x64.Idx)
    (hk0 : (k 0).val = 5000 * t.val + (x 0).val) (hk1 : (k 1).val = (x 1).val) :
    (iblk0 (F := Ideal) V c 0 t : Vec Ideal S5000x64 .f32) x = (V c main_v0 : S1000000x64.Idx → EReal) k := by
  have e := (idx_facts t).1
  unfold iblk0
  rw [View.read_apply]
  show V c main_v0 _ = V c main_v0 _
  congr 1
  funext a
  apply Fin.ext
  match a with
  | ⟨0, _⟩ => show win0_0.index t (0 : Fin 2) * 5000 + 1 * (x 0).val = (k 0).val; rw [e.1, hk0]; omega
  | ⟨1, _⟩ => show win0_0.index t (1 : Fin 2) * 64 + 1 * (x 1).val = (k 1).val; rw [e.2, hk1]; omega

/-- Window 1's block at point `t` is rows `5000 t … 5000 t + 4999` of its array. -/
theorem blk1_apply (c : Dev nD) (t : Fin cfg0.N) (x : S5000x64.Idx) (k : S1000000x64.Idx)
    (hk0 : (k 0).val = 5000 * t.val + (x 0).val) (hk1 : (k 1).val = (x 1).val) :
    (iblk0 (F := Ideal) V c 1 t : Vec Ideal S5000x64 .f32) x = (V c main_v1 : S1000000x64.Idx → EReal) k := by
  have e := (idx_facts t).2.1
  unfold iblk0
  rw [View.read_apply]
  show V c main_v1 _ = V c main_v1 _
  congr 1
  funext a
  apply Fin.ext
  match a with
  | ⟨0, _⟩ => show win0_1.index t (0 : Fin 2) * 5000 + 1 * (x 0).val = (k 0).val; rw [e.1, hk0]; omega
  | ⟨1, _⟩ => show win0_1.index t (1 : Fin 2) * 64 + 1 * (x 1).val = (k 1).val; rw [e.2, hk1]; omega

/-- Window 2's block at point `t` is rows `5000 t … 5000 t + 4999` of its array. -/
theorem blk2_apply (c : Dev nD) (t : Fin cfg0.N) (x : S5000x64.Idx) (k : S1000000x64.Idx)
    (hk0 : (k 0).val = 5000 * t.val + (x 0).val) (hk1 : (k 1).val = (x 1).val) :
    (iblk0 (F := Ideal) V c 2 t : Vec Ideal S5000x64 .f32) x = (V c main_arg3 : S1000000x64.Idx → EReal) k := by
  have e := (idx_facts t).2.2.1
  unfold iblk0
  rw [View.read_apply]
  show V c main_arg3 _ = V c main_arg3 _
  congr 1
  funext a
  apply Fin.ext
  match a with
  | ⟨0, _⟩ => show win0_2.index t (0 : Fin 2) * 5000 + 1 * (x 0).val = (k 0).val; rw [e.1, hk0]; omega
  | ⟨1, _⟩ => show win0_2.index t (1 : Fin 2) * 64 + 1 * (x 1).val = (k 1).val; rw [e.2, hk1]; omega

/-- Window 3's block at every point is its whole 64 × 64 array. -/
theorem blk3_eq (c : Dev nD) (t : Fin cfg0.N) :
    (iblk0 (F := Ideal) V c 3 t : Vec Ideal S64x64 .f32) = (V c main_v2 : S64x64.Idx → EReal) := by
  have e := (idx_facts t).2.2.2.1
  funext x
  unfold iblk0
  rw [View.read_apply]
  show V c main_v2 _ = V c main_v2 x
  congr 1
  funext a
  apply Fin.ext
  match a with
  | ⟨0, _⟩ => show win0_3.index t (0 : Fin 2) * 64 + 1 * (x 0).val = (x 0).val; rw [e.1]; omega
  | ⟨1, _⟩ => show win0_3.index t (1 : Fin 2) * 64 + 1 * (x 1).val = (x 1).val; rw [e.2]; omega

/-- Window 4's block at every point is its whole 64 × 64 array. -/
theorem blk4_eq (c : Dev nD) (t : Fin cfg0.N) :
    (iblk0 (F := Ideal) V c 4 t : Vec Ideal S64x64 .f32) = (V c main_v3 : S64x64.Idx → EReal) := by
  have e := (idx_facts t).2.2.2.2.1
  funext x
  unfold iblk0
  rw [View.read_apply]
  show V c main_v3 _ = V c main_v3 x
  congr 1
  funext a
  apply Fin.ext
  match a with
  | ⟨0, _⟩ => show win0_4.index t (0 : Fin 2) * 64 + 1 * (x 0).val = (x 0).val; rw [e.1]; omega
  | ⟨1, _⟩ => show win0_4.index t (1 : Fin 2) * 64 + 1 * (x 1).val = (x 1).val; rw [e.2]; omega

/-- Window 5's block at every point is its whole 64 × 64 array. -/
theorem blk5_eq (c : Dev nD) (t : Fin cfg0.N) :
    (iblk0 (F := Ideal) V c 5 t : Vec Ideal S64x64 .f32) = (V c main_v4 : S64x64.Idx → EReal) := by
  have e := (idx_facts t).2.2.2.2.2.1
  funext x
  unfold iblk0
  rw [View.read_apply]
  show V c main_v4 _ = V c main_v4 x
  congr 1
  funext a
  apply Fin.ext
  match a with
  | ⟨0, _⟩ => show win0_5.index t (0 : Fin 2) * 64 + 1 * (x 0).val = (x 0).val; rw [e.1]; omega
  | ⟨1, _⟩ => show win0_5.index t (1 : Fin 2) * 64 + 1 * (x 1).val = (x 1).val; rw [e.2]; omega

/-- Window 6's block at every point is its whole array of 64 entries. -/
theorem blk6_eq (c : Dev nD) (t : Fin cfg0.N) :
    (iblk0 (F := Ideal) V c 6 t : Vec Ideal S64 .f32) = (V c main_arg5 : S64.Idx → EReal) := by
  have e := (idx_facts t).2.2.2.2.2.2.1
  funext x
  unfold iblk0
  rw [View.read_apply]
  show V c main_arg5 _ = V c main_arg5 x
  congr 1
  funext a
  apply Fin.ext
  match a with
  | ⟨0, _⟩ => show win0_6.index t (0 : Fin 1) * 64 + 1 * (x 0).val = (x 0).val; rw [e]; omega

/-- Window 7's block at every point is its whole 64 × 64 array. -/
theorem blk7_eq (c : Dev nD) (t : Fin cfg0.N) :
    (iblk0 (F := Ideal) V c 7 t : Vec Ideal S64x64 .f32) = (V c main_arg6 : S64x64.Idx → EReal) := by
  have e := (idx_facts t).2.2.2.2.2.2.2.1
  funext x
  unfold iblk0
  rw [View.read_apply]
  show V c main_arg6 _ = V c main_arg6 x
  congr 1
  funext a
  apply Fin.ext
  match a with
  | ⟨0, _⟩ => show win0_7.index t (0 : Fin 2) * 64 + 1 * (x 0).val = (x 0).val; rw [e.1]; omega
  | ⟨1, _⟩ => show win0_7.index t (1 : Fin 2) * 64 + 1 * (x 1).val = (x 1).val; rw [e.2]; omega

/-- Window 8's block at every point is its whole array of 64 entries. -/
theorem blk8_eq (c : Dev nD) (t : Fin cfg0.N) :
    (iblk0 (F := Ideal) V c 8 t : Vec Ideal S64 .f32) = (V c main_arg7 : S64.Idx → EReal) := by
  have e := (idx_facts t).2.2.2.2.2.2.2.2.1
  funext x
  unfold iblk0
  rw [View.read_apply]
  show V c main_arg7 _ = V c main_arg7 x
  congr 1
  funext a
  apply Fin.ext
  match a with
  | ⟨0, _⟩ => show win0_8.index t (0 : Fin 1) * 64 + 1 * (x 0).val = (x 0).val; rw [e]; omega

/-- The message rows depend on the three row arrays only through the row read, and on the index only through its column. -/
theorem msgArr_congr {n m : Nat} (s d e : Cert.Spec.Rows n) (s' d' e' : Cert.Spec.Rows m) (A B C : Cert.Spec.Mat64)
    (b1 : Cert.Spec.Vec64) (W2 : Cert.Spec.Mat64) (b2 : Cert.Spec.Vec64)
    (i : (⟨2, ![n, 64]⟩ : Shape).Idx) (i' : (⟨2, ![m, 64]⟩ : Shape).Idx)
    (hs : Cert.Spec.rowOf s (i 0) = Cert.Spec.rowOf s' (i' 0)) (hd : Cert.Spec.rowOf d (i 0) = Cert.Spec.rowOf d' (i' 0))
    (he : Cert.Spec.rowOf e (i 0) = Cert.Spec.rowOf e' (i' 0)) (h1 : (i 1 : Fin 64) = i' 1) :
    Cert.Spec.msgArr s d e A B C b1 W2 b2 i = Cert.Spec.msgArr s' d' e' A B C b1 W2 b2 i' := by
  show Cert.Spec.msgRow (Cert.Spec.rowOf s (i 0)) (Cert.Spec.rowOf d (i 0)) (Cert.Spec.rowOf e (i 0)) A B C b1 W2 b2 (i 1)
    = Cert.Spec.msgRow (Cert.Spec.rowOf s' (i' 0)) (Cert.Spec.rowOf d' (i' 0)) (Cert.Spec.rowOf e' (i' 0)) A B C b1 W2 b2 (i' 1)
  rw [hs, hd, he, h1]

/-- The whole-array function the output ends at. -/
abbrev G (c : Dev nD) : Cert.Spec.Rows 1000000 :=
  Cert.Spec.msgArr (n := 1000000) (V c main_v0) (V c main_v1) (V c main_arg3) (V c main_v2) (V c main_v3) (V c main_v4)
          (V c main_arg5) (V c main_arg6) (V c main_arg7)

/-- What point `t` writes back is block `t` of the message rows of the arrays the region found at entry. -/
theorem flushed_eq (c : Dev nD) (t : Fin cfg0.N) :
    (dat0 (F := Ideal) V c).flushed 9 t = ((cfg0.win 9).blk t).view.read (Elt Ideal) (G V c) := by
  show (cfg0.win 9).cut (grid0.coords t) ((dat0 (F := Ideal) V c).after 9 t) = _
  rw [after0_9]
  unfold out0_9
  rw [View.canon_unit_zero hz]
  simp only [View.ld_unit_zero (S := S5000x64) hz, View.ld_unit_zero (S := S64x64) hz, View.ld_unit_zero (S := S64) hz1]
  rw [MsgBody.msg_payload]
  rw [blk3_eq V c t, blk4_eq V c t, blk5_eq V c t, blk6_eq V c t, blk7_eq V c t, blk8_eq V c t]
  have e9 := (idx_facts t).2.2.2.2.2.2.2.2.2.1
  funext j
  have hj0 : (j 0).val < 5000 := (j 0).isLt
  have hj1 : (j 1).val < 64 := (j 1).isLt
  have hr : ((((cfg0.win 9).blk t).view.emb j) 0).val = 5000 * t.val + (j 0).val := by
    show win0_9.index t (0 : Fin 2) * 5000 + 1 * (j 0).val = _
    rw [e9.1]; omega
  have hc : ((((cfg0.win 9).blk t).view.emb j) 1).val = (j 1).val := by
    show win0_9.index t (1 : Fin 2) * 64 + 1 * (j 1).val = _
    rw [e9.2]; omega
  show Cert.Spec.msgArr (n := 5000) (iblk0 V c 0 t) (iblk0 V c 1 t) (iblk0 V c 2 t) (V c main_v2) (V c main_v3) (V c main_v4)
      (V c main_arg5) (V c main_arg6) (V c main_arg7) j
    = Cert.Spec.msgArr (n := 1000000) (V c main_v0) (V c main_v1) (V c main_arg3) (V c main_v2) (V c main_v3) (V c main_v4)
      (V c main_arg5) (V c main_arg6) (V c main_arg7) (((cfg0.win 9).blk t).view.emb j)
  refine msgArr_congr _ _ _ _ _ _ _ _ _ _ _ _ j (((cfg0.win 9).blk t).view.emb j) ?_ ?_ ?_ (Fin.ext hc.symm)
  · funext k
    exact blk0_apply V c t _ _ hr rfl
  · funext k
    exact blk1_apply V c t _ _ hr rfl
  · funext k
    exact blk2_apply V c t _ _ hr rfl

/-- An index of the array is in point `t`'s block iff each coordinate is in the block's range on its axis. -/
theorem mem_blk (t : Fin cfg0.N) (i : S1000000x64.Idx) :
    i ∈ ((cfg0.win 9).blk t).view.set ↔ ∀ a : Fin 2, win0_9.index t a * S5000x64.size a ≤ (i a).val ∧ (i a).val < win0_9.index t a * S5000x64.size a + S5000x64.size a := by
  show i ∈ ((View.whole main_v5).slice (win0_9.rect t)).set ↔ _
  rw [View.set_slice_whole, Rect.mem_set_unit]
  exact Iff.rfl

/-- Every row of the array is in the block of the point numbered by the row divided by 5000. -/
theorem cover (i : S1000000x64.Idx) :
    ∃ t : Fin cfg0.N, (cfg0.win 9).flush t = true ∧ i ∈ ((cfg0.win 9).blk t).view.set := by
  have hi0 : (i 0).val < 1000000 := (i 0).isLt
  have hi1 : (i 1).val < 64 := (i 1).isLt
  have hN : cfg0.N = 200 := N_0
  obtain ⟨t, ht⟩ : ∃ t : Fin cfg0.N, t.val = (i 0).val / 5000 := ⟨⟨(i 0).val / 5000, by rw [hN]; omega⟩, rfl⟩
  have e9 := (idx_facts t).2.2.2.2.2.2.2.2.2.1
  refine ⟨t, flush0_9 t, ?_⟩
  rw [mem_blk]
  intro a
  match a with
  | ⟨0, _⟩ =>
    show win0_9.index t (0 : Fin 2) * 5000 ≤ (i 0).val ∧ (i 0).val < win0_9.index t (0 : Fin 2) * 5000 + 5000
    rw [e9.1, ht]; omega
  | ⟨1, _⟩ =>
    show win0_9.index t (1 : Fin 2) * 64 ≤ (i 1).val ∧ (i 1).val < win0_9.index t (1 : Fin 2) * 64 + 64
    rw [e9.2]; omega

/-- After the region, its output array holds the message rows of the arrays the region found at entry. -/
theorem msg_final (c : Dev nD) :
    (dat0 (F := Ideal) V c).arrAt 9 cfg0.N
      = Cert.Spec.msgArr (n := 1000000) (V c main_v0) (V c main_v1) (V c main_arg3) (V c main_v2) (V c main_v3) (V c main_v4)
          (V c main_arg5) (V c main_arg6) (V c main_arg7) := by
  exact (dat0 (F := Ideal) V c).arrAt_eq_of_cover 9 (G V c) (fun t _ => flushed_eq V c t) cover

end Cert.KernelIdeal.MsgRegion

end
-- ==== Proof.UpdBody.lean ====
/-
  The second region's body, as arithmetic: the value it stores for a block of 2000 nodes is the update rows of that block.
-/
import proofs.«422307_j31559419691865_1_alg».proof.Proof.Gen.KernelIdeal.Skeleton
import proofs.«422307_j31559419691865_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.UpdBody

open Cert.KernelIdeal Cert.KernelIdeal.Gen Idealize.ShloMosaic Idealize.ShloMosaic.ValueIdx

/-! ## Layout operations of a keepdims column, read at an index given by coordinates -/

/-- An `[a]` array cast to the column `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[b]` viewed as one row and broadcast over `a` rows reads, at `(p, c)`, the vector at `c`. -/
theorem rowBroadcast_apply {α : Type} {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-! ## The product with a 64 × 64 matrix and the sum over a row's 64 lanes, read at an index -/

/-- The left operand's row coordinate is the result's row. -/
theorem lhsIdx_row (j : S2000x64.Idx) (k : dot_S2000x64_S64x64_S2000x64_1_0_0_1_n_n.contr.Idx) :
    (dot_S2000x64_S64x64_S2000x64_1_0_0_1_n_n.lhsIdx j k 0).val = (j 0).val := by
  simp [DotDims.lhsIdx, dot_S2000x64_S64x64_S2000x64_1_0_0_1_n_n]; rfl

/-- The left operand's column coordinate is the contracted coordinate. -/
theorem lhsIdx_col (j : S2000x64.Idx) (k : dot_S2000x64_S64x64_S2000x64_1_0_0_1_n_n.contr.Idx) :
    (dot_S2000x64_S64x64_S2000x64_1_0_0_1_n_n.lhsIdx j k 1).val = (k ⟨0, by decide⟩).val :=
  dot_S2000x64_S64x64_S2000x64_1_0_0_1_n_n.lhsIdx_val_of_single (cl := 1) rfl j k

/-- The right operand's row coordinate is the contracted coordinate. -/
theorem rhsIdx_row (j : S2000x64.Idx) (k : dot_S2000x64_S64x64_S2000x64_1_0_0_1_n_n.contr.Idx) :
    (dot_S2000x64_S64x64_S2000x64_1_0_0_1_n_n.rhsIdx j k 0).val = (k ⟨0, by decide⟩).val :=
  dot_S2000x64_S64x64_S2000x64_1_0_0_1_n_n.rhsIdx_val_of_single (cr := 0) rfl j k

/-- The right operand's column coordinate is the result's column. -/
theorem rhsIdx_col (j : S2000x64.Idx) (k : dot_S2000x64_S64x64_S2000x64_1_0_0_1_n_n.contr.Idx) :
    (dot_S2000x64_S64x64_S2000x64_1_0_0_1_n_n.rhsIdx j k 1).val = (j 1).val := by
  simp [DotDims.rhsIdx, dot_S2000x64_S64x64_S2000x64_1_0_0_1_n_n]; rfl

/-- The block's product with a 64 × 64 matrix into the zero accumulator, read at `(r, j)`: the sum over the contracted
    coordinate of the products of the entries. -/
theorem matmul_rows_apply {φ₁ φ₂ : FTy} (A : FVec Ideal S2000x64 φ₁) (B : FVec Ideal S64x64 φ₂) (r : Fin 2000) (j : Fin 64) :
    matmul dot_S2000x64_S64x64_S2000x64_1_0_0_1_n_n none A B (constant (F := Ideal) S2000x64 .f32 0x00000000#32) (ix2 r j)
      = ∑ k : Fin 64, A (ix2 r k) * B (ix2 k j) := by
  show FloatOps.matmul _ none A B _ (ix2 r j) = _
  rw [Ideal.matmul_constant_zero_apply,
    ← Equiv.sum_comp (contrEquiv1 dot_S2000x64_S64x64_S2000x64_1_0_0_1_n_n 64 rfl rfl).symm]
  refine Finset.sum_congr rfl fun c _ => ?_
  have hc := contrEquiv1_symm_val dot_S2000x64_S64x64_S2000x64_1_0_0_1_n_n 64 rfl rfl c
  have hl : dot_S2000x64_S64x64_S2000x64_1_0_0_1_n_n.lhsIdx (ix2 r j)
      ((contrEquiv1 dot_S2000x64_S64x64_S2000x64_1_0_0_1_n_n 64 rfl rfl).symm c) = ix2 r c := by
    funext ax; apply Fin.ext
    match ax with
    | ⟨0, _⟩ => exact lhsIdx_row _ _
    | ⟨1, _⟩ => exact (lhsIdx_col _ _).trans hc
  have hr : dot_S2000x64_S64x64_S2000x64_1_0_0_1_n_n.rhsIdx (ix2 r j)
      ((contrEquiv1 dot_S2000x64_S64x64_S2000x64_1_0_0_1_n_n 64 rfl rfl).symm c) = ix2 c j := by
    funext ax; apply Fin.ext
    match ax with
    | ⟨0, _⟩ => exact (rhsIdx_row _ _).trans hc
    | ⟨1, _⟩ => exact rhsIdx_col _ _
  rw [hl, hr]

/-- The sum of a block over its 64 lanes, read at row `r`: the sum of the row's entries. -/
theorem laneSum_apply (v : FVec Ideal S2000x64 .f32) (hφ : FKind.Formats .f32)
    (hacc : (0x00000000#32 : BitVec 32) = FKind.add.neutral .f32 hφ) (r : Fin 2000) :
    multiReduction (F := Ideal) .add [1] S2000 v 0x00000000#32 reduces_S2000x64_S2000 hφ hacc (ix1 r)
      = ∑ k : Fin 64, v (ix2 r k) := by
  refine (Ideal.multiReduction_add_single v 0x00000000#32 reduces_S2000x64_S2000 hφ hacc (ix1 r)).trans ?_
  refine Finset.sum_congr rfl fun k _ => congrArg v ?_
  funext ax; apply Fin.ext
  match ax with
  | ⟨0, _⟩ => rfl
  | ⟨1, _⟩ => rfl

/-! ## Two elementwise operations at an index -/

/-- A logistic at an index is the logistic of the element. -/
theorem logistic_apply {s : Shape} {φ : FTy} (a : FVec Ideal s φ) (i : s.Idx) : logistic a i = Ideal.logistic (a i) := rfl
/-- A reciprocal square root at an index is that of the element. -/
theorem rsqrt_apply {s : Shape} {φ : FTy} (a : FVec Ideal s φ) (i : s.Idx) : rsqrt a i = Ideal.rsqrt (a i) := rfl

/-! ## The body's two stages -/

/-- The block the body normalises: the node block plus the update network's output (the payload's operations up to its
    first lane sum). -/
def pre (v20 v0 : FVec Ideal S2000x64 .f32) (v3 : FVec Ideal S64x64 .f32) (v6 : FVec Ideal S64 .f32)
    (v13 : FVec Ideal S64x64 .f32) (v16 : FVec Ideal S64 .f32) : FVec Ideal S2000x64 .f32 :=
  have v1 : FVec Ideal S2000x64 .f32 := shapeCast S2000x64 v0 shapeCasts_S2000x64_S2000x64
  have v2 : FVec Ideal S2000x64 .bf16 := truncf .bf16 v1 bitsLt_bf16_f32
  have v4 : FVec Ideal S64x64 .bf16 := truncf .bf16 v3 bitsLt_bf16_f32
  have cst : FVec Ideal S2000x64 .f32 := constant S2000x64 .f32 0x00000000#32
  have v5 : FVec Ideal S2000x64 .f32 := matmul dot_S2000x64_S64x64_S2000x64_1_0_0_1_n_n none v2 v4 cst
  have v7 : FVec Ideal S1x64 .f32 := shapeCast S1x64 v6 shapeCasts_S64_S1x64
  have v8 : FVec Ideal S2000x64 .f32 := broadcastTo S2000x64 v7 broadcasts_S1x64_S2000x64
  have v9 : FVec Ideal S2000x64 .f32 := addf v5 v8
  have v10 : FVec Ideal S2000x64 .f32 := logistic v9
  have v11 : FVec Ideal S2000x64 .f32 := mulf v9 v10
  have v12 : FVec Ideal S2000x64 .bf16 := truncf .bf16 v11 bitsLt_bf16_f32
  have v14 : FVec Ideal S64x64 .bf16 := truncf .bf16 v13 bitsLt_bf16_f32
  have cst_6 : FVec Ideal S2000x64 .f32 := constant S2000x64 .f32 0x00000000#32
  have v15 : FVec Ideal S2000x64 .f32 := matmul dot_S2000x64_S64x64_S2000x64_1_0_0_1_n_n none v12 v14 cst_6
  have v17 : FVec Ideal S1x64 .f32 := shapeCast S1x64 v16 shapeCasts_S64_S1x64
  have v18 : FVec Ideal S2000x64 .f32 := broadcastTo S2000x64 v17 broadcasts_S1x64_S2000x64
  have v19 : FVec Ideal S2000x64 .f32 := addf v15 v18
  addf v20 v19

/-- The mean of each row of a block, kept as a column: the lane sum divided by the literal 64. -/
def rowMean (v : FVec Ideal S2000x64 .f32) : FVec Ideal S2000x1 .f32 :=
  have v22 : FVec Ideal S2000 .f32 := multiReduction .add [1] S2000 v 0x00000000#32 reduces_S2000x64_S2000 (.inl rfl) rfl
  have v23 : FVec Ideal S2000x1 .f32 := shapeCast S2000x1 v22 shapeCasts_S2000_S2000x1
  have cst_11 : Ideal .f32 := Scalar.ofBits .f32 0x42800000#32
  have v24 : FVec Ideal S2000x1 .f32 := broadcast S2000x1 cst_11
  divf v23 v24

/-- A block with each row's mean taken off. -/
def centred (v : FVec Ideal S2000x64 .f32) : FVec Ideal S2000x64 .f32 :=
  subf v (broadcastTo S2000x64 (rowMean v) broadcasts_S2000x1_S2000x64)

/-- The normalisation of a block's rows (the payload's operations from its first lane sum on), before scale and shift:
    the centred block times the reciprocal root of the mean of its squares plus ε. -/
def lnorm (v21 : FVec Ideal S2000x64 .f32) : FVec Ideal S2000x64 .f32 :=
  have v27 : FVec Ideal S2000x64 .f32 := centred v21
  have v28 : FVec Ideal S2000x64 .f32 := mulf v27 v27
  have v32 : FVec Ideal S2000x1 .f32 := rowMean v28
  have cst_14 : Ideal .f32 := Scalar.ofBits .f32 0x3727C5AC#32
  have v33 : FVec Ideal S2000x1 .f32 := broadcast S2000x1 cst_14
  have v34 : FVec Ideal S2000x1 .f32 := addf v32 v33
  have v35 : FVec Ideal S2000x1 .f32 := rsqrt v34
  have v36 : FVec Ideal S2000x64 .f32 := broadcastTo S2000x64 v35 broadcasts_S2000x1_S2000x64
  mulf v27 v36

/-- The payload before scale and shift is the normalisation of the first stage. -/
theorem pay2_eq (v0 : FVec Ideal S2000x64 .f32) (v3 : FVec Ideal S64x64 .f32) (v6 : FVec Ideal S64 .f32)
    (v13 : FVec Ideal S64x64 .f32) (v16 : FVec Ideal S64 .f32) (v20 : FVec Ideal S2000x64 .f32) :
    k1_pay2 (F := Ideal) v0 v3 v6 v13 v16 v20 = lnorm (pre v20 v0 v3 v6 v13 v16) := rfl

/-- A row of the first stage is the update network's output added to the node's features. -/
theorem pre_apply (x0 x1 : FVec Ideal S2000x64 .f32) (x2 : FVec Ideal S64x64 .f32) (x3 : FVec Ideal S64 .f32)
    (x4 : FVec Ideal S64x64 .f32) (x5 : FVec Ideal S64 .f32) (r : Fin 2000) (l : Fin 64) :
    pre x0 x1 x2 x3 x4 x5 (ix2 r l)
      = Cert.Spec.updPre (Cert.Spec.rowOf x0 r) (Cert.Spec.rowOf x1 r) x2 x3 x4 x5 l := by
  unfold pre Cert.Spec.updPre Cert.Spec.silu Cert.Spec.rowOf
  rw [addf_apply, addf_apply, matmul_rows_apply, rowBroadcast_apply]
  refine congrArg (x0 (ix2 r l) + ·) (congrArg (· + x5 (ix1 l)) (Finset.sum_congr rfl fun k _ => ?_))
  rw [truncf_apply, truncf_apply, mulf_apply, logistic_apply, addf_apply, matmul_rows_apply, rowBroadcast_apply]
  simp only [truncf_apply, shapeCast_self]

/-- A row's mean: the sum of the row divided by the literal 64. -/
theorem rowMean_apply (v : FVec Ideal S2000x64 .f32) (r : Fin 2000) (u : Fin 1) :
    rowMean v (ix2 r u) = Ideal.div (∑ l : Fin 64, v (ix2 r l)) Cert.Spec.c64 := by
  unfold rowMean
  rw [divf_apply, shapeCast_a_a1_apply, broadcast_apply]
  exact congrArg (fun s => Ideal.div s Cert.Spec.c64) (laneSum_apply v _ _ r)

/-- A centred entry: the entry minus its row's mean. -/
theorem centred_apply (v : FVec Ideal S2000x64 .f32) (r : Fin 2000) (j : Fin 64) :
    centred v (ix2 r j) = v (ix2 r j) - Ideal.div (∑ l : Fin 64, v (ix2 r l)) Cert.Spec.c64 := by
  unfold centred
  rw [subf_apply, broadcastTo_a1_ab_apply, rowMean_apply]

/-- A normalised entry, before scale and shift. -/
theorem lnorm_apply (v : FVec Ideal S2000x64 .f32) (r : Fin 2000) (j : Fin 64) :
    lnorm v (ix2 r j)
      = (v (ix2 r j) - Ideal.div (∑ l : Fin 64, v (ix2 r l)) Cert.Spec.c64)
        * Ideal.rsqrt (Ideal.div (∑ l : Fin 64, (v (ix2 r l) - Ideal.div (∑ l : Fin 64, v (ix2 r l)) Cert.Spec.c64)
            * (v (ix2 r l) - Ideal.div (∑ l : Fin 64, v (ix2 r l)) Cert.Spec.c64)) Cert.Spec.c64 + Cert.Spec.cEps) := by
  unfold lnorm
  rw [mulf_apply, broadcastTo_a1_ab_apply, rsqrt_apply, addf_apply, rowMean_apply, broadcast_apply, centred_apply]
  simp only [mulf_apply, centred_apply]
  rfl

/-- The stored value of the update kernel's body on blocks `x0` (node features) and `x1` (aggregated messages) of 2000
    nodes and the weights is the update rows of those blocks. -/
theorem upd_payload (x0 x1 : FVec Ideal S2000x64 .f32) (x2 : FVec Ideal S64x64 .f32) (x3 : FVec Ideal S64 .f32)
    (x4 : FVec Ideal S64x64 .f32) (x5 x6 x7 : FVec Ideal S64 .f32) :
    k1_pay1 (F := Ideal) (k1_pay2 x1 x2 x3 x4 x5 x0) (k1_pay3 x6) x7 = Cert.Spec.updArr (n := 2000) x0 x1 x2 x3 x4 x5 x6 x7 := by
  funext i
  obtain ⟨r, j, rfl⟩ : ∃ (r : Fin 2000) (j : Fin 64), i = ix2 r j := ⟨i 0, i 1, eq_ix2 i⟩
  unfold k1_pay1 k1_pay3
  rw [pay2_eq, addf_apply, mulf_apply, rowBroadcast_apply, rowBroadcast_apply, lnorm_apply]
  simp only [pre_apply]
  rfl

end Cert.KernelIdeal.UpdBody

end
-- ==== Proof.UpdRegion.lean ====
/-
  The second region's output array after its 25 grid points: the update rows of the arrays it finds at entry.
-/
import proofs.«422307_j31559419691865_1_alg».proof.Proof.Gen.KernelIdeal.Frame
import proofs.«422307_j31559419691865_1_alg».proof.Proof.UpdBody
import Idealize.ShloMosaic.Lib.Pipeline.Value

noncomputable section

namespace Cert.KernelIdeal.UpdRegion

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-! ## The index maps over the grid -/

/-- The zero offsets of a rank-2 and of a rank-1 rectangle, as constant functions. -/
theorem hz2 : (![0, 0] : Fin 2 → Nat) = fun _ => 0 := funext fun a => by fin_cases a <;> rfl
theorem hz1 : (![0] : Fin 1 → Nat) = fun _ => 0 := funext fun a => by fin_cases a <;> rfl

/-- At grid point t the node-feature window sits at block (t, 0). -/
theorem idx_node : ∀ t : Fin cfg1.N, win1_0.index t (0 : Fin 2) = t.val ∧ win1_0.index t (1 : Fin 2) = 0 :=
  (by decide +kernel : ∀ t : Fin grid1.N, _)
/-- At grid point t the aggregated-message window sits at block (t, 0). -/
theorem idx_agg : ∀ t : Fin cfg1.N, win1_1.index t (0 : Fin 2) = t.val ∧ win1_1.index t (1 : Fin 2) = 0 :=
  (by decide +kernel : ∀ t : Fin grid1.N, _)
/-- At grid point t the result window sits at block (t, 0). -/
theorem idx_out : ∀ t : Fin cfg1.N, win1_8.index t (0 : Fin 2) = t.val ∧ win1_8.index t (1 : Fin 2) = 0 :=
  (by decide +kernel : ∀ t : Fin grid1.N, _)
/-- The two weight matrices are read whole at every point: block (0, 0). -/
theorem idx_U1 : ∀ t : Fin cfg1.N, win1_2.index t (0 : Fin 2) = 0 ∧ win1_2.index t (1 : Fin 2) = 0 :=
  (by decide +kernel : ∀ t : Fin grid1.N, _)
theorem idx_U2 : ∀ t : Fin cfg1.N, win1_4.index t (0 : Fin 2) = 0 ∧ win1_4.index t (1 : Fin 2) = 0 :=
  (by decide +kernel : ∀ t : Fin grid1.N, _)
/-- The four vectors (two biases, scale, shift) are read whole at every point: block 0. -/
theorem idx_c1 : ∀ t : Fin cfg1.N, win1_3.index t (0 : Fin 1) = 0 := (by decide +kernel : ∀ t : Fin grid1.N, _)
theorem idx_c2 : ∀ t : Fin cfg1.N, win1_5.index t (0 : Fin 1) = 0 := (by decide +kernel : ∀ t : Fin grid1.N, _)
theorem idx_gamma : ∀ t : Fin cfg1.N, win1_6.index t (0 : Fin 1) = 0 := (by decide +kernel : ∀ t : Fin grid1.N, _)
theorem idx_beta : ∀ t : Fin cfg1.N, win1_7.index t (0 : Fin 1) = 0 := (by decide +kernel : ∀ t : Fin grid1.N, _)

/-! ## Each window's block at a point, read off its array -/

/-- Row r of the node-feature block at point t is row 2000·t + r of the node-feature array. -/
theorem iblk_node (c : Dev nD) (t : Fin cfg1.N) (x : S2000x64.Idx) (k : S50000x64.Idx)
    (hk0 : (k 0).val = 2000 * t.val + (x 0).val) (hk1 : (k 1).val = (x 1).val) :
    (iblk1 V c 0 t : Vec Ideal S2000x64 .f32) x = (V c main_arg0 : S50000x64.Idx → Elt Ideal .f32) k := by
  obtain ⟨e0, e1⟩ := idx_node t
  unfold iblk1
  rw [View.read_apply]
  show V c main_arg0 _ = V c main_arg0 _
  congr 1
  funext a
  apply Fin.ext
  match a with
  | ⟨0, _⟩ => show win1_0.index t 0 * 2000 + 1 * (x 0).val = (k 0).val; rw [e0, hk0]; omega
  | ⟨1, _⟩ => show win1_0.index t 1 * 64 + 1 * (x 1).val = (k 1).val; rw [e1, hk1]; omega

/-- Row r of the aggregated-message block at point t is row 2000·t + r of the aggregated-message array. -/
theorem iblk_agg (c : Dev nD) (t : Fin cfg1.N) (x : S2000x64.Idx) (k : S50000x64.Idx)
    (hk0 : (k 0).val = 2000 * t.val + (x 0).val) (hk1 : (k 1).val = (x 1).val) :
    (iblk1 V c 1 t : Vec Ideal S2000x64 .f32) x = (V c main_v8 : S50000x64.Idx → Elt Ideal .f32) k := by
  obtain ⟨e0, e1⟩ := idx_agg t
  unfold iblk1
  rw [View.read_apply]
  show V c main_v8 _ = V c main_v8 _
  congr 1
  funext a
  apply Fin.ext
  match a with
  | ⟨0, _⟩ => show win1_1.index t 0 * 2000 + 1 * (x 0).val = (k 0).val; rw [e0, hk0]; omega
  | ⟨1, _⟩ => show win1_1.index t 1 * 64 + 1 * (x 1).val = (k 1).val; rw [e1, hk1]; omega

/-- The first weight matrix's block at every point is the whole matrix. -/
theorem iblk_U1 (c : Dev nD) (t : Fin cfg1.N) :
    (iblk1 V c 2 t : Vec Ideal S64x64 .f32) = (V c main_arg8 : S64x64.Idx → Elt Ideal .f32) := by
  obtain ⟨e0, e1⟩ := idx_U1 t
  funext x
  unfold iblk1
  rw [View.read_apply]
  show V c main_arg8 _ = V c main_arg8 _
  congr 1
  funext a
  apply Fin.ext
  match a with
  | ⟨0, _⟩ => show win1_2.index t 0 * 64 + 1 * (x 0).val = (x 0).val; rw [e0]; omega
  | ⟨1, _⟩ => show win1_2.index t 1 * 64 + 1 * (x 1).val = (x 1).val; rw [e1]; omega

/-- The second weight matrix's block at every point is the whole matrix. -/
theorem iblk_U2 (c : Dev nD) (t : Fin cfg1.N) :
    (iblk1 V c 4 t : Vec Ideal S64x64 .f32) = (V c main_arg10 : S64x64.Idx → Elt Ideal .f32) := by
  obtain ⟨e0, e1⟩ := idx_U2 t
  funext x
  unfold iblk1
  rw [View.read_apply]
  show V c main_arg10 _ = V c main_arg10 _
  congr 1
  funext a
  apply Fin.ext
  match a with
  | ⟨0, _⟩ => show win1_4.index t 0 * 64 + 1 * (x 0).val = (x 0).val; rw [e0]; omega
  | ⟨1, _⟩ => show win1_4.index t 1 * 64 + 1 * (x 1).val = (x 1).val; rw [e1]; omega

/-- The first bias's block at every point is the whole vector. -/
theorem iblk_c1 (c : Dev nD) (t : Fin cfg1.N) :
    (iblk1 V c 3 t : Vec Ideal S64 .f32) = (V c main_arg9 : S64.Idx → Elt Ideal .f32) := by
  have e0 := idx_c1 t
  funext x
  unfold iblk1
  rw [View.read_apply]
  show V c main_arg9 _ = V c main_arg9 _
  congr 1
  funext a
  apply Fin.ext
  match a with
  | ⟨0, _⟩ => show win1_3.index t 0 * 64 + 1 * (x 0).val = (x 0).val; rw [e0]; omega

/-- The second bias's block at every point is the whole vector. -/
theorem iblk_c2 (c : Dev nD) (t : Fin cfg1.N) :
    (iblk1 V c 5 t : Vec Ideal S64 .f32) = (V c main_arg11 : S64.Idx → Elt Ideal .f32) := by
  have e0 := idx_c2 t
  funext x
  unfold iblk1
  rw [View.read_apply]
  show V c main_arg11 _ = V c main_arg11 _
  congr 1
  funext a
  apply Fin.ext
  match a with
  | ⟨0, _⟩ => show win1_5.index t 0 * 64 + 1 * (x 0).val = (x 0).val; rw [e0]; omega

/-- The scale's block at every point is the whole vector. -/
theorem iblk_gamma (c : Dev nD) (t : Fin cfg1.N) :
    (iblk1 V c 6 t : Vec Ideal S64 .f32) = (V c main_arg12 : S64.Idx → Elt Ideal .f32) := by
  have e0 := idx_gamma t
  funext x
  unfold iblk1
  rw [View.read_apply]
  show V c main_arg12 _ = V c main_arg12 _
  congr 1
  funext a
  apply Fin.ext
  match a with
  | ⟨0, _⟩ => show win1_6.index t 0 * 64 + 1 * (x 0).val = (x 0).val; rw [e0]; omega

/-- The shift's block at every point is the whole vector. -/
theorem iblk_beta (c : Dev nD) (t : Fin cfg1.N) :
    (iblk1 V c 7 t : Vec Ideal S64 .f32) = (V c main_arg13 : S64.Idx → Elt Ideal .f32) := by
  have e0 := idx_beta t
  funext x
  unfold iblk1
  rw [View.read_apply]
  show V c main_arg13 _ = V c main_arg13 _
  congr 1
  funext a
  apply Fin.ext
  match a with
  | ⟨0, _⟩ => show win1_7.index t 0 * 64 + 1 * (x 0).val = (x 0).val; rw [e0]; omega

/-! ## The update rows of a block are the update rows of the arrays -/

/-- The update is computed row by row: when row (j 0) of a block of node features and of aggregated messages is row
    (i 0) of the whole arrays, and j and i name the same feature, the block's update at j is the arrays' update at i. -/
theorem updArr_at (bn ba : Cert.Spec.Rows 2000) (node agg : Cert.Spec.Rows 50000) (U1 : Cert.Spec.Mat64)
    (c1 : Cert.Spec.Vec64) (U2 : Cert.Spec.Mat64) (c2 γ β : Cert.Spec.Vec64)
    (j : (⟨2, ![2000, 64]⟩ : Shape).Idx) (i : (⟨2, ![50000, 64]⟩ : Shape).Idx)
    (h1 : (i 1).val = (j 1).val)
    (hn : ∀ l : Fin 64, bn (ValueIdx.ix2 (j 0) l) = node (ValueIdx.ix2 (i 0) l))
    (ha : ∀ l : Fin 64, ba (ValueIdx.ix2 (j 0) l) = agg (ValueIdx.ix2 (i 0) l)) :
    Cert.Spec.updArr (n := 2000) bn ba U1 c1 U2 c2 γ β j = Cert.Spec.updArr (n := 50000) node agg U1 c1 U2 c2 γ β i := by
  have e1 : Cert.Spec.rowOf bn (j 0) = Cert.Spec.rowOf node (i 0) := funext hn
  have e2 : Cert.Spec.rowOf ba (j 0) = Cert.Spec.rowOf agg (i 0) := funext ha
  have e3 : (j 1 : Fin 64) = (i 1 : Fin 64) := Fin.ext h1.symm
  show Cert.Spec.updRow (Cert.Spec.rowOf bn (j 0)) (Cert.Spec.rowOf ba (j 0)) U1 c1 U2 c2 γ β (j 1)
     = Cert.Spec.updRow (Cert.Spec.rowOf node (i 0)) (Cert.Spec.rowOf agg (i 0)) U1 c1 U2 c2 γ β (i 1)
  rw [e1, e2]
  exact congrArg _ e3

/-! ## What each point writes back, and the array after the last point -/

/-- The whole-array result. -/
abbrev G (c : Dev nD) : Cert.Spec.Rows 50000 :=
  Cert.Spec.updArr (n := 50000) (V c main_arg0) (V c main_v8) (V c main_arg8) (V c main_arg9) (V c main_arg10)
    (V c main_arg11) (V c main_arg12) (V c main_arg13)

/-- What point t writes back is block t of the update rows of the arrays the region found at entry. -/
theorem flushed_eq (c : Dev nD) (t : Fin cfg1.N) :
    (dat1 V c).flushed 8 t = ((cfg1.win 8).blk t).view.read (Elt Ideal) (G V c) := by
  show (cfg1.win 8).cut (grid1.coords t) ((dat1 V c).after 8 t) = _
  rw [after1_8]
  unfold out1_8
  rw [View.canon_unit_zero hz2]
  simp only [View.ld_unit_zero (S := S2000x64) hz2, View.ld_unit_zero (S := S64x64) hz2, View.ld_unit_zero (S := S64) hz1]
  rw [Cert.KernelIdeal.UpdBody.upd_payload, iblk_U1 V c t, iblk_c1 V c t, iblk_U2 V c t, iblk_c2 V c t, iblk_gamma V c t, iblk_beta V c t]
  obtain ⟨e0, e1⟩ := idx_out t
  funext j
  have hE0 : ((((cfg1.win 8).blk t).view.emb j) 0).val = 2000 * t.val + (j 0).val := by
    show win1_8.index t 0 * 2000 + 1 * (j 0).val = _; rw [e0]; omega
  have hE1 : ((((cfg1.win 8).blk t).view.emb j) 1).val = (j 1).val := by
    show win1_8.index t 1 * 64 + 1 * (j 1).val = _; rw [e1]; omega
  show Cert.Spec.updArr (n := 2000) (iblk1 V c 0 t) (iblk1 V c 1 t) (V c main_arg8) (V c main_arg9) (V c main_arg10)
        (V c main_arg11) (V c main_arg12) (V c main_arg13) j
      = Cert.Spec.updArr (n := 50000) (V c main_arg0) (V c main_v8) (V c main_arg8) (V c main_arg9) (V c main_arg10)
        (V c main_arg11) (V c main_arg12) (V c main_arg13) (((cfg1.win 8).blk t).view.emb j)
  exact updArr_at _ _ _ _ _ _ _ _ _ _ j _ hE1
    (fun l => iblk_node V c t (ValueIdx.ix2 (j 0) l) (ValueIdx.ix2 ((((cfg1.win 8).blk t).view.emb j) 0) l) hE0 rfl)
    (fun l => iblk_agg V c t (ValueIdx.ix2 (j 0) l) (ValueIdx.ix2 ((((cfg1.win 8).blk t).view.emb j) 0) l) hE0 rfl)

/-- An index of the result array is in point t's block iff each coordinate is in the block's range on its axis. -/
theorem mem_blk (t : Fin cfg1.N) (i : S50000x64.Idx) :
    i ∈ ((cfg1.win 8).blk t).view.set ↔ ∀ a : Fin 2, win1_8.index t a * S2000x64.size a ≤ (i a).val
      ∧ (i a).val < win1_8.index t a * S2000x64.size a + S2000x64.size a := by
  show i ∈ ((View.whole main_v9).slice (win1_8.rect t)).set ↔ _
  rw [View.set_slice_whole, Rect.mem_set_unit]
  exact Iff.rfl

/-- The 25 blocks of 2000 rows cover the 50000 rows: row r lies in the block of point r / 2000. -/
theorem cover (i : S50000x64.Idx) :
    ∃ t : Fin cfg1.N, (cfg1.win 8).flush t = true ∧ i ∈ ((cfg1.win 8).blk t).view.set := by
  have hN : cfg1.N = 25 := N_1
  have hi0 : (i 0).val < 50000 := (i 0).isLt
  have hi1 : (i 1).val < 64 := (i 1).isLt
  obtain ⟨t, ht⟩ : ∃ t : Fin cfg1.N, t.val = (i 0).val / 2000 := ⟨⟨(i 0).val / 2000, by rw [hN]; omega⟩, rfl⟩
  obtain ⟨e0, e1⟩ := idx_out t
  refine ⟨t, flush1_8 t, ?_⟩
  rw [mem_blk]
  intro a
  match a with
  | ⟨0, _⟩ =>
    show win1_8.index t 0 * 2000 ≤ (i 0).val ∧ (i 0).val < win1_8.index t 0 * 2000 + 2000
    rw [e0, ht]; omega
  | ⟨1, _⟩ =>
    show win1_8.index t 1 * 64 ≤ (i 1).val ∧ (i 1).val < win1_8.index t 1 * 64 + 64
    rw [e1]; omega

/-- After the region, its output array holds the update rows of the arrays the region found at entry. -/
theorem upd_final (c : Dev nD) :
    (dat1 (F := Ideal) V c).arrAt 8 cfg1.N
      = Cert.Spec.updArr (n := 50000) (V c main_arg0) (V c main_v8) (V c main_arg8) (V c main_arg9) (V c main_arg10)
          (V c main_arg11) (V c main_arg12) (V c main_arg13) := by
  exact (dat1 V c).arrAt_eq_of_cover 8 (G V c) (fun t _ => flushed_eq V c t) cover

end Cert.KernelIdeal.UpdRegion

end
-- ==== Proof.KValue.lean ====
/-
  The kernel program's result buffer as a function of its arguments.  The generated run leaves each buffer at a fold of
  the segments' contents; read at the result buffer the fold is: the second region's output (the update rows of what that
  region finds at entry), whose aggregated-messages operand is the scatter-add of the first region's output (the message
  rows of what the first region finds at entry), whose source and target operands are the two `take`s of the node
  features and whose three weight operands are the row blocks of the first weight matrix.  No host operation and no
  region writes an argument, so every argument read along the way is the launch memory's.
-/
import proofs.«422307_j31559419691865_1_alg».proof.Proof.Gen.KernelIdeal.Frame
import proofs.«422307_j31559419691865_1_alg».proof.Proof.KTerms
import proofs.«422307_j31559419691865_1_alg».proof.Proof.MsgRegion
import proofs.«422307_j31559419691865_1_alg».proof.Proof.UpdRegion
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg)

/-- No operation of the list writes the buffer: every written reference differs from it. -/
local macro "not_written" ops:ident : tactic =>
  `(tactic| (refine List.forall_iff_forall_mem.mp ?_
             simp only [$ops:ident, List.flatten_cons, List.flatten_nil, List.append_nil, List.cons_append,
               List.nil_append, List.Forall, StableHlo.nullary_writes, StableHlo.unary_writes, StableHlo.binary_writes, StableHlo.ternary_writes, StableHlo.quaternary_writes, StableHlo.reshape_writes, StableHlo.binaryIndexed_writes, Finset.mem_singleton]
             repeat' apply And.intro
             all_goals exact StableHlo.devRef_ne_of_ne (by decide)))

/-- Contents carried to a buffer's own type and back are unchanged. -/
theorem ofBuf_toBuf {T : BufTy} (x : TRef sig T) (v : T.Contents (Elt Ideal)) : x.ofBuf (x.toBuf v) = v := by
  obtain ⟨r, h, h2, h3⟩ := x
  subst h
  rfl

/-! ## The arguments along the fold: nothing writes them -/

/-- An argument buffer read after the first three host stretches is the launch memory's. -/
theorem W3_arg (c : Dev nD) (b : Ref sig .tc)
    (h0 : ∀ op ∈ (hostOps0 : List (HloOp τ sig (Elt Ideal))), Proc.devRef .tc b ∉ op.writes)
    (h1 : ∀ op ∈ (hostOps0_1 : List (HloOp τ sig (Elt Ideal))), Proc.devRef .tc b ∉ op.writes)
    (h2 : ∀ op ∈ (hostOps0_2 : List (HloOp τ sig (Elt Ideal))), Proc.devRef .tc b ∉ op.writes) :
    W3 (F := Ideal) m ρ c (Proc.devRef .tc b) = m ((c : Thread nD τ).loc b) :=
  calc W3 (F := Ideal) m ρ c (Proc.devRef .tc b)
    _ = W2 m ρ c (Proc.devRef .tc b) := StableHlo.after_of_forall_not_mem _ _ h2
    _ = W1 m ρ c (Proc.devRef .tc b) := StableHlo.after_of_forall_not_mem _ _ h1
    _ = W0 m ρ c (Proc.devRef .tc b) := StableHlo.after_of_forall_not_mem _ _ h0
    _ = m ((c : Thread nD τ).loc b) := rfl

/-- An argument buffer that is no array of the first region, read at the second region's entry, is the launch memory's. -/
theorem W5_arg (c : Dev nD) (b : Ref sig .tc)
    (h0 : ∀ op ∈ (hostOps0 : List (HloOp τ sig (Elt Ideal))), Proc.devRef .tc b ∉ op.writes)
    (h1 : ∀ op ∈ (hostOps0_1 : List (HloOp τ sig (Elt Ideal))), Proc.devRef .tc b ∉ op.writes)
    (h2 : ∀ op ∈ (hostOps0_2 : List (HloOp τ sig (Elt Ideal))), Proc.devRef .tc b ∉ op.writes)
    (hne : ∀ w, Pipeline.arrRef spec0 w ≠ b)
    (h3 : ∀ op ∈ (hostOps1 : List (HloOp τ sig (Elt Ideal))), Proc.devRef .tc b ∉ op.writes) :
    W5 (F := Ideal) m ρ c (Proc.devRef .tc b) = m ((c : Thread nD τ).loc b) :=
  calc W5 (F := Ideal) m ρ c (Proc.devRef .tc b)
    _ = W4 m ρ c (Proc.devRef .tc b) := StableHlo.after_of_forall_not_mem _ _ h3
    _ = W3 m ρ c (Proc.devRef .tc b) := W4_of_ne m ρ c b hne
    _ = m ((c : Thread nD τ).loc b) := W3_arg m ρ c b h0 h1 h2

/-! ## The two takes and the three slices: the first region's operands -/

set_option maxHeartbeats 3200000 in
attribute [local irreducible] Host.reduce Host.gather Host.scatterAdd in
/-- After the first stretch, `main_v0` holds the node rows taken at the source indices. -/
theorem W1_v0 (c : Dev nD) :
    W1 (F := Ideal) m ρ c (Proc.devRef .tc main_v0)
      = Terms.takeRows ((TRef.of main_arg0 : TRef sig ⟨S50000x64, .f32⟩).ofBuf (W0 m ρ c (Proc.devRef .tc main_arg0)))
          ((TRef.of main_arg1 : TRef sig ⟨S1000000, .i32⟩).ofBuf (W0 m ρ c (Proc.devRef .tc main_arg1))) := by
  unfold W1
  simp only [hostOps0]
  after_results
  simp only [ofBuf_toBuf]
  unfold Terms.takeRows Terms.inRange Terms.wrapIdx
  rfl

set_option maxHeartbeats 3200000 in
attribute [local irreducible] Host.reduce Host.gather Host.scatterAdd in
/-- After the second stretch, `main_v1` holds the node rows taken at the target indices. -/
theorem W2_v1 (c : Dev nD) :
    W2 (F := Ideal) m ρ c (Proc.devRef .tc main_v1)
      = Terms.takeRows ((TRef.of main_arg0 : TRef sig ⟨S50000x64, .f32⟩).ofBuf (W1 m ρ c (Proc.devRef .tc main_arg0)))
          ((TRef.of main_arg2 : TRef sig ⟨S1000000, .i32⟩).ofBuf (W1 m ρ c (Proc.devRef .tc main_arg2))) := by
  unfold W2
  simp only [hostOps0_1]
  after_results
  simp only [ofBuf_toBuf]
  unfold Terms.takeRows Terms.inRange Terms.wrapIdx
  rfl

attribute [local irreducible] Host.reduce Host.gather Host.scatterAdd in
/-- After the third stretch, `main_v2`, `main_v3`, `main_v4` hold the three row blocks of the first weight matrix. -/
theorem W3_v2 (c : Dev nD) :
    W3 (F := Ideal) m ρ c (Proc.devRef .tc main_v2) = Terms.wSrc (W2 m ρ c (Proc.devRef .tc main_arg4)) := by
  unfold W3
  simp only [hostOps0_2]
  after_results
  unfold Terms.wSrc
  rfl
attribute [local irreducible] Host.reduce Host.gather Host.scatterAdd in
theorem W3_v3 (c : Dev nD) :
    W3 (F := Ideal) m ρ c (Proc.devRef .tc main_v3) = Terms.wDst (W2 m ρ c (Proc.devRef .tc main_arg4)) := by
  unfold W3
  simp only [hostOps0_2]
  after_results
  unfold Terms.wDst
  rfl
attribute [local irreducible] Host.reduce Host.gather Host.scatterAdd in
theorem W3_v4 (c : Dev nD) :
    W3 (F := Ideal) m ρ c (Proc.devRef .tc main_v4) = Terms.wEdge (W2 m ρ c (Proc.devRef .tc main_arg4)) := by
  unfold W3
  simp only [hostOps0_2]
  after_results
  unfold Terms.wEdge
  rfl

/-- The source rows at the first region's entry, from the launch memory. -/
theorem V3_v0 (c : Dev nD) :
    V3 (F := Ideal) m ρ c main_v0 = Terms.takeRows (m ((c.tc : Thread nD τ).loc main_arg0)) (m ((c.tc : Thread nD τ).loc main_arg1)) :=
  calc W3 (F := Ideal) m ρ c (Proc.devRef .tc main_v0)
    _ = W2 m ρ c (Proc.devRef .tc main_v0) := StableHlo.after_of_forall_not_mem _ _ (by not_written hostOps0_2)
    _ = W1 m ρ c (Proc.devRef .tc main_v0) := StableHlo.after_of_forall_not_mem _ _ (by not_written hostOps0_1)
    _ = _ := (W1_v0 m ρ c).trans rfl

/-- The target rows at the first region's entry, from the launch memory. -/
theorem V3_v1 (c : Dev nD) :
    V3 (F := Ideal) m ρ c main_v1 = Terms.takeRows (m ((c.tc : Thread nD τ).loc main_arg0)) (m ((c.tc : Thread nD τ).loc main_arg2)) :=
  calc W3 (F := Ideal) m ρ c (Proc.devRef .tc main_v1)
    _ = W2 m ρ c (Proc.devRef .tc main_v1) := StableHlo.after_of_forall_not_mem _ _ (by not_written hostOps0_2)
    _ = Terms.takeRows ((TRef.of main_arg0 : TRef sig ⟨S50000x64, .f32⟩).ofBuf (W1 m ρ c (Proc.devRef .tc main_arg0)))
          ((TRef.of main_arg2 : TRef sig ⟨S1000000, .i32⟩).ofBuf (W1 m ρ c (Proc.devRef .tc main_arg2))) := W2_v1 m ρ c
    _ = _ := by
      rw [show W1 (F := Ideal) m ρ c (Proc.devRef .tc main_arg0) = W0 m ρ c (Proc.devRef .tc main_arg0) from
            StableHlo.after_of_forall_not_mem _ _ (by not_written hostOps0),
          show W1 (F := Ideal) m ρ c (Proc.devRef .tc main_arg2) = W0 m ρ c (Proc.devRef .tc main_arg2) from
            StableHlo.after_of_forall_not_mem _ _ (by not_written hostOps0)]
      rfl

/-- The first weight matrix after the first two stretches is the launch memory's. -/
theorem W2_arg4 (c : Dev nD) : W2 (F := Ideal) m ρ c (Proc.devRef .tc main_arg4) = m ((c : Thread nD τ).loc main_arg4) :=
  calc W2 (F := Ideal) m ρ c (Proc.devRef .tc main_arg4)
    _ = W1 m ρ c (Proc.devRef .tc main_arg4) := StableHlo.after_of_forall_not_mem _ _ (by not_written hostOps0_1)
    _ = W0 m ρ c (Proc.devRef .tc main_arg4) := StableHlo.after_of_forall_not_mem _ _ (by not_written hostOps0)
    _ = _ := rfl

/-! ## The first region's output and the scatter-add -/

/-- The first region's output array at the second stretch's entry: the message rows of the arguments. -/
theorem W4_v5 (c : Dev nD) :
    W4 (F := Ideal) m ρ c (Proc.devRef .tc main_v5)
      = Terms.kMsg (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [show W4 (F := Ideal) m ρ c (Proc.devRef .tc main_v5) = (dat0 (V3 m ρ) c).arrAt 9 cfg0.N from W4_arr m ρ c 9,
    MsgRegion.msg_final (V3 m ρ) c, V3_v0 m ρ c, V3_v1 m ρ c]
  unfold Terms.kMsg
  rw [show V3 (F := Ideal) m ρ c main_arg3 = (m ((c.tc : Thread nD τ).loc main_arg3)) from W3_arg m ρ c main_arg3 (by not_written hostOps0) (by not_written hostOps0_1) (by not_written hostOps0_2),
    show V3 (F := Ideal) m ρ c main_arg5 = (m ((c.tc : Thread nD τ).loc main_arg5)) from W3_arg m ρ c main_arg5 (by not_written hostOps0) (by not_written hostOps0_1) (by not_written hostOps0_2),
    show V3 (F := Ideal) m ρ c main_arg6 = (m ((c.tc : Thread nD τ).loc main_arg6)) from W3_arg m ρ c main_arg6 (by not_written hostOps0) (by not_written hostOps0_1) (by not_written hostOps0_2),
    show V3 (F := Ideal) m ρ c main_arg7 = (m ((c.tc : Thread nD τ).loc main_arg7)) from W3_arg m ρ c main_arg7 (by not_written hostOps0) (by not_written hostOps0_1) (by not_written hostOps0_2),
    show V3 (F := Ideal) m ρ c main_v2 = Terms.wSrc (m ((c.tc : Thread nD τ).loc main_arg4)) from (W3_v2 m ρ c).trans (congrArg Terms.wSrc (W2_arg4 m ρ c)),
    show V3 (F := Ideal) m ρ c main_v3 = Terms.wDst (m ((c.tc : Thread nD τ).loc main_arg4)) from (W3_v3 m ρ c).trans (congrArg Terms.wDst (W2_arg4 m ρ c)),
    show V3 (F := Ideal) m ρ c main_v4 = Terms.wEdge (m ((c.tc : Thread nD τ).loc main_arg4)) from (W3_v4 m ρ c).trans (congrArg Terms.wEdge (W2_arg4 m ρ c))]

attribute [local irreducible] Host.reduce Host.gather Host.scatterAdd in
/-- After the fourth stretch, `main_v8` holds the first region's output summed onto the target nodes. -/
theorem W5_v8 (c : Dev nD) :
    W5 (F := Ideal) m ρ c (Proc.devRef .tc main_v8)
      = Terms.aggK (W4 m ρ c (Proc.devRef .tc main_v5)) (W4 m ρ c (Proc.devRef .tc main_arg2)) := by
  unfold W5
  simp only [hostOps1]
  after_results
  unfold Terms.aggK
  rfl

/-- The target indices at the fourth stretch's entry are the launch memory's. -/
theorem W4_arg2 (c : Dev nD) : W4 (F := Ideal) m ρ c (Proc.devRef .tc main_arg2) = m ((c : Thread nD τ).loc main_arg2) :=
  (W4_of_ne m ρ c main_arg2 (by decide)).trans
    (W3_arg m ρ c main_arg2 (by not_written hostOps0) (by not_written hostOps0_1) (by not_written hostOps0_2))

/-! ## The result -/

/-- The fold read at the result buffer is the kernel program's function of the launch arguments. -/
theorem result_eq (c : Dev nD) :
    W6 (F := Ideal) m ρ c (Proc.devRef .tc main_v9)
      = Terms.kOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [show W6 (F := Ideal) m ρ c (Proc.devRef .tc main_v9) = (dat1 (V5 m ρ) c).arrAt 8 cfg1.N from W6_arr m ρ c 8,
    UpdRegion.upd_final (V5 m ρ) c]
  unfold Terms.kOut
  rw [show V5 (F := Ideal) m ρ c main_v8 = Terms.aggK (Terms.kMsg (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg2)) from
      (W5_v8 m ρ c).trans (by rw [W4_v5 m ρ c, W4_arg2 m ρ c]),
    show V5 (F := Ideal) m ρ c main_arg0 = (m ((c.tc : Thread nD τ).loc main_arg0)) from W5_arg m ρ c main_arg0 (by not_written hostOps0) (by not_written hostOps0_1) (by not_written hostOps0_2) (by decide) (by not_written hostOps1),
    show V5 (F := Ideal) m ρ c main_arg8 = (m ((c.tc : Thread nD τ).loc main_arg8)) from W5_arg m ρ c main_arg8 (by not_written hostOps0) (by not_written hostOps0_1) (by not_written hostOps0_2) (by decide) (by not_written hostOps1),
    show V5 (F := Ideal) m ρ c main_arg9 = (m ((c.tc : Thread nD τ).loc main_arg9)) from W5_arg m ρ c main_arg9 (by not_written hostOps0) (by not_written hostOps0_1) (by not_written hostOps0_2) (by decide) (by not_written hostOps1),
    show V5 (F := Ideal) m ρ c main_arg10 = (m ((c.tc : Thread nD τ).loc main_arg10)) from W5_arg m ρ c main_arg10 (by not_written hostOps0) (by not_written hostOps0_1) (by not_written hostOps0_2) (by decide) (by not_written hostOps1),
    show V5 (F := Ideal) m ρ c main_arg11 = (m ((c.tc : Thread nD τ).loc main_arg11)) from W5_arg m ρ c main_arg11 (by not_written hostOps0) (by not_written hostOps0_1) (by not_written hostOps0_2) (by decide) (by not_written hostOps1),
    show V5 (F := Ideal) m ρ c main_arg12 = (m ((c.tc : Thread nD τ).loc main_arg12)) from W5_arg m ρ c main_arg12 (by not_written hostOps0) (by not_written hostOps0_1) (by not_written hostOps0_2) (by decide) (by not_written hostOps1),
    show V5 (F := Ideal) m ρ c main_arg13 = (m ((c.tc : Thread nD τ).loc main_arg13)) from W5_arg m ρ c main_arg13 (by not_written hostOps0) (by not_written hostOps0_1) (by not_written hostOps0_2) (by decide) (by not_written hostOps1)]

end Cert.KernelIdeal.KValue

end
-- ==== Proof.RefStages.lean ====
/-
  The reference program's host operations, grouped into named stages: the wrapped row index and the row gather, the
  message network over the concatenated features, the scatter-add of messages onto their target nodes, and the update
  network followed by the layer normalisation (mean, variance with its divisor 64 − 0 and its guard, the scaled and
  shifted result).  Each stage is the operations' own composition, written once so that later statements can name it.
-/
import proofs.«422307_j31559419691865_1_alg».proof.ReferenceIdeal
import proofs.«422307_j31559419691865_1_alg».proof.Proof.Gen.ReferenceIdeal

noncomputable section

namespace Cert.ReferenceIdeal.Stages

open Cert.ReferenceIdeal Cert.ReferenceIdeal.Facts₀ Cert.ReferenceIdeal.Facts Idealize.ShloMosaic

variable {F : FTy → Type} [FloatOps F]

/-- A row index with Python's wrap of negatives (`i < 0 ↦ i + 50000`), as a column of start indices. -/
def wrapIdx (i : IVec S1000000 32) : IVec S1000000x1 32 :=
  broadcastInDim S1000000x1 ![0] bcast_S1000000_S1000000x1_0
    (select (cmpi .slt i (broadcastInDim S1000000 ![] bcast_S_S1000000 (constantI S_ 32 0#32)))
      (addi i (broadcastInDim S1000000 ![] bcast_S_S1000000 (constantI S_ 32 50000#32))) i)

/-- The node features of each edge's endpoint: the gather of rows at the wrapped indices. -/
def gatherRows (a0 : FVec F S50000x64 .f32) (i : IVec S1000000 32) : FVec F S1000000x64 .f32 :=
  Host.gather gather_S50000x64_S1000000x1_S1000000x64_1_0_n_n_0_1_164 a0 (wrapIdx i)

/-- A bias vector repeated on every one of the 1000000 rows. -/
def edgeBias (b : FVec F S64 .f32) : FVec F S1000000x64 .f32 :=
  broadcastInDim S1000000x64 ![0, 1] bcast_S1x64_S1000000x64_0_1 (broadcastInDim S1x64 ![1] bcast_S64_S1x64_1 b)

/-- A bias vector repeated on every one of the 50000 rows. -/
def nodeBias (b : FVec F S64 .f32) : FVec F S50000x64 .f32 :=
  broadcastInDim S50000x64 ![0, 1] bcast_S1x64_S50000x64_0_1 (broadcastInDim S1x64 ![1] bcast_S64_S1x64_1 b)

/-- `x · (1 / (1 + exp (−x)))` on the edge array. -/
def siluE (x : FVec F S1000000x64 .f32) : FVec F S1000000x64 .f32 :=
  mulf x (Host.divf (broadcastInDim S1000000x64 ![] bcast_S_S1000000x64 (constant S_ .f32 0x3F800000#32))
    (addf (broadcastInDim S1000000x64 ![] bcast_S_S1000000x64 (constant S_ .f32 0x3F800000#32)) (Host.exp (Host.negf x))))

/-- `x · (1 / (1 + exp (−x)))` on the node array. -/
def siluN (x : FVec F S50000x64 .f32) : FVec F S50000x64 .f32 :=
  mulf x (Host.divf (broadcastInDim S50000x64 ![] bcast_S_S50000x64 (constant S_ .f32 0x3F800000#32))
    (addf (broadcastInDim S50000x64 ![] bcast_S_S50000x64 (constant S_ .f32 0x3F800000#32)) (Host.exp (Host.negf x))))

/-- The messages: the concatenated features through the two linear maps with `silu` between. -/
def refMsg (g1 g2 a3 : FVec F S1000000x64 .f32) (a4 : FVec F S192x64 .f32) (a5 : FVec F S64 .f32)
    (a6 : FVec F S64x64 .f32) (a7 : FVec F S64 .f32) : FVec F S1000000x64 .f32 :=
  addf (Host.dotGeneral dot_S1000000x64_S64x64_S1000000x64_1_0_0_1_n_n none
      (siluE (addf (Host.dotGeneral dot_S1000000x192_S192x64_S1000000x64_1_0_0_1_n_n none
          (concatenate S1000000x192 1 [⟨S1000000x64, g1⟩, ⟨S1000000x64, g2⟩, ⟨S1000000x64, a3⟩]
            concatenates_S1000000x64_S1000000x64_S1000000x64_S1000000x192_d1) a4) (edgeBias a5))) a6)
    (edgeBias a7)

/-- The messages summed onto their target nodes. -/
def refAgg (msgs : FVec F S1000000x64 .f32) (a2 : IVec S1000000 32) : FVec F S50000x64 .f32 :=
  Host.scatterAdd scatter_S50000x64_S1000000x1_S1000000x64_1_0_0_1
    (broadcastInDim S50000x64 ![] bcast_S_S50000x64 (constant S_ .f32 0x00000000#32))
    (broadcastInDim S1000000x1 ![0] bcast_S1000000_S1000000x1_0 a2) msgs

/-- The node features plus the update network's output. -/
def refX (a0 agg : FVec F S50000x64 .f32) (a8 : FVec F S64x64 .f32) (a9 : FVec F S64 .f32) (a10 : FVec F S64x64 .f32)
    (a11 : FVec F S64 .f32) : FVec F S50000x64 .f32 :=
  addf a0 (addf (Host.dotGeneral dot_S50000x64_S64x64_S50000x64_1_0_0_1_n_n none
      (siluN (addf (Host.dotGeneral dot_S50000x64_S64x64_S50000x64_1_0_0_1_n_n none agg a8) (nodeBias a9))) a10) (nodeBias a11))

/-- The row sums over 64, as a column. -/
def rowSum (x : FVec F S50000x64 .f32) : FVec F S50000x1 .f32 :=
  broadcastInDim S50000x1 ![0] bcast_S50000_S50000x1_0
    (Host.reduceAdd x (constant S_ .f32 0x00000000#32) reducesTo_S50000x64_S50000_d1 h_S_)

/-- The row means. -/
def refMean (x : FVec F S50000x64 .f32) : FVec F S50000x1 .f32 :=
  Host.divf (rowSum x) (broadcastInDim S50000x1 ![] bcast_S_S50000x1 (constant S_ .f32 0x42800000#32))

/-- The divisor of the variance, `64 − 0` with the `0` converted from an integer. -/
def varDiv : FVec F S_ .f32 := subf (constant S_ .f32 0x42800000#32) (sitofp .f32 (constantI S_ 32 0#32))

/-- The row variances: the mean of the squared centred entries, guarded by `64 − 0 > 0`. -/
def refVar (x : FVec F S50000x64 .f32) : FVec F S50000x1 .f32 :=
  select (broadcastInDim S50000x1 ![] bcast_S_S50000x1 (cmpf .ogt (varDiv (F := F)) (constant S_ .f32 0x00000000#32)))
    (Host.divf (rowSum (mulf (subf x (broadcastInDim S50000x64 ![0, 1] bcast_S50000x1_S50000x64_0_1 (refMean x)))
        (subf x (broadcastInDim S50000x64 ![0, 1] bcast_S50000x1_S50000x64_0_1 (refMean x)))))
      (broadcastInDim S50000x1 ![] bcast_S_S50000x1 (varDiv (F := F))))
    (broadcastInDim S50000x1 ![] bcast_S_S50000x1 (id (constant S_ .f32 0x7FC00000#32)))

/-- The layer normalisation of `x` with scale `a12` and shift `a13`. -/
def refNorm (x : FVec F S50000x64 .f32) (a12 a13 : FVec F S64 .f32) : FVec F S50000x64 .f32 :=
  addf (mulf (mulf (subf x (broadcastInDim S50000x64 ![0, 1] bcast_S50000x1_S50000x64_0_1 (refMean x)))
        (broadcastInDim S50000x64 ![0, 1] bcast_S50000x1_S50000x64_0_1
          (Host.rsqrt (addf (refVar x) (broadcastInDim S50000x1 ![] bcast_S_S50000x1 (constant S_ .f32 0x3727C5AC#32))))))
      (nodeBias a12)) (nodeBias a13)

/-- The update stage: from the node features and the aggregated messages to the layer's result. -/
def refUpd (a0 agg : FVec F S50000x64 .f32) (a8 : FVec F S64x64 .f32) (a9 : FVec F S64 .f32) (a10 : FVec F S64x64 .f32)
    (a11 a12 a13 : FVec F S64 .f32) : FVec F S50000x64 .f32 :=
  refNorm (refX a0 agg a8 a9 a10 a11) a12 a13

/-- The reference's result as a function of its fourteen arguments. -/
def refOut (a0 : FVec F S50000x64 .f32) (a1 a2 : IVec S1000000 32) (a3 : FVec F S1000000x64 .f32) (a4 : FVec F S192x64 .f32)
    (a5 : FVec F S64 .f32) (a6 : FVec F S64x64 .f32) (a7 : FVec F S64 .f32) (a8 : FVec F S64x64 .f32) (a9 : FVec F S64 .f32)
    (a10 : FVec F S64x64 .f32) (a11 a12 a13 : FVec F S64 .f32) : FVec F S50000x64 .f32 :=
  refUpd a0 (refAgg (refMsg (gatherRows a0 a1) (gatherRows a0 a2) a3 a4 a5 a6 a7) a2) a8 a9 a10 a11 a12 a13

end Cert.ReferenceIdeal.Stages

end
-- ==== Proof.RRun.lean ====
/-
  The reference program's run: its @main is a straight line of host operations (the outlined functions' operations listed
  at their calls), so every weakly fair execution terminates with each buffer at the operations' composition over the launch
  contents; at the result buffer that composition is the staged function of the arguments, and no argument is written.
-/
import proofs.«422307_j31559419691865_1_alg».proof.ReferenceIdeal
import proofs.«422307_j31559419691865_1_alg».proof.Proof.Gen.ReferenceIdeal
import proofs.«422307_j31559419691865_1_alg».proof.Proof.RefStages
import Idealize.ShloMosaic.Lib.StableHlo.Run
import Idealize.ShloMosaic.PureOps.Ideal

noncomputable section

namespace Cert.ReferenceIdeal.Run

open Cert.ReferenceIdeal Cert.ReferenceIdeal.Facts₀ Cert.ReferenceIdeal.Facts Idealize.ShloMosaic Idealize.ShloMosaic.TcCoe Idealize.SL.Sem

section Line

open Idealize.ShloMosaic.StableHlo

variable {F : FTy → Type} [FloatOps F]

/-- @main's operations in order, each outlined function's operations listed where it is called, over that call's
    buffers: `x · σ(x)` on the edge array (nine), on the node array (nine), and the variance (twenty, then the
    three of its guarded choice). -/
abbrev ops : List (HloOp τ sig (Elt F)) :=
  [ StableHlo.nullary main_c (constantI S_ 32 0#32),
    StableHlo.unary main_c main_v0 (broadcastInDim S1000000 ![] bcast_S_S1000000 : (⟨S_, .i32⟩ : BufTy).Contents (Elt F) → (⟨S1000000, .i32⟩ : BufTy).Contents (Elt F)),
    StableHlo.binary main_arg1 main_v0 main_v1 (cmpi .slt : (⟨S1000000, .i32⟩ : BufTy).Contents (Elt F) → (⟨S1000000, .i32⟩ : BufTy).Contents (Elt F) → (⟨S1000000, .i1⟩ : BufTy).Contents (Elt F)),
    StableHlo.nullary main_c_0 (constantI S_ 32 50000#32),
    StableHlo.unary main_c_0 main_v2 (broadcastInDim S1000000 ![] bcast_S_S1000000 : (⟨S_, .i32⟩ : BufTy).Contents (Elt F) → (⟨S1000000, .i32⟩ : BufTy).Contents (Elt F)),
    StableHlo.binary main_arg1 main_v2 main_v3 (addi : (⟨S1000000, .i32⟩ : BufTy).Contents (Elt F) → (⟨S1000000, .i32⟩ : BufTy).Contents (Elt F) → (⟨S1000000, .i32⟩ : BufTy).Contents (Elt F)),
    StableHlo.ternary main_v1 main_v3 main_arg1 main_v4 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v4 main_v5 (broadcastInDim S1000000x1 ![0] bcast_S1000000_S1000000x1_0 : (⟨S1000000, .i32⟩ : BufTy).Contents (Elt F) → (⟨S1000000x1, .i32⟩ : BufTy).Contents (Elt F)),
    StableHlo.binary main_arg0 main_v5 main_v6 ((fun x i => Host.gather gather_S50000x64_S1000000x1_S1000000x64_1_0_n_n_0_1_164 x i) : (⟨S50000x64, .f32⟩ : BufTy).Contents (Elt F) → (⟨S1000000x1, .i32⟩ : BufTy).Contents (Elt F) → (⟨S1000000x64, .f32⟩ : BufTy).Contents (Elt F)),
    StableHlo.nullary main_c_1 (constantI S_ 32 0#32),
    StableHlo.unary main_c_1 main_v7 (broadcastInDim S1000000 ![] bcast_S_S1000000 : (⟨S_, .i32⟩ : BufTy).Contents (Elt F) → (⟨S1000000, .i32⟩ : BufTy).Contents (Elt F)),
    StableHlo.binary main_arg2 main_v7 main_v8 (cmpi .slt : (⟨S1000000, .i32⟩ : BufTy).Contents (Elt F) → (⟨S1000000, .i32⟩ : BufTy).Contents (Elt F) → (⟨S1000000, .i1⟩ : BufTy).Contents (Elt F)),
    StableHlo.nullary main_c_2 (constantI S_ 32 50000#32),
    StableHlo.unary main_c_2 main_v9 (broadcastInDim S1000000 ![] bcast_S_S1000000 : (⟨S_, .i32⟩ : BufTy).Contents (Elt F) → (⟨S1000000, .i32⟩ : BufTy).Contents (Elt F)),
    StableHlo.binary main_arg2 main_v9 main_v10 (addi : (⟨S1000000, .i32⟩ : BufTy).Contents (Elt F) → (⟨S1000000, .i32⟩ : BufTy).Contents (Elt F) → (⟨S1000000, .i32⟩ : BufTy).Contents (Elt F)),
    StableHlo.ternary main_v8 main_v10 main_arg2 main_v11 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v11 main_v12 (broadcastInDim S1000000x1 ![0] bcast_S1000000_S1000000x1_0 : (⟨S1000000, .i32⟩ : BufTy).Contents (Elt F) → (⟨S1000000x1, .i32⟩ : BufTy).Contents (Elt F)),
    StableHlo.binary main_arg0 main_v12 main_v13 ((fun x i => Host.gather gather_S50000x64_S1000000x1_S1000000x64_1_0_n_n_0_1_164 x i) : (⟨S50000x64, .f32⟩ : BufTy).Contents (Elt F) → (⟨S1000000x1, .i32⟩ : BufTy).Contents (Elt F) → (⟨S1000000x64, .f32⟩ : BufTy).Contents (Elt F)),
    StableHlo.nary ![main_v6, main_v13, main_arg3] main_v14 (fun u => concatenate S1000000x192 1 [⟨S1000000x64, u 0⟩, ⟨S1000000x64, u 1⟩, ⟨S1000000x64, u 2⟩] concatenates_S1000000x64_S1000000x64_S1000000x64_S1000000x192_d1),
    StableHlo.binary main_v14 main_arg4 main_v15 ((fun l r => Host.dotGeneral dot_S1000000x192_S192x64_S1000000x64_1_0_0_1_n_n none l r) : (⟨S1000000x192, .f32⟩ : BufTy).Contents (Elt F) → (⟨S192x64, .f32⟩ : BufTy).Contents (Elt F) → (⟨S1000000x64, .f32⟩ : BufTy).Contents (Elt F)),
    StableHlo.unary main_arg5 main_v16 (broadcastInDim S1x64 ![1] bcast_S64_S1x64_1 : (⟨S64, .f32⟩ : BufTy).Contents (Elt F) → (⟨S1x64, .f32⟩ : BufTy).Contents (Elt F)),
    StableHlo.unary main_v16 main_v17 (broadcastInDim S1000000x64 ![0, 1] bcast_S1x64_S1000000x64_0_1 : (⟨S1x64, .f32⟩ : BufTy).Contents (Elt F) → (⟨S1000000x64, .f32⟩ : BufTy).Contents (Elt F)),
    StableHlo.binary main_v15 main_v17 main_v18 (addf : (⟨S1000000x64, .f32⟩ : BufTy).Contents (Elt F) → (⟨S1000000x64, .f32⟩ : BufTy).Contents (Elt F) → (⟨S1000000x64, .f32⟩ : BufTy).Contents (Elt F)),
    StableHlo.TRef.unary (.of main_v18) main_call0.v0 Host.negf,
    StableHlo.TRef.unary main_call0.v0 main_call0.v1 Host.exp,
    StableHlo.TRef.nullary main_call0.cst (constant S_ .f32 0x3F800000#32),
    StableHlo.TRef.unary main_call0.cst main_call0.v2 (broadcastInDim S1000000x64 ![] bcast_S_S1000000x64),
    StableHlo.TRef.binary main_call0.v2 main_call0.v1 main_call0.v3 addf,
    StableHlo.TRef.nullary main_call0.cst_0 (constant S_ .f32 0x3F800000#32),
    StableHlo.TRef.unary main_call0.cst_0 main_call0.v4 (broadcastInDim S1000000x64 ![] bcast_S_S1000000x64),
    StableHlo.TRef.binary main_call0.v4 main_call0.v3 main_call0.v5 Host.divf,
    StableHlo.TRef.binary (.of main_v18) main_call0.v5 main_call0.v6 mulf,
    StableHlo.binary main_v19 main_arg6 main_v20 ((fun l r => Host.dotGeneral dot_S1000000x64_S64x64_S1000000x64_1_0_0_1_n_n none l r) : (⟨S1000000x64, .f32⟩ : BufTy).Contents (Elt F) → (⟨S64x64, .f32⟩ : BufTy).Contents (Elt F) → (⟨S1000000x64, .f32⟩ : BufTy).Contents (Elt F)),
    StableHlo.unary main_arg7 main_v21 (broadcastInDim S1x64 ![1] bcast_S64_S1x64_1 : (⟨S64, .f32⟩ : BufTy).Contents (Elt F) → (⟨S1x64, .f32⟩ : BufTy).Contents (Elt F)),
    StableHlo.unary main_v21 main_v22 (broadcastInDim S1000000x64 ![0, 1] bcast_S1x64_S1000000x64_0_1 : (⟨S1x64, .f32⟩ : BufTy).Contents (Elt F) → (⟨S1000000x64, .f32⟩ : BufTy).Contents (Elt F)),
    StableHlo.binary main_v20 main_v22 main_v23 (addf : (⟨S1000000x64, .f32⟩ : BufTy).Contents (Elt F) → (⟨S1000000x64, .f32⟩ : BufTy).Contents (Elt F) → (⟨S1000000x64, .f32⟩ : BufTy).Contents (Elt F)),
    StableHlo.nullary main_cst (constant S_ .f32 0x00000000#32),
    StableHlo.unary main_cst main_v24 (broadcastInDim S50000x64 ![] bcast_S_S50000x64 : (⟨S_, .f32⟩ : BufTy).Contents (Elt F) → (⟨S50000x64, .f32⟩ : BufTy).Contents (Elt F)),
    StableHlo.unary main_arg2 main_v25 (broadcastInDim S1000000x1 ![0] bcast_S1000000_S1000000x1_0 : (⟨S1000000, .i32⟩ : BufTy).Contents (Elt F) → (⟨S1000000x1, .i32⟩ : BufTy).Contents (Elt F)),
    StableHlo.ternary main_v24 main_v25 main_v23 main_v26 ((fun x i u => Host.scatterAdd scatter_S50000x64_S1000000x1_S1000000x64_1_0_0_1 x i u) : (⟨S50000x64, .f32⟩ : BufTy).Contents (Elt F) → (⟨S1000000x1, .i32⟩ : BufTy).Contents (Elt F) → (⟨S1000000x64, .f32⟩ : BufTy).Contents (Elt F) → (⟨S50000x64, .f32⟩ : BufTy).Contents (Elt F)),
    StableHlo.binary main_v26 main_arg8 main_v27 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg9 main_v28 (broadcastInDim S1x64 ![1] bcast_S64_S1x64_1 : (⟨S64, .f32⟩ : BufTy).Contents (Elt F) → (⟨S1x64, .f32⟩ : BufTy).Contents (Elt F)),
    StableHlo.unary main_v28 main_v29 (broadcastInDim S50000x64 ![0, 1] bcast_S1x64_S50000x64_0_1 : (⟨S1x64, .f32⟩ : BufTy).Contents (Elt F) → (⟨S50000x64, .f32⟩ : BufTy).Contents (Elt F)),
    StableHlo.binary main_v27 main_v29 main_v30 (addf : (⟨S50000x64, .f32⟩ : BufTy).Contents (Elt F) → (⟨S50000x64, .f32⟩ : BufTy).Contents (Elt F) → (⟨S50000x64, .f32⟩ : BufTy).Contents (Elt F)),
    StableHlo.TRef.unary (.of main_v30) main_call1.v0 Host.negf,
    StableHlo.TRef.unary main_call1.v0 main_call1.v1 Host.exp,
    StableHlo.TRef.nullary main_call1.cst (constant S_ .f32 0x3F800000#32),
    StableHlo.TRef.unary main_call1.cst main_call1.v2 (broadcastInDim S50000x64 ![] bcast_S_S50000x64),
    StableHlo.TRef.binary main_call1.v2 main_call1.v1 main_call1.v3 addf,
    StableHlo.TRef.nullary main_call1.cst_0 (constant S_ .f32 0x3F800000#32),
    StableHlo.TRef.unary main_call1.cst_0 main_call1.v4 (broadcastInDim S50000x64 ![] bcast_S_S50000x64),
    StableHlo.TRef.binary main_call1.v4 main_call1.v3 main_call1.v5 Host.divf,
    StableHlo.TRef.binary (.of main_v30) main_call1.v5 main_call1.v6 mulf,
    StableHlo.binary main_v31 main_arg10 main_v32 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg11 main_v33 (broadcastInDim S1x64 ![1] bcast_S64_S1x64_1 : (⟨S64, .f32⟩ : BufTy).Contents (Elt F) → (⟨S1x64, .f32⟩ : BufTy).Contents (Elt F)),
    StableHlo.unary main_v33 main_v34 (broadcastInDim S50000x64 ![0, 1] bcast_S1x64_S50000x64_0_1 : (⟨S1x64, .f32⟩ : BufTy).Contents (Elt F) → (⟨S50000x64, .f32⟩ : BufTy).Contents (Elt F)),
    StableHlo.binary main_v32 main_v34 main_v35 (addf : (⟨S50000x64, .f32⟩ : BufTy).Contents (Elt F) → (⟨S50000x64, .f32⟩ : BufTy).Contents (Elt F) → (⟨S50000x64, .f32⟩ : BufTy).Contents (Elt F)),
    StableHlo.binary main_arg0 main_v35 main_v36 (addf : (⟨S50000x64, .f32⟩ : BufTy).Contents (Elt F) → (⟨S50000x64, .f32⟩ : BufTy).Contents (Elt F) → (⟨S50000x64, .f32⟩ : BufTy).Contents (Elt F)),
    StableHlo.nullary main_cst_3 (constant S_ .f32 0x00000000#32),
    StableHlo.binary main_v36 main_cst_3 main_v37 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    StableHlo.unary main_v37 main_v38 (broadcastInDim S50000x1 ![0] bcast_S50000_S50000x1_0 : (⟨S50000, .f32⟩ : BufTy).Contents (Elt F) → (⟨S50000x1, .f32⟩ : BufTy).Contents (Elt F)),
    StableHlo.nullary main_cst_4 (constant S_ .f32 0x42800000#32),
    StableHlo.unary main_cst_4 main_v39 (broadcastInDim S50000x1 ![] bcast_S_S50000x1 : (⟨S_, .f32⟩ : BufTy).Contents (Elt F) → (⟨S50000x1, .f32⟩ : BufTy).Contents (Elt F)),
    StableHlo.binary main_v38 main_v39 main_v40 (Host.divf : (⟨S50000x1, .f32⟩ : BufTy).Contents (Elt F) → (⟨S50000x1, .f32⟩ : BufTy).Contents (Elt F) → (⟨S50000x1, .f32⟩ : BufTy).Contents (Elt F)),
    StableHlo.nullary main_c_5 (constantI S_ 32 0#32),
    StableHlo.TRef.nullary main_call2.cst (constant S_ .f32 0x00000000#32),
    StableHlo.TRef.binary (.of main_v36) main_call2.cst main_call2.v0 (fun x v => Host.reduceAdd x v reducesTo_S50000x64_S50000_d1 h_S_),
    StableHlo.TRef.unary main_call2.v0 main_call2.v1 (broadcastInDim S50000x1 ![0] bcast_S50000_S50000x1_0),
    StableHlo.TRef.nullary main_call2.cst_0 (constant S_ .f32 0x42800000#32),
    StableHlo.TRef.unary main_call2.cst_0 main_call2.v2 (broadcastInDim S50000x1 ![] bcast_S_S50000x1),
    StableHlo.TRef.binary main_call2.v1 main_call2.v2 main_call2.v3 Host.divf,
    StableHlo.TRef.unary main_call2.v3 main_call2.v4 (broadcastInDim S50000x64 ![0, 1] bcast_S50000x1_S50000x64_0_1),
    StableHlo.TRef.binary (.of main_v36) main_call2.v4 main_call2.v5 subf,
    StableHlo.TRef.binary main_call2.v5 main_call2.v5 main_call2.v6 mulf,
    StableHlo.TRef.unary (.of main_c_5) main_call2.v7 (sitofp .f32),
    StableHlo.TRef.nullary main_call2.cst_1 (constant S_ .f32 0x42800000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x64_S50000_d1 h_S_),
    StableHlo.TRef.unary main_call2.v9 main_call2.v10 (broadcastInDim S50000x1 ![0] bcast_S50000_S50000x1_0),
    StableHlo.TRef.unary main_call2.v8 main_call2.v11 (broadcastInDim S50000x1 ![] bcast_S_S50000x1),
    StableHlo.TRef.binary main_call2.v10 main_call2.v11 main_call2.v12 Host.divf,
    StableHlo.TRef.nullary main_call2.cst_3 (constant S_ .f32 0x00000000#32),
    StableHlo.TRef.binary main_call2.v8 main_call2.cst_3 main_call2.v13 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S50000x1 ![] bcast_S_S50000x1),
    StableHlo.TRef.ternary main_call2.v13 main_call2.v12 main_call2.call0.v1 main_call2.call0.v2 (fun p a b => select (broadcastInDim S50000x1 ![] bcast_S_S50000x1 p) a b),
    StableHlo.unary main_v40 main_v42 (broadcastInDim S50000x64 ![0, 1] bcast_S50000x1_S50000x64_0_1 : (⟨S50000x1, .f32⟩ : BufTy).Contents (Elt F) → (⟨S50000x64, .f32⟩ : BufTy).Contents (Elt F)),
    StableHlo.binary main_v36 main_v42 main_v43 (subf : (⟨S50000x64, .f32⟩ : BufTy).Contents (Elt F) → (⟨S50000x64, .f32⟩ : BufTy).Contents (Elt F) → (⟨S50000x64, .f32⟩ : BufTy).Contents (Elt F)),
    StableHlo.nullary main_cst_6 (constant S_ .f32 0x3727C5AC#32),
    StableHlo.unary main_cst_6 main_v44 (broadcastInDim S50000x1 ![] bcast_S_S50000x1 : (⟨S_, .f32⟩ : BufTy).Contents (Elt F) → (⟨S50000x1, .f32⟩ : BufTy).Contents (Elt F)),
    StableHlo.binary main_v41 main_v44 main_v45 (addf : (⟨S50000x1, .f32⟩ : BufTy).Contents (Elt F) → (⟨S50000x1, .f32⟩ : BufTy).Contents (Elt F) → (⟨S50000x1, .f32⟩ : BufTy).Contents (Elt F)),
    StableHlo.unary main_v45 main_v46 (Host.rsqrt : (⟨S50000x1, .f32⟩ : BufTy).Contents (Elt F) → (⟨S50000x1, .f32⟩ : BufTy).Contents (Elt F)),
    StableHlo.unary main_v46 main_v47 (broadcastInDim S50000x64 ![0, 1] bcast_S50000x1_S50000x64_0_1 : (⟨S50000x1, .f32⟩ : BufTy).Contents (Elt F) → (⟨S50000x64, .f32⟩ : BufTy).Contents (Elt F)),
    StableHlo.binary main_v43 main_v47 main_v48 (mulf : (⟨S50000x64, .f32⟩ : BufTy).Contents (Elt F) → (⟨S50000x64, .f32⟩ : BufTy).Contents (Elt F) → (⟨S50000x64, .f32⟩ : BufTy).Contents (Elt F)),
    StableHlo.unary main_arg12 main_v49 (broadcastInDim S1x64 ![1] bcast_S64_S1x64_1 : (⟨S64, .f32⟩ : BufTy).Contents (Elt F) → (⟨S1x64, .f32⟩ : BufTy).Contents (Elt F)),
    StableHlo.unary main_v49 main_v50 (broadcastInDim S50000x64 ![0, 1] bcast_S1x64_S50000x64_0_1 : (⟨S1x64, .f32⟩ : BufTy).Contents (Elt F) → (⟨S50000x64, .f32⟩ : BufTy).Contents (Elt F)),
    StableHlo.binary main_v48 main_v50 main_v51 (mulf : (⟨S50000x64, .f32⟩ : BufTy).Contents (Elt F) → (⟨S50000x64, .f32⟩ : BufTy).Contents (Elt F) → (⟨S50000x64, .f32⟩ : BufTy).Contents (Elt F)),
    StableHlo.unary main_arg13 main_v52 (broadcastInDim S1x64 ![1] bcast_S64_S1x64_1 : (⟨S64, .f32⟩ : BufTy).Contents (Elt F) → (⟨S1x64, .f32⟩ : BufTy).Contents (Elt F)),
    StableHlo.unary main_v52 main_v53 (broadcastInDim S50000x64 ![0, 1] bcast_S1x64_S50000x64_0_1 : (⟨S1x64, .f32⟩ : BufTy).Contents (Elt F) → (⟨S50000x64, .f32⟩ : BufTy).Contents (Elt F)),
    StableHlo.binary main_v51 main_v53 main_v54 (addf : (⟨S50000x64, .f32⟩ : BufTy).Contents (Elt F) → (⟨S50000x64, .f32⟩ : BufTy).Contents (Elt F) → (⟨S50000x64, .f32⟩ : BufTy).Contents (Elt F)) ]

set_option maxRecDepth 8192 in
set_option maxHeartbeats 4000000 in
/-- @main is that straight line: the two windows and the functions' definitions unfolded at their calls, both sides are
    one chain of steps once sequencing is reassociated. -/
theorem main_eq (c : Dev nD) : main (F := F) c = seq ops := by
  simp only [main, main_part0, main_part1, fn_silu.body, fn_silu_0.body, fn_var.body, fn_where.body, seq, bind_assoc, pure_bind]

/-- The signature scopes no buffer and no semaphore: every buffer is a tensor value's. -/
theorem scopedRefs_eq : (Finset.univ.filter fun b : Ref sig .tc => b.isScoped) = ∅ := by decide
theorem scopedSems_eq : (Finset.univ.filter fun sm : SemLoc sig => sm.isScoped .tc) = ∅ := by decide

/-- Every operation of the line touches buffers of the device's tensor values only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nary_bufs_sub .., binary_bufs_sub .., unary_bufs_sub .., unary_bufs_sub .., binary_bufs_sub .., unary_bufs_sub ..,
    unary_bufs_sub .., nullary_bufs_sub .., unary_bufs_sub .., binary_bufs_sub .., nullary_bufs_sub .., unary_bufs_sub ..,
    binary_bufs_sub .., binary_bufs_sub .., binary_bufs_sub .., unary_bufs_sub .., unary_bufs_sub .., binary_bufs_sub ..,
    nullary_bufs_sub .., unary_bufs_sub .., unary_bufs_sub .., ternary_bufs_sub .., binary_bufs_sub .., unary_bufs_sub ..,
    unary_bufs_sub .., binary_bufs_sub .., unary_bufs_sub .., unary_bufs_sub .., nullary_bufs_sub .., unary_bufs_sub ..,
    binary_bufs_sub .., nullary_bufs_sub .., unary_bufs_sub .., binary_bufs_sub .., binary_bufs_sub .., binary_bufs_sub ..,
    unary_bufs_sub .., unary_bufs_sub .., binary_bufs_sub .., binary_bufs_sub .., nullary_bufs_sub .., binary_bufs_sub ..,
    unary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., unary_bufs_sub .., binary_bufs_sub .., nullary_bufs_sub .., binary_bufs_sub ..,
    nullary_bufs_sub .., unary_bufs_sub .., unary_bufs_sub .., ternary_bufs_sub .., unary_bufs_sub .., binary_bufs_sub ..,
    nullary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..⟩

/-- Every weakly fair execution of @main terminates, and every final state has each buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The concatenation's operation leaves at its result the concatenation of its three operands' contents, each read at its
    own buffer. -/
theorem v14_result' (W : Valuation τ sig (Elt F)) (hxs hy) :
    (nary (τ := τ) ![main_v6, main_v13, main_arg3] main_v14
        (fun u => concatenate S1000000x192 1 [⟨S1000000x64, u 0⟩, ⟨S1000000x64, u 1⟩, ⟨S1000000x64, u 2⟩]
          concatenates_S1000000x64_S1000000x64_S1000000x64_S1000000x192_d1) hxs hy).result W (no_index (Proc.devRef .tc main_v14))
      = concatenate S1000000x192 1 [⟨S1000000x64, W (main_v6 : DevRef τ sig)⟩, ⟨S1000000x64, W (main_v13 : DevRef τ sig)⟩,
          ⟨S1000000x64, W (main_arg3 : DevRef τ sig)⟩] concatenates_S1000000x64_S1000000x64_S1000000x64_S1000000x192_d1 :=
  nary_result (τ := τ) ![main_v6, main_v13, main_arg3] main_v14 _ hxs hy W

attribute [local irreducible] Host.gather Host.scatterAdd Host.reduceAdd concatenate in
set_option maxRecDepth 8192 in
set_option maxHeartbeats 4000000 in
/-- The fold at the result buffer is the staged function of the arguments' contents: each operation's result read at its
    own buffer is its function of its operands' contents, and at any other buffer what was there; what is left is the
    stages' composition, term for term. The gather, the scatter-add, the row sums and the concatenation stay folded: the
    equation never looks inside them. -/
theorem out_eq (V : Valuation τ sig (Elt F)) :
    after ops V (main_v54 : DevRef τ sig)
      = Stages.refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) := by
  simp (disch := decide) only [after_cons, after_nil, nullary_result', unary_result', binary_result', ternary_result', v14_result', nullary_result_ne', unary_result_ne', binary_result_ne', ternary_result_ne', nary_result_ne']
  rfl

/-! No operation of the line writes an argument's buffer: each argument ends at its launch contents. -/

set_option maxRecDepth 8192 in
theorem arg0_eq (V : Valuation τ sig (Elt F)) :
    after ops V (main_arg0 : DevRef τ sig) = V (main_arg0 : DevRef τ sig) := by
  simp (disch := decide) only [after_cons, after_nil, nullary_result_ne', unary_result_ne', binary_result_ne', ternary_result_ne', nary_result_ne']

set_option maxRecDepth 8192 in
theorem arg1_eq (V : Valuation τ sig (Elt F)) :
    after ops V (main_arg1 : DevRef τ sig) = V (main_arg1 : DevRef τ sig) := by
  simp (disch := decide) only [after_cons, after_nil, nullary_result_ne', unary_result_ne', binary_result_ne', ternary_result_ne', nary_result_ne']

set_option maxRecDepth 8192 in
theorem arg2_eq (V : Valuation τ sig (Elt F)) :
    after ops V (main_arg2 : DevRef τ sig) = V (main_arg2 : DevRef τ sig) := by
  simp (disch := decide) only [after_cons, after_nil, nullary_result_ne', unary_result_ne', binary_result_ne', ternary_result_ne', nary_result_ne']

set_option maxRecDepth 8192 in
theorem arg3_eq (V : Valuation τ sig (Elt F)) :
    after ops V (main_arg3 : DevRef τ sig) = V (main_arg3 : DevRef τ sig) := by
  simp (disch := decide) only [after_cons, after_nil, nullary_result_ne', unary_result_ne', binary_result_ne', ternary_result_ne', nary_result_ne']

set_option maxRecDepth 8192 in
theorem arg4_eq (V : Valuation τ sig (Elt F)) :
    after ops V (main_arg4 : DevRef τ sig) = V (main_arg4 : DevRef τ sig) := by
  simp (disch := decide) only [after_cons, after_nil, nullary_result_ne', unary_result_ne', binary_result_ne', ternary_result_ne', nary_result_ne']

set_option maxRecDepth 8192 in
theorem arg5_eq (V : Valuation τ sig (Elt F)) :
    after ops V (main_arg5 : DevRef τ sig) = V (main_arg5 : DevRef τ sig) := by
  simp (disch := decide) only [after_cons, after_nil, nullary_result_ne', unary_result_ne', binary_result_ne', ternary_result_ne', nary_result_ne']

set_option maxRecDepth 8192 in
theorem arg6_eq (V : Valuation τ sig (Elt F)) :
    after ops V (main_arg6 : DevRef τ sig) = V (main_arg6 : DevRef τ sig) := by
  simp (disch := decide) only [after_cons, after_nil, nullary_result_ne', unary_result_ne', binary_result_ne', ternary_result_ne', nary_result_ne']

set_option maxRecDepth 8192 in
theorem arg7_eq (V : Valuation τ sig (Elt F)) :
    after ops V (main_arg7 : DevRef τ sig) = V (main_arg7 : DevRef τ sig) := by
  simp (disch := decide) only [after_cons, after_nil, nullary_result_ne', unary_result_ne', binary_result_ne', ternary_result_ne', nary_result_ne']

set_option maxRecDepth 8192 in
theorem arg8_eq (V : Valuation τ sig (Elt F)) :
    after ops V (main_arg8 : DevRef τ sig) = V (main_arg8 : DevRef τ sig) := by
  simp (disch := decide) only [after_cons, after_nil, nullary_result_ne', unary_result_ne', binary_result_ne', ternary_result_ne', nary_result_ne']

set_option maxRecDepth 8192 in
theorem arg9_eq (V : Valuation τ sig (Elt F)) :
    after ops V (main_arg9 : DevRef τ sig) = V (main_arg9 : DevRef τ sig) := by
  simp (disch := decide) only [after_cons, after_nil, nullary_result_ne', unary_result_ne', binary_result_ne', ternary_result_ne', nary_result_ne']

set_option maxRecDepth 8192 in
theorem arg10_eq (V : Valuation τ sig (Elt F)) :
    after ops V (main_arg10 : DevRef τ sig) = V (main_arg10 : DevRef τ sig) := by
  simp (disch := decide) only [after_cons, after_nil, nullary_result_ne', unary_result_ne', binary_result_ne', ternary_result_ne', nary_result_ne']

set_option maxRecDepth 8192 in
theorem arg11_eq (V : Valuation τ sig (Elt F)) :
    after ops V (main_arg11 : DevRef τ sig) = V (main_arg11 : DevRef τ sig) := by
  simp (disch := decide) only [after_cons, after_nil, nullary_result_ne', unary_result_ne', binary_result_ne', ternary_result_ne', nary_result_ne']

set_option maxRecDepth 8192 in
theorem arg12_eq (V : Valuation τ sig (Elt F)) :
    after ops V (main_arg12 : DevRef τ sig) = V (main_arg12 : DevRef τ sig) := by
  simp (disch := decide) only [after_cons, after_nil, nullary_result_ne', unary_result_ne', binary_result_ne', ternary_result_ne', nary_result_ne']

set_option maxRecDepth 8192 in
theorem arg13_eq (V : Valuation τ sig (Elt F)) :
    after ops V (main_arg13 : DevRef τ sig) = V (main_arg13 : DevRef τ sig) := by
  simp (disch := decide) only [after_cons, after_nil, nullary_result_ne', unary_result_ne', binary_result_ne', ternary_result_ne', nary_result_ne']

end Line

/-- Every weakly fair execution of the reference terminates, nothing faulting; its result buffer ends at the staged function
    of the launch arguments and the arguments end as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v54)
        = Stages.refOut (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) := by
  exact (θ_run (defs (F := Ideal)) _ _).mono (fun _ h c => ⟨(h c main_v54).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _)⟩)
    (run_main (F := Ideal) m ρ)

end Cert.ReferenceIdeal.Run

end
-- ==== Proof.RefMsg.lean ====
/-
  The reference's message stage is the message rows: one contraction over the 192 concatenated features against the stacked
  weight matrix is the three contractions over 64 against its row blocks.
-/
import proofs.«422307_j31559419691865_1_alg».proof.Proof.RefStages
import proofs.«422307_j31559419691865_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RefMsg

open Cert.ReferenceIdeal Cert.ReferenceIdeal.Facts₀ Cert.ReferenceIdeal.Facts Idealize.ShloMosaic Idealize.ShloMosaic.ValueIdx

/-- The word `0x3F800000` is the number one. -/
theorem one_word : Ideal.ofBits .f32 0x3F800000#32 = 1 := by
  simp [Ideal.ofBits, Ideal.ieee, -EReal.coe_mul]; norm_num

/-! ### The two contractions read at an index -/

theorem lhs192_0 (j : S1000000x64.Idx) (k : dot_S1000000x192_S192x64_S1000000x64_1_0_0_1_n_n.contr.Idx) :
    (dot_S1000000x192_S192x64_S1000000x64_1_0_0_1_n_n.lhsIdx j k 0).val = (j 0).val := by
  unfold DotDims.lhsIdx
  rw [dif_neg (show ¬(0 : Fin S1000000x192.rank) ∈ dot_S1000000x192_S192x64_S1000000x64_1_0_0_1_n_n.lhsBatch by decide),
    dif_pos (show (0 : Fin S1000000x192.rank) ∈ dot_S1000000x192_S192x64_S1000000x64_1_0_0_1_n_n.lhsNonContracting by decide)]
  rfl

theorem rhs192_1 (j : S1000000x64.Idx) (k : dot_S1000000x192_S192x64_S1000000x64_1_0_0_1_n_n.contr.Idx) :
    (dot_S1000000x192_S192x64_S1000000x64_1_0_0_1_n_n.rhsIdx j k 1).val = (j 1).val := by
  unfold DotDims.rhsIdx
  rw [dif_neg (show ¬(1 : Fin S192x64.rank) ∈ dot_S1000000x192_S192x64_S1000000x64_1_0_0_1_n_n.rhsBatch by decide),
    dif_pos (show (1 : Fin S192x64.rank) ∈ dot_S1000000x192_S192x64_S1000000x64_1_0_0_1_n_n.rhsNonContracting by decide)]
  rfl

theorem lhs192_1 (j : S1000000x64.Idx) (k : dot_S1000000x192_S192x64_S1000000x64_1_0_0_1_n_n.contr.Idx) :
    (dot_S1000000x192_S192x64_S1000000x64_1_0_0_1_n_n.lhsIdx j k 1).val = (k ⟨0, by decide⟩).val :=
  DotDims.lhsIdx_val_of_single _ rfl j k

theorem rhs192_0 (j : S1000000x64.Idx) (k : dot_S1000000x192_S192x64_S1000000x64_1_0_0_1_n_n.contr.Idx) :
    (dot_S1000000x192_S192x64_S1000000x64_1_0_0_1_n_n.rhsIdx j k 0).val = (k ⟨0, by decide⟩).val :=
  DotDims.rhsIdx_val_of_single _ rfl j k

/-- The contraction over the 192 concatenated features at row `e`, column `j`. -/
theorem dot192_apply (l : FVec Ideal S1000000x192 .f32) (r : FVec Ideal S192x64 .f32) (e : Fin 1000000) (j : Fin 64) :
    Host.dotGeneral dot_S1000000x192_S192x64_S1000000x64_1_0_0_1_n_n none l r (ix2 e j)
      = ∑ k : Fin 192, l (ix2 e k) * r (ix2 k j) := by
  refine (Ideal.dotGeneral_apply dot_S1000000x192_S192x64_S1000000x64_1_0_0_1_n_n none .single l r (ix2 e j)).trans ?_
  rw [← Equiv.sum_comp (contrEquiv1 dot_S1000000x192_S192x64_S1000000x64_1_0_0_1_n_n 192 rfl rfl).symm]
  refine Finset.sum_congr rfl fun k _ => ?_
  have hk := contrEquiv1_symm_val dot_S1000000x192_S192x64_S1000000x64_1_0_0_1_n_n 192 rfl rfl k
  have hl : dot_S1000000x192_S192x64_S1000000x64_1_0_0_1_n_n.lhsIdx (ix2 e j)
      ((contrEquiv1 dot_S1000000x192_S192x64_S1000000x64_1_0_0_1_n_n 192 rfl rfl).symm k) = ix2 e k := by
    funext a
    match a with
    | ⟨0, _⟩ => exact Fin.ext (lhs192_0 _ _)
    | ⟨1, _⟩ => exact Fin.ext ((lhs192_1 _ _).trans hk)
  have hr : dot_S1000000x192_S192x64_S1000000x64_1_0_0_1_n_n.rhsIdx (ix2 e j)
      ((contrEquiv1 dot_S1000000x192_S192x64_S1000000x64_1_0_0_1_n_n 192 rfl rfl).symm k) = ix2 k j := by
    funext a
    match a with
    | ⟨0, _⟩ => exact Fin.ext ((rhs192_0 _ _).trans hk)
    | ⟨1, _⟩ => exact Fin.ext (rhs192_1 _ _)
  rw [hl, hr]

theorem lhs64_0 (j : S1000000x64.Idx) (k : dot_S1000000x64_S64x64_S1000000x64_1_0_0_1_n_n.contr.Idx) :
    (dot_S1000000x64_S64x64_S1000000x64_1_0_0_1_n_n.lhsIdx j k 0).val = (j 0).val := by
  unfold DotDims.lhsIdx
  rw [dif_neg (show ¬(0 : Fin S1000000x64.rank) ∈ dot_S1000000x64_S64x64_S1000000x64_1_0_0_1_n_n.lhsBatch by decide),
    dif_pos (show (0 : Fin S1000000x64.rank) ∈ dot_S1000000x64_S64x64_S1000000x64_1_0_0_1_n_n.lhsNonContracting by decide)]
  rfl

theorem rhs64_1 (j : S1000000x64.Idx) (k : dot_S1000000x64_S64x64_S1000000x64_1_0_0_1_n_n.contr.Idx) :
    (dot_S1000000x64_S64x64_S1000000x64_1_0_0_1_n_n.rhsIdx j k 1).val = (j 1).val := by
  unfold DotDims.rhsIdx
  rw [dif_neg (show ¬(1 : Fin S64x64.rank) ∈ dot_S1000000x64_S64x64_S1000000x64_1_0_0_1_n_n.rhsBatch by decide),
    dif_pos (show (1 : Fin S64x64.rank) ∈ dot_S1000000x64_S64x64_S1000000x64_1_0_0_1_n_n.rhsNonContracting by decide)]
  rfl

theorem lhs64_1 (j : S1000000x64.Idx) (k : dot_S1000000x64_S64x64_S1000000x64_1_0_0_1_n_n.contr.Idx) :
    (dot_S1000000x64_S64x64_S1000000x64_1_0_0_1_n_n.lhsIdx j k 1).val = (k ⟨0, by decide⟩).val :=
  DotDims.lhsIdx_val_of_single _ rfl j k

theorem rhs64_0 (j : S1000000x64.Idx) (k : dot_S1000000x64_S64x64_S1000000x64_1_0_0_1_n_n.contr.Idx) :
    (dot_S1000000x64_S64x64_S1000000x64_1_0_0_1_n_n.rhsIdx j k 0).val = (k ⟨0, by decide⟩).val :=
  DotDims.rhsIdx_val_of_single _ rfl j k

/-- The contraction over the 64 hidden units at row `e`, column `j`. -/
theorem dot64_apply (l : FVec Ideal S1000000x64 .f32) (r : FVec Ideal S64x64 .f32) (e : Fin 1000000) (j : Fin 64) :
    Host.dotGeneral dot_S1000000x64_S64x64_S1000000x64_1_0_0_1_n_n none l r (ix2 e j)
      = ∑ k : Fin 64, l (ix2 e k) * r (ix2 k j) := by
  refine (Ideal.dotGeneral_apply dot_S1000000x64_S64x64_S1000000x64_1_0_0_1_n_n none .single l r (ix2 e j)).trans ?_
  rw [← Equiv.sum_comp (contrEquiv1 dot_S1000000x64_S64x64_S1000000x64_1_0_0_1_n_n 64 rfl rfl).symm]
  refine Finset.sum_congr rfl fun k _ => ?_
  have hk := contrEquiv1_symm_val dot_S1000000x64_S64x64_S1000000x64_1_0_0_1_n_n 64 rfl rfl k
  have hl : dot_S1000000x64_S64x64_S1000000x64_1_0_0_1_n_n.lhsIdx (ix2 e j)
      ((contrEquiv1 dot_S1000000x64_S64x64_S1000000x64_1_0_0_1_n_n 64 rfl rfl).symm k) = ix2 e k := by
    funext a
    match a with
    | ⟨0, _⟩ => exact Fin.ext (lhs64_0 _ _)
    | ⟨1, _⟩ => exact Fin.ext ((lhs64_1 _ _).trans hk)
  have hr : dot_S1000000x64_S64x64_S1000000x64_1_0_0_1_n_n.rhsIdx (ix2 e j)
      ((contrEquiv1 dot_S1000000x64_S64x64_S1000000x64_1_0_0_1_n_n 64 rfl rfl).symm k) = ix2 k j := by
    funext a
    match a with
    | ⟨0, _⟩ => exact Fin.ext ((rhs64_0 _ _).trans hk)
    | ⟨1, _⟩ => exact Fin.ext (rhs64_1 _ _)
  rw [hl, hr]

/-! ### The bias on every row, and the activation, at an index -/

/-- A bias vector repeated on every row reads, at row `e` and column `j`, its entry `j`. -/
theorem edgeBias_apply (b : FVec Ideal S64 .f32) (e : Fin 1000000) (j : Fin 64) :
    Stages.edgeBias (F := Ideal) b (ix2 e j) = b (ix1 j) := by
  unfold Stages.edgeBias
  refine (broadcastInDim_apply ![0, 1] bcast_S1x64_S1000000x64_0_1 _ (ix2 e j) (ix2 (0 : Fin 1) j) ?_).trans ?_
  · intro a
    match a with
    | ⟨0, _⟩ => rfl
    | ⟨1, _⟩ => rfl
  · refine broadcastInDim_apply ![1] bcast_S64_S1x64_1 b (ix2 (0 : Fin 1) j) (ix1 j) ?_
    intro a
    match a with
    | ⟨0, _⟩ => rfl

/-- The host's `x · (1 / (1 + exp (−x)))` is `x · σ(x)`. -/
theorem siluE_apply (x : FVec Ideal S1000000x64 .f32) (i : S1000000x64.Idx) :
    Stages.siluE (F := Ideal) x i = Cert.Spec.silu (x i) := by
  unfold Stages.siluE Cert.Spec.silu Ideal.logistic
  show x i * Ideal.div (Ideal.ofBits .f32 0x3F800000#32) (Ideal.ofBits .f32 0x3F800000#32 + Ideal.exp (-(x i))) = _
  rw [one_word]

/-! ### The concatenation of the three feature arrays along the feature axis, at an index -/

/-- The three arrays laid side by side. -/
abbrev cat3 (g1 g2 a3 : FVec Ideal S1000000x64 .f32) : FVec Ideal S1000000x192 .f32 :=
  concatenate S1000000x192 1 [⟨S1000000x64, g1⟩, ⟨S1000000x64, g2⟩, ⟨S1000000x64, a3⟩] concatenates_S1000000x64_S1000000x64_S1000000x64_S1000000x192_d1

/-- Its first 64 columns are the first array. -/
theorem cat3_apply0 (g1 g2 a3 : FVec Ideal S1000000x64 .f32) (e : Fin 1000000) (i : Fin 64) :
    cat3 g1 g2 a3 (ix2 e (⟨i.val, by omega⟩ : Fin 192)) = g1 (ix2 e i) := by
  refine concatenate_apply_piece (t := S1000000x192) 1 [⟨S1000000x64, g1⟩, ⟨S1000000x64, g2⟩, ⟨S1000000x64, a3⟩] concatenates_S1000000x64_S1000000x64_S1000000x64_S1000000x192_d1 (ix2 e (⟨i.val, by omega⟩ : Fin 192))
    0 (show 0 < 3 by omega) S1000000x64 g1 rfl rfl 0 rfl (ix2 e i) ?_ ?_
  · intro b
    match b with
    | ⟨0, _⟩ => exact fun _ => rfl
    | ⟨1, _⟩ => exact fun h => absurd (Fin.ext rfl) h
  · show 0 + i.val = i.val
    omega

/-- Its next 64 columns are the second array. -/
theorem cat3_apply1 (g1 g2 a3 : FVec Ideal S1000000x64 .f32) (e : Fin 1000000) (i : Fin 64) :
    cat3 g1 g2 a3 (ix2 e (⟨64 + i.val, by omega⟩ : Fin 192)) = g2 (ix2 e i) := by
  refine concatenate_apply_piece (t := S1000000x192) 1 [⟨S1000000x64, g1⟩, ⟨S1000000x64, g2⟩, ⟨S1000000x64, a3⟩] concatenates_S1000000x64_S1000000x64_S1000000x64_S1000000x192_d1 (ix2 e (⟨64 + i.val, by omega⟩ : Fin 192))
    1 (show 1 < 3 by omega) S1000000x64 g2 rfl rfl 64 rfl (ix2 e i) ?_ ?_
  · intro b
    match b with
    | ⟨0, _⟩ => exact fun _ => rfl
    | ⟨1, _⟩ => exact fun h => absurd (Fin.ext rfl) h
  · rfl

/-- Its last 64 columns are the third array. -/
theorem cat3_apply2 (g1 g2 a3 : FVec Ideal S1000000x64 .f32) (e : Fin 1000000) (i : Fin 64) :
    cat3 g1 g2 a3 (ix2 e (⟨128 + i.val, by omega⟩ : Fin 192)) = a3 (ix2 e i) := by
  refine concatenate_apply_piece (t := S1000000x192) 1 [⟨S1000000x64, g1⟩, ⟨S1000000x64, g2⟩, ⟨S1000000x64, a3⟩] concatenates_S1000000x64_S1000000x64_S1000000x64_S1000000x192_d1 (ix2 e (⟨128 + i.val, by omega⟩ : Fin 192))
    2 (show 2 < 3 by omega) S1000000x64 a3 rfl rfl 128 rfl (ix2 e i) ?_ ?_
  · intro b
    match b with
    | ⟨0, _⟩ => exact fun _ => rfl
    | ⟨1, _⟩ => exact fun h => absurd (Fin.ext rfl) h
  · rfl

/-- The reference's messages from the gathered source rows `g1`, target rows `g2`, edge features `a3` and the weights are
    the message rows with the three row blocks of the first weight matrix. -/
theorem ref_msg (g1 g2 a3 : FVec Ideal S1000000x64 .f32) (a4 : FVec Ideal S192x64 .f32) (a5 : FVec Ideal S64 .f32)
    (a6 : FVec Ideal S64x64 .f32) (a7 : FVec Ideal S64 .f32) :
    Stages.refMsg (F := Ideal) g1 g2 a3 a4 a5 a6 a7
      = Cert.Spec.msgArr (n := 1000000) g1 g2 a3 (Cert.Spec.wRows 0 (by omega) a4) (Cert.Spec.wRows 64 (by omega) a4)
          (Cert.Spec.wRows 128 (by omega) a4) a5 a6 a7 := by
  funext i
  obtain ⟨e, j, rfl⟩ : ∃ (e : Fin 1000000) (j : Fin 64), i = ix2 e j := ⟨i 0, i 1, eq_ix2 i⟩
  unfold Stages.refMsg
  rw [addf_apply, dot64_apply, edgeBias_apply]
  show _ = (∑ k : Fin 64, Cert.Spec.silu (Cert.Spec.msgHidden (Cert.Spec.rowOf g1 e) (Cert.Spec.rowOf g2 e)
      (Cert.Spec.rowOf a3 e) (Cert.Spec.wRows 0 (by omega) a4) (Cert.Spec.wRows 64 (by omega) a4)
      (Cert.Spec.wRows 128 (by omega) a4) a5 k) * a6 (ix2 k j)) + a7 (ix1 j)
  congr 1
  refine Finset.sum_congr rfl fun k _ => ?_
  rw [siluE_apply, addf_apply, dot192_apply, edgeBias_apply, Cert.Spec.sum192_split]
  have c0 := cat3_apply0 g1 g2 a3 e
  have c1 := cat3_apply1 g1 g2 a3 e
  have c2 := cat3_apply2 g1 g2 a3 e
  simp only [cat3] at c0 c1 c2
  simp only [c0, c1, c2]
  unfold Cert.Spec.msgHidden Cert.Spec.rowOf Cert.Spec.wRows
  simp only [Nat.zero_add]

end Cert.ReferenceIdeal.RefMsg

end
-- ==== Proof.RefUpd.lean ====
/-
  The reference's update stage and layer normalisation are the update rows: its variance divides by 64 − 0 = 64 and its
  guard 64 − 0 > 0 holds, so the variance is the mean of the squared centred entries.
-/
import proofs.«422307_j31559419691865_1_alg».proof.Proof.RefStages
import proofs.«422307_j31559419691865_1_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost
import Idealize.ShloMosaic.Lib.StackMember

noncomputable section

namespace Cert.ReferenceIdeal.RefUpd

open Cert.ReferenceIdeal Cert.ReferenceIdeal.Facts₀ Cert.ReferenceIdeal.Facts Idealize.ShloMosaic Idealize.ShloMosaic.ValueIdx

/-- The word 0x42800000 denotes the real 64. -/
theorem c64_eq : Ideal.ofBits .f32 0x42800000#32 = ((64 : ℝ) : EReal) := by
  simp [Ideal.ofBits, Ideal.ieee, -EReal.coe_mul]; norm_num

/-- So it is positive. -/
theorem c64_pos : (0 : EReal) < Ideal.ofBits .f32 0x42800000#32 := by
  rw [c64_eq]; exact EReal.coe_pos.mpr (by norm_num)

/-- A bias vector repeated on every row reads, at (n, j), the vector at j. -/
theorem nodeBias_apply (b : FVec Ideal S64 .f32) (n : Fin 50000) (j : Fin 64) :
    Stages.nodeBias (F := Ideal) b (ix2 n j) = b (ix1 j) := by
  unfold Stages.nodeBias
  refine (broadcastInDim_oneRow_apply _ _ n j).trans ?_
  refine broadcastInDim_apply _ _ b (ix2 (0 : Fin 1) j) (ix1 j) ?_
  intro a
  match a with
  | ⟨0, _⟩ => rfl

/-- A column repeated along the 64 features reads, at (n, j), the column at n. -/
theorem colBcast_apply (c : FVec Ideal S50000x1 .f32) (n : Fin 50000) (j : Fin 64) :
    broadcastInDim S50000x64 ![0, 1] bcast_S50000x1_S50000x64_0_1 c (ix2 n j) = c (ix2 n (0 : Fin 1)) := by
  refine broadcastInDim_apply _ _ c (ix2 n j) (ix2 n (0 : Fin 1)) ?_
  intro a
  match a with
  | ⟨0, _⟩ => rfl
  | ⟨1, _⟩ => rfl

/-- Summing a 50000 × 64 array along its second axis leaves 50000 entries. -/
theorem reduces_rows : S50000x64.Reduces [1] S50000 := by decide

/-- The row sums, as a column: at (n, 0) the sum of row n. -/
theorem rowSum_apply (x : FVec Ideal S50000x64 .f32) (n : Fin 50000) (u : Fin 1) :
    Stages.rowSum (F := Ideal) x (ix2 n u) = ∑ l : Fin 64, x (ix2 n l) := by
  unfold Stages.rowSum
  refine (broadcastInDim_apply _ _ _ (ix2 n u) (ix1 n) ?_).trans ?_
  · intro a
    match a with
    | ⟨0, _⟩ => rfl
  · rw [hostReduceAdd_apply, Ideal.hostReduceAdd_single _ reduces_rows, constant_apply, Ideal.ofBits_zero_f32, zero_add]
    refine Finset.sum_congr rfl fun l _ => congrArg x ?_
    funext a
    match a with
    | ⟨0, _⟩ => rfl
    | ⟨1, _⟩ => rfl

/-- The row means: at (n, 0) the sum of row n over 64. -/
theorem refMean_apply (x : FVec Ideal S50000x64 .f32) (n : Fin 50000) (u : Fin 1) :
    Stages.refMean (F := Ideal) x (ix2 n u)
      = Ideal.div (∑ l : Fin 64, x (ix2 n l)) (Ideal.ofBits .f32 0x42800000#32) := by
  unfold Stages.refMean
  rw [hostDivf_apply, rowSum_apply, broadcastInDim_scalar_apply, constant_apply]

/-- The variance's divisor, 64 − 0 with the 0 an integer converted, is 64. -/
theorem varDiv_apply (i : S_.Idx) :
    Stages.varDiv (F := Ideal) i = Ideal.ofBits .f32 0x42800000#32 := by
  unfold Stages.varDiv
  rw [subf_apply, constant_apply, sitofp_apply, constantI_apply]
  show Ideal.ofBits .f32 0x42800000#32 - ((((0#32 : BitVec 32).toInt : ℤ) : ℝ) : EReal) = _
  simp

/-- The guard 64 − 0 > 0 holds. -/
theorem guard_apply (i : S_.Idx) :
    cmpf .ogt (Stages.varDiv (F := Ideal)) (constant S_ .f32 0x00000000#32) i = 1#1 := by
  rw [cmpf_apply, varDiv_apply, constant_apply, Ideal.ofBits_zero_f32, Ideal.cmpf_def]
  unfold Ideal.cmp
  simp [c64_pos]

/-- The row variances: at (n, 0) the mean of the squared centred entries of row n. -/
theorem refVar_apply (x : FVec Ideal S50000x64 .f32) (n : Fin 50000) (u : Fin 1) :
    Stages.refVar (F := Ideal) x (ix2 n u)
      = Ideal.div (∑ l : Fin 64,
            (x (ix2 n l) - Ideal.div (∑ l : Fin 64, x (ix2 n l)) (Ideal.ofBits .f32 0x42800000#32))
              * (x (ix2 n l) - Ideal.div (∑ l : Fin 64, x (ix2 n l)) (Ideal.ofBits .f32 0x42800000#32)))
          (Ideal.ofBits .f32 0x42800000#32) := by
  unfold Stages.refVar
  rw [select_apply, broadcastInDim_scalar_apply, guard_apply, select_one, hostDivf_apply, rowSum_apply,
    broadcastInDim_scalar_apply, varDiv_apply]
  refine congrArg (fun s => Ideal.div s _) (Finset.sum_congr rfl fun l _ => ?_)
  rw [mulf_apply, subf_apply, colBcast_apply, refMean_apply]

/-- The layer normalisation of an array read at (n, j) is the layer normalisation of its row n at j. -/
theorem refNorm_apply (x : FVec Ideal S50000x64 .f32) (a12 a13 : FVec Ideal S64 .f32) (n : Fin 50000) (j : Fin 64) :
    Stages.refNorm (F := Ideal) x a12 a13 (ix2 n j)
      = Cert.Spec.layerNorm Cert.Spec.c64 Cert.Spec.cEps (fun l => x (ix2 n l)) a12 a13 j := by
  unfold Stages.refNorm
  rw [addf_apply, mulf_apply, mulf_apply, subf_apply, colBcast_apply, colBcast_apply, nodeBias_apply, nodeBias_apply,
    refMean_apply]
  show _ * FloatOps.hostUnary .rsqrt (addf (Stages.refVar (F := Ideal) x) _ (ix2 n (0 : Fin 1))) * _ + _ = _
  rw [Ideal.hostUnary_rsqrt_def, addf_apply, refVar_apply, broadcastInDim_scalar_apply, constant_apply]
  rfl

/-- The host's silu, x · (1 / (1 + exp (−x))), is x · σ(x). -/
theorem siluN_apply (x : FVec Ideal S50000x64 .f32) (i : S50000x64.Idx) :
    Stages.siluN (F := Ideal) x i = Cert.Spec.silu (x i) := by
  unfold Stages.siluN Cert.Spec.silu
  rw [mulf_apply, hostDivf_apply, addf_apply, broadcastInDim_scalar_apply, constant_apply, Ideal.ofBits_one_f32]
  rfl

/-- A 50000 × 64 array times a 64 × 64 matrix, at (n, j): the sum over the 64 contracted coordinates. -/
theorem dot_apply (A : FVec Ideal S50000x64 .f32) (B : FVec Ideal S64x64 .f32) (n : Fin 50000) (j : Fin 64) :
    Host.dotGeneral dot_S50000x64_S64x64_S50000x64_1_0_0_1_n_n none A B (ix2 n j)
      = ∑ c : Fin 64, A (ix2 n c) * B (ix2 c j) :=
  StackMember.dotGeneral_plain_apply (m := 50000) (n := 64) (k := 64) none A B n j

/-- The node features plus the update network's output, at (n, j). -/
theorem refX_apply (a0 agg : FVec Ideal S50000x64 .f32) (a8 : FVec Ideal S64x64 .f32) (a9 : FVec Ideal S64 .f32)
    (a10 : FVec Ideal S64x64 .f32) (a11 : FVec Ideal S64 .f32) (n : Fin 50000) (j : Fin 64) :
    Stages.refX (F := Ideal) a0 agg a8 a9 a10 a11 (ix2 n j)
      = Cert.Spec.updPre (Cert.Spec.rowOf (n := 50000) a0 n) (Cert.Spec.rowOf (n := 50000) agg n) a8 a9 a10 a11 j := by
  unfold Stages.refX Cert.Spec.updPre Cert.Spec.rowOf
  rw [addf_apply, addf_apply, dot_apply, nodeBias_apply]
  refine congrArg (fun s => a0 (ix2 n j) + (s + a11 (ix1 j))) (Finset.sum_congr rfl fun k _ => ?_)
  rw [siluN_apply, addf_apply, dot_apply, nodeBias_apply]

/-- The reference's update stage from the node features `a0`, the aggregated messages `agg` and the weights is the update rows. -/
theorem ref_upd (a0 agg : FVec Ideal S50000x64 .f32) (a8 : FVec Ideal S64x64 .f32) (a9 : FVec Ideal S64 .f32)
    (a10 : FVec Ideal S64x64 .f32) (a11 a12 a13 : FVec Ideal S64 .f32) :
    Stages.refUpd (F := Ideal) a0 agg a8 a9 a10 a11 a12 a13 = Cert.Spec.updArr (n := 50000) a0 agg a8 a9 a10 a11 a12 a13 := by
  funext i
  obtain ⟨n, j, rfl⟩ : ∃ (n : Fin 50000) (j : Fin 64), i = ix2 n j := ⟨i 0, i 1, eq_ix2 i⟩
  unfold Stages.refUpd
  rw [refNorm_apply]
  unfold Cert.Spec.updArr Cert.Spec.updRow
  refine congrArg (fun r => Cert.Spec.layerNorm Cert.Spec.c64 Cert.Spec.cEps r a12 a13 j) (funext fun l => ?_)
  exact refX_apply a0 agg a8 a9 a10 a11 n l

end Cert.ReferenceIdeal.RefUpd

end
-- ==== Proof.PreIdx.lean ====
/-
  What the precondition says of the two index arrays, and what it gives: every source and target index lies in [0, 50000),
  so its wrap is the index itself, the range test of `take` passes on every edge, and `take` is the plain gather.
-/
import proofs.«422307_j31559419691865_1_alg».proof.Pre_finite_inputs
import proofs.«422307_j31559419691865_1_alg».proof.Proof.Gen.Pre_finite_inputs
import proofs.«422307_j31559419691865_1_alg».proof.Proof.KTerms
import Idealize.ShloMosaic.Lib.StableHlo.Predicate
import Idealize.ShloMosaic.Lib.ReduceAll
import Idealize.ShloMosaic.Lib.ValueIdx

noncomputable section

namespace Cert.PreIdx

open Idealize.ShloMosaic Idealize.ShloMosaic.ValueIdx

/-- The scalar shape has one index. -/
instance subsingleton_scalar_idx : Subsingleton Cert.Pre_finite_inputs.S_.Idx := ⟨fun a b => funext fun d => d.elim0⟩

/-- The words 0, 50000 and 49999, read signed. -/
theorem toInt_zero32 : (0#32 : BitVec 32).toInt = 0 := by decide
theorem toInt_50000 : (50000#32 : BitVec 32).toInt = 50000 := by decide
theorem toInt_49999 : (49999#32 : BitVec 32).toInt = 49999 := by decide

/-- Under the precondition every source index and every target index lies in `[0, 50000)`. -/
theorem idx_of_pre (a0 : FVec Ideal Cert.Pre_finite_inputs.S50000x64 .f32) (a1 a2 : IVec Cert.Pre_finite_inputs.S1000000 32)
    (a3 : FVec Ideal Cert.Pre_finite_inputs.S1000000x64 .f32) (a4 : FVec Ideal Cert.Pre_finite_inputs.S192x64 .f32)
    (a5 : FVec Ideal Cert.Pre_finite_inputs.S64 .f32) (a6 : FVec Ideal Cert.Pre_finite_inputs.S64x64 .f32)
    (a7 : FVec Ideal Cert.Pre_finite_inputs.S64 .f32) (a8 : FVec Ideal Cert.Pre_finite_inputs.S64x64 .f32)
    (a9 : FVec Ideal Cert.Pre_finite_inputs.S64 .f32) (a10 : FVec Ideal Cert.Pre_finite_inputs.S64x64 .f32)
    (a11 a12 a13 : FVec Ideal Cert.Pre_finite_inputs.S64 .f32)
    (h : Cert.Pre_finite_inputs.fn (F := Ideal) a0 a1 a2 a3 a4 a5 a6 a7 a8 a9 a10 a11 a12 a13 = fun _ => 1#1) :
    (∀ e, 0 ≤ (a1 e).toInt ∧ (a1 e).toInt < 50000) ∧ (∀ e, 0 ≤ (a2 e).toInt ∧ (a2 e).toInt < 50000) := by
  -- the precondition at its one index: a conjunction whose last four conjuncts speak of the indices
  have h0 := congrFun h ValueIdx.ix0
  dsimp only [Cert.Pre_finite_inputs.fn, Cert.Pre_finite_inputs.fn_part1, Cert.Pre_finite_inputs.fn_part2,
    Cert.Pre_finite_inputs.fn_part3, Cert.Pre_finite_inputs.fn_part4] at h0
  obtain ⟨h123, r4⟩ := IntOp.andi_eq_one.1 h0
  obtain ⟨h12, r3⟩ := IntOp.andi_eq_one.1 h123
  obtain ⟨h1, r2⟩ := IntOp.andi_eq_one.1 h12
  obtain ⟨-, r1⟩ := IntOp.andi_eq_one.1 h1
  refine ⟨fun e => ⟨?_, ?_⟩, fun e => ⟨?_, ?_⟩⟩
  · -- 0 ≤ a1 e
    have c : IntOp.cmpi .sge (a1 e) 0#32 = 1#1 := Host.reduce_andi_all _ _ _ _ _ r1 e
    have := IntOp.cmpi_sge.1 c
    rwa [toInt_zero32] at this
  · -- a1 e < 50000
    have c : IntOp.cmpi .slt (a1 e) 50000#32 = 1#1 := Host.reduce_andi_all _ _ _ _ _ r2 e
    have := IntOp.cmpi_slt.1 c
    rwa [toInt_50000] at this
  · -- 0 ≤ a2 e
    have c : IntOp.cmpi .sge (a2 e) 0#32 = 1#1 := Host.reduce_andi_all _ _ _ _ _ r3 e
    have := IntOp.cmpi_sge.1 c
    rwa [toInt_zero32] at this
  · -- a2 e < 50000
    have c : IntOp.cmpi .slt (a2 e) 50000#32 = 1#1 := Host.reduce_andi_all _ _ _ _ _ r4 e
    have := IntOp.cmpi_slt.1 c
    rwa [toInt_50000] at this

/-- An index in [0, 50000) is not negative, so its wrap is the index itself. -/
theorem wrap_word (w : BitVec 32) (h0 : 0 ≤ w.toInt) :
    Scalar.select (IntOp.cmpi .slt w 0#32) (IntOp.addi w 50000#32) w = w :=
  if_neg (fun hc => by
    have := IntOp.cmpi_slt.1 hc
    rw [toInt_zero32] at this
    omega)

/-- An index in [0, 50000) passes both range tests: 0 ≤ w and w ≤ 49999. -/
theorem range_word (w : BitVec 32) (h0 : 0 ≤ w.toInt) (h1 : w.toInt < 50000) :
    IntOp.andi (IntOp.cmpi .sge w 0#32) (IntOp.cmpi .sle w 49999#32) = 1#1 :=
  IntOp.andi_eq_one.2 ⟨IntOp.cmpi_sge.2 (by rw [toInt_zero32]; exact h0),
    IntOp.cmpi_sle.2 (by rw [toInt_49999]; omega)⟩

/-- A left fold by and over one-bit words that starts at 1 and meets only 1s comes out 1. -/
theorem foldl_andi_one {ι : Type} (f : ι → BitVec 1) :
    ∀ (l : List ι) (init : BitVec 1), init = 1#1 → (∀ n ∈ l, f n = 1#1) → l.foldl (fun r n => IntOp.andi r (f n)) init = 1#1
  | [], init, hi, _ => hi
  | a :: l, init, hi, hl =>
    foldl_andi_one f l _ (IntOp.andi_eq_one.2 ⟨hi, hl a List.mem_cons_self⟩)
      (fun n hn => hl n (List.mem_cons_of_mem _ hn))

/-- Where every index lies in [0, 50000), each entry of the wrapped column is one of the indices. -/
theorem wrapIdx_apply (i : IVec Cert.KernelIdeal.S1000000 32) (hi : ∀ e, 0 ≤ (i e).toInt ∧ (i e).toInt < 50000)
    (m : Cert.KernelIdeal.S1000000x1.Idx) : ∃ e, Cert.KernelIdeal.Terms.wrapIdx i m = i e :=
  ⟨_, wrap_word (i _) (hi _).1⟩

/-- Where every index lies in [0, 50000), the range test of the wrapped column passes on every edge. -/
theorem inRange_wrap (i : IVec Cert.KernelIdeal.S1000000 32) (hi : ∀ e, 0 ≤ (i e).toInt ∧ (i e).toInt < 50000)
    (k : Cert.KernelIdeal.S1000000.Idx) : Cert.KernelIdeal.Terms.inRange (Cert.KernelIdeal.Terms.wrapIdx i) k = 1#1 := by
  unfold Cert.KernelIdeal.Terms.inRange
  rw [Host.reduce_eq_foldl]
  refine foldl_andi_one _ _ _ rfl (fun m _ => ?_)
  obtain ⟨e, he⟩ := wrapIdx_apply i hi m
  show IntOp.andi (IntOp.cmpi .sge (Cert.KernelIdeal.Terms.wrapIdx i m) 0#32)
    (IntOp.cmpi .sle (Cert.KernelIdeal.Terms.wrapIdx i m) 49999#32) = 1#1
  rw [he]
  exact range_word _ (hi e).1 (hi e).2

/-- Where every index lies in `[0, 50000)`, `take` is the gather of rows at the wrapped indices: the mask is all ones. -/
theorem take_in_range (a0 : FVec Ideal Cert.KernelIdeal.S50000x64 .f32) (i : IVec Cert.KernelIdeal.S1000000 32)
    (hi : ∀ e, 0 ≤ (i e).toInt ∧ (i e).toInt < 50000) :
    Cert.KernelIdeal.Terms.takeRows a0 i
      = Host.gather Cert.KernelIdeal.gather_S50000x64_S1000000x1_S1000000x64_1_0_n_n_0_1_164 a0 (Cert.KernelIdeal.Terms.wrapIdx i) := by
  funext j
  unfold Cert.KernelIdeal.Terms.takeRows
  refine (ValueIdx.select_apply _ _ _ j).trans ?_
  -- the mask at (e, j) is the range test at the edge it names, which is 1
  have hm : ∀ hb, broadcastInDim Cert.KernelIdeal.S1000000x64 ![0] hb
      (Cert.KernelIdeal.Terms.inRange (Cert.KernelIdeal.Terms.wrapIdx i)) j = 1#1 := fun _ => inRange_wrap i hi _
  rw [hm]
  exact ValueIdx.select_one _ _

end Cert.PreIdx

end
-- ==== Proof.Bridge.lean ====
/-
  The two programs compute one function of their arguments where every edge index lies in [0, 50000).  There `take` is the
  plain gather of rows, so the kernel's source and target operands are the reference's gathered rows; the kernel's three
  slices of the first weight matrix are its three row blocks; the reference's message stage is the message rows over
  those blocks (its one contraction over 192 features splits into the three over 64) and its update stage the update
  rows; and the scatter-add between the two stages is the same operation of the same operands on both sides.
-/
import proofs.«422307_j31559419691865_1_alg».proof.Proof.Spec
import proofs.«422307_j31559419691865_1_alg».proof.Proof.KTerms
import proofs.«422307_j31559419691865_1_alg».proof.Proof.RefStages
import proofs.«422307_j31559419691865_1_alg».proof.Proof.RefMsg
import proofs.«422307_j31559419691865_1_alg».proof.Proof.RefUpd
import proofs.«422307_j31559419691865_1_alg».proof.Proof.PreIdx
import Idealize.ShloMosaic.Lib.Pipeline.Value
import Idealize.ShloMosaic.Lib.ValueIdx

noncomputable section

namespace Cert.Bridge

open Idealize.ShloMosaic Idealize.ShloMosaic.ValueIdx

/-- The kernel's slice of rows `o … o + 63` of the first weight matrix is that row block. -/
theorem wSrc_eq (a4 : FVec Ideal Cert.KernelIdeal.S192x64 .f32) : Cert.KernelIdeal.Terms.wSrc a4 = Cert.Spec.wRows 0 (by omega) a4 := by
  funext i
  unfold Cert.KernelIdeal.Terms.wSrc Cert.Spec.wRows
  refine extractStridedSlice_apply _ _ _ i _ fun a => ?_
  match a with
  | ⟨0, _⟩ => rfl
  | ⟨1, _⟩ => exact (Nat.zero_add _).symm

theorem wDst_eq (a4 : FVec Ideal Cert.KernelIdeal.S192x64 .f32) : Cert.KernelIdeal.Terms.wDst a4 = Cert.Spec.wRows 64 (by omega) a4 := by
  funext i
  unfold Cert.KernelIdeal.Terms.wDst Cert.Spec.wRows
  refine extractStridedSlice_apply _ _ _ i _ fun a => ?_
  match a with
  | ⟨0, _⟩ => rfl
  | ⟨1, _⟩ => exact (Nat.zero_add _).symm

theorem wEdge_eq (a4 : FVec Ideal Cert.KernelIdeal.S192x64 .f32) : Cert.KernelIdeal.Terms.wEdge a4 = Cert.Spec.wRows 128 (by omega) a4 := by
  funext i
  unfold Cert.KernelIdeal.Terms.wEdge Cert.Spec.wRows
  refine extractStridedSlice_apply _ _ _ i _ fun a => ?_
  match a with
  | ⟨0, _⟩ => rfl
  | ⟨1, _⟩ => exact (Nat.zero_add _).symm

/-- The two programs' wrapped indices, gathers and scatter-adds are the same operations. -/
theorem gather_eq (a0 : FVec Ideal Cert.KernelIdeal.S50000x64 .f32) (i : IVec Cert.KernelIdeal.S1000000 32) :
    Host.gather Cert.KernelIdeal.gather_S50000x64_S1000000x1_S1000000x64_1_0_n_n_0_1_164 a0 (Cert.KernelIdeal.Terms.wrapIdx i)
      = Cert.ReferenceIdeal.Stages.gatherRows (F := Ideal) a0 i := rfl

theorem agg_eq (msgs : FVec Ideal Cert.KernelIdeal.S1000000x64 .f32) (a2 : IVec Cert.KernelIdeal.S1000000 32) :
    Cert.KernelIdeal.Terms.aggK msgs a2 = Cert.ReferenceIdeal.Stages.refAgg (F := Ideal) msgs a2 := rfl

/-- Under the precondition the kernel program's function of the arguments is the reference's. -/
theorem out_eq (a0 : FVec Ideal Cert.KernelIdeal.S50000x64 .f32) (a1 a2 : IVec Cert.KernelIdeal.S1000000 32)
    (a3 : FVec Ideal Cert.KernelIdeal.S1000000x64 .f32) (a4 : FVec Ideal Cert.KernelIdeal.S192x64 .f32)
    (a5 : FVec Ideal Cert.KernelIdeal.S64 .f32) (a6 : FVec Ideal Cert.KernelIdeal.S64x64 .f32) (a7 : FVec Ideal Cert.KernelIdeal.S64 .f32)
    (a8 : FVec Ideal Cert.KernelIdeal.S64x64 .f32) (a9 : FVec Ideal Cert.KernelIdeal.S64 .f32) (a10 : FVec Ideal Cert.KernelIdeal.S64x64 .f32)
    (a11 a12 a13 : FVec Ideal Cert.KernelIdeal.S64 .f32)
    (h : Cert.Pre_finite_inputs.fn (F := Ideal) a0 a1 a2 a3 a4 a5 a6 a7 a8 a9 a10 a11 a12 a13 = fun _ => 1#1) :
    Cert.KernelIdeal.Terms.kOut a0 a1 a2 a3 a4 a5 a6 a7 a8 a9 a10 a11 a12 a13 = Cert.ReferenceIdeal.Stages.refOut (F := Ideal) a0 a1 a2 a3 a4 a5 a6 a7 a8 a9 a10 a11 a12 a13 := by
  obtain ⟨h1, h2⟩ := Cert.PreIdx.idx_of_pre a0 a1 a2 a3 a4 a5 a6 a7 a8 a9 a10 a11 a12 a13 h
  unfold Cert.KernelIdeal.Terms.kOut Cert.KernelIdeal.Terms.kMsg Cert.ReferenceIdeal.Stages.refOut
  rw [Cert.ReferenceIdeal.RefUpd.ref_upd, Cert.ReferenceIdeal.RefMsg.ref_msg,
    Cert.PreIdx.take_in_range a0 a1 h1, Cert.PreIdx.take_in_range a0 a2 h2, gather_eq, gather_eq,
    wSrc_eq, wDst_eq, wEdge_eq, agg_eq]

end Cert.Bridge

end
-- ==== Proof.lean ====
/-
  A message-passing layer over a graph of 50000 nodes and 1000000 edges, as a program of two pallas regions and as a jnp
  reference, computes one function over the extended reals wherever every edge's source and target index lies in
  [0, 50000) (outside that range the reference indexes its node array out of range, and the kernel's `take` answers the
  not-a-number pattern where the reference's gather clamps).

  Both programs: gather the source and target node features of every edge; per edge, a two-layer network with silu
  between on the 192 concatenated features (the kernel multiplies the three 64-wide parts by the three row blocks of the
  first weight matrix and adds the three products: one sum over 192 terms against three sums over 64, equal because
  addition of extended reals is commutative and associative); scatter-add the messages onto their target nodes; per node,
  a second two-layer network on the aggregated messages, added to the node's features and layer-normalised (mean and
  variance over the 64 features, both programs dividing by the same 64 and adding the same ε under the reciprocal root).
  The changes of float format in the kernel are the identity over the extended reals, the kernel's matrix products onto a
  zero accumulator are the reference's contractions, and the kernel's logistic is the reference's 1 / (1 + exp (−x)).

  The frames of the two kernel programs are the generated ones; the reference's frame is its run with the result dropped.
  The idealization rewrote no operation, so there is nothing to preserve beyond the text itself.
-/
import proofs.«422307_j31559419691865_1_alg».proof.Defs
import proofs.«422307_j31559419691865_1_alg».proof.Proof.Gen.Kernel
import proofs.«422307_j31559419691865_1_alg».proof.Proof.Gen.Kernel.Frame
import proofs.«422307_j31559419691865_1_alg».proof.Proof.Gen.KernelIdeal
import proofs.«422307_j31559419691865_1_alg».proof.Proof.Gen.KernelIdeal.Frame
import proofs.«422307_j31559419691865_1_alg».proof.Proof.Gen.ReferenceIdeal
import proofs.«422307_j31559419691865_1_alg».proof.Proof.Gen.Pre_finite_inputs
import proofs.«422307_j31559419691865_1_alg».proof.Proof.KRun
import proofs.«422307_j31559419691865_1_alg».proof.Proof.KValue
import proofs.«422307_j31559419691865_1_alg».proof.Proof.RRun
import proofs.«422307_j31559419691865_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.Run.run m ρ)

theorem preserves : Cert.preserves_Kernel_KernelIdeal := trivial

/-- Both programs end with the layer's result as one function of the arguments: the kernel program's run names it, the
    reference's run ends at its staged function, and the two functions agree under the precondition. -/
theorem algebraic : Cert.algebraic_KernelIdeal_ReferenceIdeal := by
  intro m ρ m' ρ' hpre hagree
  refine ⟨fun c => Cert.KernelIdeal.Terms.kOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun _ h c => ⟨(h c).1.trans (Cert.KernelIdeal.KValue.result_eq m ρ c), (h c).2⟩)
      (Cert.KernelIdeal.GenRun.run_named (F := Ideal) m ρ)
  · refine (θ_run Cert.ReferenceIdeal.defs _ _).mono (fun _ h c => ⟨(h c).1.trans ?_, (h c).2⟩)
      (Cert.ReferenceIdeal.Run.run m' ρ')
    obtain ⟨e0, e1, e2, e3, e4, e5, e6, e7, e8, e9, e10, e11, e12, e13⟩ := hagree c
    rw [e0, e1, e2, e3, e4, e5, e6, e7, e8, e9, e10, e11, e12, e13]
    exact (Cert.Bridge.out_eq _ _ _ _ _ _ _ _ _ _ _ _ _ _ (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
